-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v278) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S2500000 : Shape := ⟨1, ![2500000]⟩
abbrev S6 : Shape := ⟨1, ![6]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S2500000 : S_.BroadcastsInDim S2500000 (![] : Fin 0 → Fin S2500000.rank)
  reducesTo_S2500000_S_d0 : S2500000.ReducesTo [0] S_
  bcast_S_S6 : S_.BroadcastsInDim S6 (![] : Fin 0 → Fin S6.rank)
  reducesTo_S6_S_d0 : S6.ReducesTo [0] S_

variable [Facts]

def fn_part1 {F : FTy → Type} [FloatOps F] (main_arg2 : IVec S2500000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 0#32
  let main_v18 : IVec S2500000 32 := broadcastInDim S2500000 ![] bcast_S_S2500000 main_c_6
  let main_v19 : IVec S2500000 1 := cmpi .sge main_arg2 main_v18
  let main_c_7 : IVec S_ 1 := constantI S_ 1 1#1
  let main_v20 : IVec S_ 1 := (fun x v => Host.reduce IntOp.andi x v reducesTo_S2500000_S_d0 h_S_) main_v19 main_c_7
  let main_v21 : IVec S_ 1 := andi main_v17 main_v20
  main_v21

def fn {F : FTy → Type} [FloatOps F] (main_arg0 : FVec F S1000000 .f32) (main_arg1 : FVec F S2500000 .f32) (main_arg2 : IVec S2500000 32) (main_arg3 : FVec F S6 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S2500000 .f32 := Host.absf main_arg1
  let main_cst_0 : FVec F S_ .f32 := constant S_ .f32 0x7F800000#32
  let main_v5 : FVec F S2500000 .f32 := broadcastInDim S2500000 ![] bcast_S_S2500000 main_cst_0
  let main_v6 : IVec S2500000 1 := cmpf .olt main_v4 main_v5
  let main_c_1 : IVec S_ 1 := constantI S_ 1 1#1
  let main_v7 : IVec S_ 1 := (fun x v => Host.reduce IntOp.andi x v reducesTo_S2500000_S_d0 h_S_) main_v6 main_c_1
  let main_v8 : IVec S_ 1 := andi main_v3 main_v7
  let main_v9 : FVec F S6 .f32 := Host.absf main_arg3
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_cst_4 : FVec F S_ .f32 := constant S_ .f32 0x00000000#32
  let main_v14 : FVec F S1000000 .f32 := broadcastInDim S1000000 ![] bcast_S_S1000000 main_cst_4
  let main_v15 : IVec S1000000 1 := cmpf .une main_arg0 main_v14
  let main_c_5 : IVec S_ 1 := constantI S_ 1 1#1
  fn_part1 (F := F) main_arg2 main_v13 main_v15 main_c_5
-- ==== Kernel.lean ====
abbrev S1000000 : Shape := ⟨1, ![1000000]⟩
abbrev S2500000 : Shape := ⟨1, ![2500000]⟩
abbrev S6 : Shape := ⟨1, ![6]⟩
abbrev S42 : Shape := ⟨1, ![42]⟩
abbrev S_ : Shape := ⟨0, ![]⟩
abbrev S1003520 : Shape := ⟨1, ![1003520]⟩
abbrev S1003520x6 : Shape := ⟨2, ![1003520, 6]⟩
abbrev S4096 : Shape := ⟨1, ![4096]⟩
abbrev S4096x6 : Shape := ⟨2, ![4096, 6]⟩
abbrev S4096x1 : Shape := ⟨2, ![4096, 1]⟩
abbrev S1x6 : Shape := ⟨2, ![1, 6]⟩
abbrev S1000000x6 : Shape := ⟨2, ![1000000, 6]⟩
abbrev S2500000x1 : Shape := ⟨2, ![2500000, 1]⟩
abbrev S2500608 : Shape := ⟨1, ![2500608]⟩
abbrev S2500608x42 : Shape := ⟨2, ![2500608, 42]⟩
abbrev S2048 : Shape := ⟨1, ![2048]⟩
abbrev S2048x42 : Shape := ⟨2, ![2048, 42]⟩
abbrev S2048x1 : Shape := ⟨2, ![2048, 1]⟩
abbrev S1x42 : Shape := ⟨2, ![1, 42]⟩
abbrev S2500000x42 : Shape := ⟨2, ![2500000, 42]⟩

abbrev nBuf : Space → Nat
  | .hbm => 28
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S2500000, .f32⟩
  | .hbm, ⟨2, _⟩ => ⟨S2500000, .i32⟩
  | .hbm, ⟨3, _⟩ => ⟨S6, .f32⟩
  | .hbm, ⟨4, _⟩ => ⟨S42, .f32⟩
  | .hbm, ⟨5, _⟩ => ⟨S_, .f32⟩
  | .hbm, ⟨6, _⟩ => ⟨S_, .f32⟩
  | .hbm, ⟨7, _⟩ => ⟨S1003520, .f32⟩
  | .hbm, ⟨8, _⟩ => ⟨S1003520x6, .f32⟩
  | .hbm, ⟨9, _⟩ => ⟨S1000000x6, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2500000, .i32⟩
  | .hbm, ⟨14, _⟩ => ⟨S2500000, .i32⟩
  | .hbm, ⟨15, _⟩ => ⟨S_, .i32⟩
  | .hbm, ⟨16, _⟩ => ⟨S2500000, .i32⟩
  | .hbm, ⟨17, _⟩ => ⟨S2500000, .i32⟩
  | .hbm, ⟨18, _⟩ => ⟨S2500000x1, .i32⟩
  | .hbm, ⟨19, _⟩ => ⟨S2500000, .f32⟩
  | .hbm, ⟨20, _⟩ => ⟨S_, .f32⟩
  | .hbm, ⟨21, _⟩ => ⟨S_, .f32⟩
  | .hbm, ⟨22, _⟩ => ⟨S2500608, .f32⟩
  | .hbm, ⟨23, _⟩ => ⟨S_, .f32⟩
  | .hbm, ⟨24, _⟩ => ⟨S_, .f32⟩
  | .hbm, ⟨25, _⟩ => ⟨S2500608, .f32⟩
  | .hbm, ⟨26, _⟩ => ⟨S2500608x42, .f32⟩
  | .hbm, ⟨27, _⟩ => ⟨S2500000x42, .f32⟩
  | .local _ .vmem, ⟨0, _⟩ => ⟨S4096, .f32⟩
  | .local _ .vmem, ⟨1, _⟩ => ⟨S4096, .f32⟩
  | .local _ .vmem, ⟨2, _⟩ => ⟨S6, .f32⟩
  | .local _ .vmem, ⟨3, _⟩ => ⟨S4096x6, .f32⟩
  | .local _ .vmem, ⟨4, _⟩ => ⟨S4096x6, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048, .f32⟩
  | .local _ .vmem, ⟨9, _⟩ => ⟨S42, .f32⟩
  | .local _ .vmem, ⟨10, _⟩ => ⟨S2048x42, .f32⟩
  | .local _ .vmem, ⟨11, _⟩ => ⟨S2048x42, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_call2_v0 : Ref sig .tc := ⟨.hbm, 18, rfl⟩
abbrev main_v4 : Ref sig .tc := ⟨.hbm, 19, rfl⟩
abbrev main_cst_2 : Ref sig .tc := ⟨.hbm, 20, rfl⟩
abbrev main_call3_v0 : Ref sig .tc := ⟨.hbm, 21, rfl⟩
abbrev main_v5 : Ref sig .tc := ⟨.hbm, 22, rfl⟩
abbrev main_cst_3 : Ref sig .tc := ⟨.hbm, 23, rfl⟩
abbrev main_call4_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![245], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1221], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x42 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S1000000_S1003520_035200 : S1000000.Pads (![0] : Fin 1 → Nat) ![3520] ![0] S1003520
  h_S_ : 0 < S_.numel
  inb_S4096_S4096_0 : ∀ a, (![0] : Fin 1 → Nat) a + S4096.size a ≤ S4096.size a
  h_S4096 : 0 < S4096.numel
  shapeCasts_S4096_S4096 : S4096.ShapeCasts S4096
  inb_S6_S6_0 : ∀ a, (![0] : Fin 1 → Nat) a + S6.size a ≤ S6.size a
  h_S6 : 0 < S6.numel
  shapeCasts_S4096_S4096x1 : S4096.ShapeCasts S4096x1
  shapeCasts_S6_S1x6 : S6.ShapeCasts S1x6
  broadcasts_S1x6_S4096x6 : S1x6.Broadcasts S4096x6
  broadcasts_S4096x1_S4096x6 : S4096x1.Broadcasts S4096x6
  inb_S4096x6_S4096x6_0_0 : ∀ a, (![0, 0] : Fin 2 → Nat) a + S4096x6.size a ≤ S4096x6.size a
  h_S4096x6 : 0 < S4096x6.numel
  slices_S1003520x6_S1000000x6_0_0 : S1003520x6.Slices ![0, 0] S1000000x6
  bcast_S_S2500000 : S_.BroadcastsInDim S2500000 (![] : Fin 0 → Fin S2500000.rank)
  bcast_S2500000_S2500000x1_0 : S2500000.BroadcastsInDim S2500000x1 (![0] : Fin 1 → Fin S2500000x1.rank)
  pads_S2500000_S2500608_06080 : S2500000.Pads (![0] : Fin 1 → Nat) ![608] ![0] S2500608
  inb_S2048_S2048_0 : ∀ a, (![0] : Fin 1 → Nat) a + S2048.size a ≤ S2048.size a
  h_S2048 : 0 < S2048.numel
  shapeCasts_S2048_S2048 : S2048.ShapeCasts S2048
  inb_S42_S42_0 : ∀ a, (![0] : Fin 1 → Nat) a + S42.size a ≤ S42.size a
  h_S42 : 0 < S42.numel
  shapeCasts_S2048_S2048x1 : S2048.ShapeCasts S2048x1
  shapeCasts_S42_S1x42 : S42.ShapeCasts S1x42
  broadcasts_S2048x1_S2048x42 : S2048x1.Broadcasts S2048x42
  broadcasts_S1x42_S2048x42 : S1x42.Broadcasts S2048x42
  iota_S2048x42_d1_w32 : S2048x42.Iotas .tc 32 [1]
  natLt_1_32 : 1 < 32
  shapeCasts_S2048x1_S2048x1 : S2048x1.ShapeCasts S2048x1
  inb_S2048x42_S2048x42_0_0 : ∀ a, (![0, 0] : Fin 2 → Nat) a + S2048x42.size a ≤ S2048x42.size a
  h_S2048x42 : 0 < S2048x42.numel
  slices_S2500608x42_S2500000x42_0_0 : S2500608x42.Slices ![0, 0] S2500000x42
  gather_S1000000_S2500000x1_S2500000_n_0_n_n_0_1_1_wf : GatherDims.WF S1000000 S2500000x1 S2500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1003520.size a
  hwx0_0 : ∀ i : grid0.Coords, EltTy.bits .f32 = 32 ∨ (Rect.block (s := S1003520) S4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6.size a ≤ S6.size a
  hwx0_1 : ∀ i : grid0.Coords, EltTy.bits .f32 = 32 ∨ (Rect.block (s := S6) S6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x6.size a ≤ S1003520x6.size a
  hwx0_2 : ∀ i : grid0.Coords, EltTy.bits .f32 = 32 ∨ (Rect.block (s := S1003520x6) S4096x6.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S2500608.size a
  hwx1_0 : ∀ i : grid1.Coords, EltTy.bits .f32 = 32 ∨ (Rect.block (s := S2500608) S2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S2500608.size a
  hwx1_1 : ∀ i : grid1.Coords, EltTy.bits .f32 = 32 ∨ (Rect.block (s := S2500608) S2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42.size a ≤ S42.size a
  hwx1_2 : ∀ i : grid1.Coords, EltTy.bits .f32 = 32 ∨ (Rect.block (s := S42) S42.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x42.size a ≤ S2500608x42.size a
  hwx1_3 : ∀ i : grid1.Coords, EltTy.bits .f32 = 32 ∨ (Rect.block (s := S2500608x42) S2048x42.size (cc1_transform_3 i) (hinb1_3 i)).WholeWords (EltTy.packing .f32)

variable [Facts₀]

def gather_S1000000_S2500000x1_S2500000_n_0_n_n_0_1_1 : GatherDims S1000000 S2500000x1 S2500000 where
  offsetDims := []
  collapsedSliceDims := [0]
  operandBatchingDims := []
  startIndicesBatchingDims := []
  startIndexMap := [0]
  indexVectorDim := 1
  sliceSizes := ![1]
  wf := gather_S1000000_S2500000x1_S2500000_n_0_n_n_0_1_1_wf

abbrev win0_0 : Pipeline.Window sig grid0 :=
  Pipeline.Window.ofSpec (Memref.whole main_v0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x6.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_cst) S42.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2048x42.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000 : Shape := ⟨1, ![1000000]⟩
abbrev S2500000 : Shape := ⟨1, ![2500000]⟩
abbrev S6 : Shape := ⟨1, ![6]⟩
abbrev S7x6 : Shape := ⟨2, ![7, 6]⟩
abbrev S1000000x1 : Shape := ⟨2, ![1000000, 1]⟩
abbrev S_ : Shape := ⟨0, ![]⟩
abbrev S1x6 : Shape := ⟨2, ![1, 6]⟩
abbrev S1000000x6 : Shape := ⟨2, ![1000000, 6]⟩
abbrev S1000000x1x6 : Shape := ⟨3, ![1000000, 1, 6]⟩
abbrev S1000000x7x6 : Shape := ⟨3, ![1000000, 7, 6]⟩
abbrev S1000000x42 : Shape := ⟨2, ![1000000, 42]⟩
abbrev S2500000x1 : Shape := ⟨2, ![2500000, 1]⟩
abbrev S2500000x7 : Shape := ⟨2, ![2500000, 7]⟩
abbrev S2500000x42 : Shape := ⟨2, ![2500000, 42]⟩
abbrev S2500000x7x6 : Shape := ⟨3, ![2500000, 7, 6]⟩
abbrev S2500000x7x1 : Shape := ⟨3, ![2500000, 7, 1]⟩

abbrev nBuf : Space → Nat
  | .hbm => 327
  | .vmem => 0
  | .smem => 0
  | _ => 0

abbrev hbmTy0_0 (i : Nat) : BufTy := match i % 128 with
  | 0 => ⟨S1000000, .f32⟩
  | 1 => ⟨S2500000, .f32⟩
  | 2 => ⟨S2500000, .i32⟩
  | 3 => ⟨S6, .f32⟩
  | 4 => ⟨S7x6, .f32⟩
  | 5 => ⟨S1000000x1, .f32⟩
  | 6 => ⟨S_, .f32⟩
  | 7 => ⟨S1000000x1, .f32⟩
  | 8 => ⟨S1000000x1, .f32⟩
  | 9 => ⟨S1000000x1, .f32⟩
  | 10 => ⟨S1000000x1, .f32⟩
  | 11 => ⟨S1000000x1, .f32⟩
  | 12 => ⟨S_, .f32⟩
  | 13 => ⟨S1000000x1, .f32⟩
  | 14 => ⟨S1000000x1, .f32⟩
  | 15 => ⟨S_, .f32⟩
  | 16 => ⟨S1000000x1, .f32⟩
  | 17 => ⟨S1000000x1, .f32⟩
  | 18 => ⟨S1000000x1, .f32⟩
  | 19 => ⟨S_, .f32⟩
  | 20 => ⟨S1000000x1, .f32⟩
  | 21 => ⟨S1000000x1, .f32⟩
  | 22 => ⟨S1000000x1, .f32⟩
  | 23 => ⟨S1000000x1, .f32⟩
  | 24 => ⟨S_, .f32⟩
  | 25 => ⟨S1000000x1, .f32⟩
  | 26 => ⟨S1000000x1, .f32⟩
  | 27 => ⟨S1000000x1, .f32⟩
  | 28 => ⟨S1000000x1, .f32⟩
  | 29 => ⟨S1000000x1, .f32⟩
  | 30 => ⟨S1x6, .f32⟩
  | 31 => ⟨S1000000x6, .f32⟩
  | 32 => ⟨S1000000x6, .f32⟩
  | 33 => ⟨S1000000x6, .f32⟩
  | 34 => ⟨S1000000x6, .f32⟩
  | 35 => ⟨S1000000x6, .f32⟩
  | 36 => ⟨S1000000x6, .f32⟩
  | 37 => ⟨S_, .f32⟩
  | 38 => ⟨S1000000, .f32⟩
  | 39 => ⟨S1000000, .f32⟩
  | 40 => ⟨S1000000x1, .f32⟩
  | 41 => ⟨S1x6, .f32⟩
  | 42 => ⟨S6, .f32⟩
  | 43 => ⟨S1x6, .f32⟩
  | 44 => ⟨S1000000x6, .f32⟩
  | 45 => ⟨S1000000x6, .f32⟩
  | 46 => ⟨S1000000x6, .f32⟩
  | 47 => ⟨S1000000x6, .f32⟩
  | 48 => ⟨S1000000x6, .f32⟩
  | 49 => ⟨S1000000x1, .f32⟩
  | 50 => ⟨S1x6, .f32⟩
  | 51 => ⟨S6, .f32⟩
  | 52 => ⟨S1x6, .f32⟩
  | 53 => ⟨S1000000x6, .f32⟩
  | 54 => ⟨S1000000x6, .f32⟩
  | 55 => ⟨S1000000x6, .f32⟩
  | 56 => ⟨S1000000x6, .f32⟩
  | 57 => ⟨S1000000x6, .f32⟩
  | 58 => ⟨S1000000x6, .f32⟩
  | 59 => ⟨S1000000x6, .f32⟩
  | 60 => ⟨S1000000x6, .f32⟩
  | 61 => ⟨S1000000x6, .f32⟩
  | 62 => ⟨S1000000x6, .f32⟩
  | 63 => ⟨S1000000x6, .f32⟩
  | 64 => ⟨S1000000x1, .f32⟩
  | 65 => ⟨S1x6, .f32⟩
  | 66 => ⟨S6, .f32⟩
  | 67 => ⟨S1x6, .f32⟩
  | 68 => ⟨S1000000x6, .f32⟩
  | 69 => ⟨S1000000x6, .f32⟩
  | 70 => ⟨S1000000x6, .f32⟩
  | 71 => ⟨S1000000x6, .f32⟩
  | 72 => ⟨S1000000x6, .f32⟩
  | 73 => ⟨S1000000x6, .f32⟩
  | 74 => ⟨S1000000x6, .f32⟩
  | 75 => ⟨S1000000x6, .f32⟩
  | 76 => ⟨S1000000x6, .f32⟩
  | 77 => ⟨S1000000x6, .f32⟩
  | 78 => ⟨S1000000x6, .f32⟩
  | 79 => ⟨S_, .f32⟩
  | 80 => ⟨S1000000x6, .f32⟩
  | 81 => ⟨S1000000x6, .f32⟩
  | 82 => ⟨S1000000x6, .f32⟩
  | 83 => ⟨S1000000x6, .f32⟩
  | 84 => ⟨S1000000x1, .f32⟩
  | 85 => ⟨S1x6, .f32⟩
  | 86 => ⟨S6, .f32⟩
  | 87 => ⟨S1x6, .f32⟩
  | 88 => ⟨S1000000x6, .f32⟩
  | 89 => ⟨S1000000x6, .f32⟩
  | 90 => ⟨S1000000x6, .f32⟩
  | 91 => ⟨S1000000x6, .f32⟩
  | 92 => ⟨S1000000x6, .f32⟩
  | 93 => ⟨S1000000x6, .f32⟩
  | 94 => ⟨S1000000x6, .f32⟩
  | 95 => ⟨S1000000x6, .f32⟩
  | 96 => ⟨S1000000x6, .f32⟩
  | 97 => ⟨S1000000x6, .f32⟩
  | 98 => ⟨S1000000x6, .f32⟩
  | 99 => ⟨S_, .f32⟩
  | 100 => ⟨S1000000x6, .f32⟩
  | 101 => ⟨S1000000x6, .f32⟩
  | 102 => ⟨S1000000x6, .f32⟩
  | 103 => ⟨S1000000x6, .f32⟩
  | 104 => ⟨S_, .f32⟩
  | 105 => ⟨S1000000x6, .f32⟩
  | 106 => ⟨S1000000x6, .f32⟩
  | 107 => ⟨S1000000x6, .f32⟩
  | 108 => ⟨S1000000x6, .f32⟩
  | 109 => ⟨S1000000x1, .f32⟩
  | 110 => ⟨S1x6, .f32⟩
  | 111 => ⟨S6, .f32⟩
  | 112 => ⟨S1x6, .f32⟩
  | 113 => ⟨S1000000x6, .f32⟩
  | 114 => ⟨S1000000x6, .f32⟩
  | 115 => ⟨S1000000x6, .f32⟩
  | 116 => ⟨S1000000x6, .f32⟩
  | 117 => ⟨S1000000x6, .f32⟩
  | 118 => ⟨S1000000x6, .f32⟩
  | 119 => ⟨S1000000x6, .f32⟩
  | 120 => ⟨S1000000x6, .f32⟩
  | 121 => ⟨S1000000x6, .f32⟩
  | 122 => ⟨S1000000x6, .f32⟩
  | 123 => ⟨S1000000x6, .f32⟩
  | 124 => ⟨S_, .f32⟩
  | 125 => ⟨S1000000x6, .f32⟩
  | 126 => ⟨S1000000x6, .f32⟩
  | 127 => ⟨S1000000x6, .f32⟩
  | _ => ⟨S1000000, .f32⟩

abbrev hbmTy0_1 (i : Nat) : BufTy := match i % 128 with
  | 0 => ⟨S1000000x6, .f32⟩
  | 1 => ⟨S_, .f32⟩
  | 2 => ⟨S1000000x6, .f32⟩
  | 3 => ⟨S1000000x6, .f32⟩
  | 4 => ⟨S1000000x6, .f32⟩
  | 5 => ⟨S1000000x6, .f32⟩
  | 6 => ⟨S_, .f32⟩
  | 7 => ⟨S1000000x6, .f32⟩
  | 8 => ⟨S1000000x6, .f32⟩
  | 9 => ⟨S1000000x6, .f32⟩
  | 10 => ⟨S1000000x6, .f32⟩
  | 11 => ⟨S1000000x1, .f32⟩
  | 12 => ⟨S1x6, .f32⟩
  | 13 => ⟨S6, .f32⟩
  | 14 => ⟨S1x6, .f32⟩
  | 15 => ⟨S1000000x6, .f32⟩
  | 16 => ⟨S1000000x6, .f32⟩
  | 17 => ⟨S1000000x6, .f32⟩
  | 18 => ⟨S1000000x6, .f32⟩
  | 19 => ⟨S1000000x6, .f32⟩
  | 20 => ⟨S1000000x6, .f32⟩
  | 21 => ⟨S1000000x6, .f32⟩
  | 22 => ⟨S1000000x6, .f32⟩
  | 23 => ⟨S1000000x6, .f32⟩
  | 24 => ⟨S1000000x6, .f32⟩
  | 25 => ⟨S1000000x6, .f32⟩
  | 26 => ⟨S_, .f32⟩
  | 27 => ⟨S1000000x6, .f32⟩
  | 28 => ⟨S1000000x6, .f32⟩
  | 29 => ⟨S1000000x6, .f32⟩
  | 30 => ⟨S1000000x6, .f32⟩
  | 31 => ⟨S_, .f32⟩
  | 32 => ⟨S1000000x6, .f32⟩
  | 33 => ⟨S1000000x6, .f32⟩
  | 34 => ⟨S1000000x6, .f32⟩
  | 35 => ⟨S1000000x6, .f32⟩
  | 36 => ⟨S_, .f32⟩
  | 37 => ⟨S1000000x6, .f32⟩
  | 38 => ⟨S1000000x6, .f32⟩
  | 39 => ⟨S1000000x6, .f32⟩
  | 40 => ⟨S1000000x6, .f32⟩
  | 41 => ⟨S_, .f32⟩
  | 42 => ⟨S1000000x6, .f32⟩
  | 43 => ⟨S1000000x6, .f32⟩
  | 44 => ⟨S1000000x6, .f32⟩
  | 45 => ⟨S1000000x6, .f32⟩
  | 46 => ⟨S1000000x1, .f32⟩
  | 47 => ⟨S1x6, .f32⟩
  | 48 => ⟨S6, .f32⟩
  | 49 => ⟨S1x6, .f32⟩
  | 50 => ⟨S1000000x6, .f32⟩
  | 51 => ⟨S1000000x6, .f32⟩
  | 52 => ⟨S1000000x6, .f32⟩
  | 53 => ⟨S1000000x6, .f32⟩
  | 54 => ⟨S1000000x6, .f32⟩
  | 55 => ⟨S1000000x6, .f32⟩
  | 56 => ⟨S1000000x6, .f32⟩
  | 57 => ⟨S1000000x6, .f32⟩
  | 58 => ⟨S1000000x6, .f32⟩
  | 59 => ⟨S1000000x6, .f32⟩
  | 60 => ⟨S1000000x6, .f32⟩
  | 61 => ⟨S_, .f32⟩
  | 62 => ⟨S1000000x6, .f32⟩
  | 63 => ⟨S1000000x6, .f32⟩
  | 64 => ⟨S1000000x6, .f32⟩
  | 65 => ⟨S1000000x6, .f32⟩
  | 66 => ⟨S_, .f32⟩
  | 67 => ⟨S1000000x6, .f32⟩
  | 68 => ⟨S1000000x6, .f32⟩
  | 69 => ⟨S1000000x6, .f32⟩
  | 70 => ⟨S1000000x6, .f32⟩
  | 71 => ⟨S_, .f32⟩
  | 72 => ⟨S1000000x6, .f32⟩
  | 73 => ⟨S1000000x6, .f32⟩
  | 74 => ⟨S1000000x6, .f32⟩
  | 75 => ⟨S1000000x6, .f32⟩
  | 76 => ⟨S_, .f32⟩
  | 77 => ⟨S1000000x6, .f32⟩
  | 78 => ⟨S1000000x6, .f32⟩
  | 79 => ⟨S1000000x6, .f32⟩
  | 80 => ⟨S1000000x6, .f32⟩
  | 81 => ⟨S_, .f32⟩
  | 82 => ⟨S1000000x6, .f32⟩
  | 83 => ⟨S1000000x6, .f32⟩
  | 84 => ⟨S1000000x6, .f32⟩
  | 85 => ⟨S1000000x6, .f32⟩
  | 86 => ⟨S1000000x1x6, .f32⟩
  | 87 => ⟨S1000000x1x6, .f32⟩
  | 88 => ⟨S1000000x1x6, .f32⟩
  | 89 => ⟨S1000000x1x6, .f32⟩
  | 90 => ⟨S1000000x1x6, .f32⟩
  | 91 => ⟨S1000000x1x6, .f32⟩
  | 92 => ⟨S1000000x1x6, .f32⟩
  | 93 => ⟨S1000000x7x6, .f32⟩
  | 94 => ⟨S1000000x42, .f32⟩
  | 95 => ⟨S1000000, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S1000000, .f32⟩
  | 115 => ⟨S1000000, .f32⟩
  | 116 => ⟨S1000000x1, .f32⟩
  | 117 => ⟨S1000000x42, .f32⟩
  | 118 => ⟨S1000000x42, .f32⟩
  | 119 => ⟨S2500000, .f32⟩
  | 120 => ⟨S_, .f32⟩
  | 121 => ⟨S2500000, .f32⟩
  | 122 => ⟨S_, .f32⟩
  | 123 => ⟨S2500000, .f32⟩
  | 124 => ⟨S2500000, .f32⟩
  | 125 => ⟨S2500000, .f32⟩
  | 126 => ⟨S_, .f32⟩
  | 127 => ⟨S2500000, .f32⟩
  | _ => ⟨S1000000, .f32⟩

abbrev hbmTy0_2 (i : Nat) : BufTy := match i % 128 with
  | 0 => ⟨S2500000, .f32⟩
  | 1 => ⟨S2500000, .f32⟩
  | 2 => ⟨S_, .f32⟩
  | 3 => ⟨S2500000, .f32⟩
  | 4 => ⟨S2500000, .f32⟩
  | 5 => ⟨S_, .f32⟩
  | 6 => ⟨S2500000, .f32⟩
  | 7 => ⟨S2500000, .f32⟩
  | 8 => ⟨S2500000, .f32⟩
  | 9 => ⟨S_, .f32⟩
  | 10 => ⟨S2500000, .f32⟩
  | 11 => ⟨S2500000, .f32⟩
  | 12 => ⟨S2500000, .f32⟩
  | 13 => ⟨S_, .f32⟩
  | 14 => ⟨S2500000, .f32⟩
  | 15 => ⟨S2500000, .f32⟩
  | 16 => ⟨S_, .f32⟩
  | 17 => ⟨S2500000, .f32⟩
  | 18 => ⟨S2500000, .f32⟩
  | 19 => ⟨S2500000, .f32⟩
  | 20 => ⟨S_, .f32⟩
  | 21 => ⟨S2500000, .f32⟩
  | 22 => ⟨S2500000, .f32⟩
  | 23 => ⟨S2500000, .f32⟩
  | 24 => ⟨S_, .f32⟩
  | 25 => ⟨S2500000, .f32⟩
  | 26 => ⟨S2500000, .f32⟩
  | 27 => ⟨S_, .f32⟩
  | 28 => ⟨S2500000, .f32⟩
  | 29 => ⟨S2500000, .f32⟩
  | 30 => ⟨S2500000, .f32⟩
  | 31 => ⟨S_, .f32⟩
  | 32 => ⟨S2500000, .f32⟩
  | 33 => ⟨S2500000, .f32⟩
  | 34 => ⟨S2500000, .f32⟩
  | 35 => ⟨S_, .f32⟩
  | 36 => ⟨S2500000, .f32⟩
  | 37 => ⟨S2500000, .f32⟩
  | 38 => ⟨S_, .f32⟩
  | 39 => ⟨S2500000, .f32⟩
  | 40 => ⟨S2500000, .f32⟩
  | 41 => ⟨S2500000, .f32⟩
  | 42 => ⟨S_, .f32⟩
  | 43 => ⟨S2500000, .f32⟩
  | 44 => ⟨S2500000, .f32⟩
  | 45 => ⟨S2500000, .f32⟩
  | 46 => ⟨S_, .f32⟩
  | 47 => ⟨S2500000, .f32⟩
  | 48 => ⟨S2500000, .f32⟩
  | 49 => ⟨S2500000x1, .f32⟩
  | 50 => ⟨S2500000x1, .f32⟩
  | 51 => ⟨S2500000x1, .f32⟩
  | 52 => ⟨S2500000x1, .f32⟩
  | 53 => ⟨S2500000x1, .f32⟩
  | 54 => ⟨S2500000x1, .f32⟩
  | 55 => ⟨S2500000x1, .f32⟩
  | 56 => ⟨S2500000x7, .f32⟩
  | 57 => ⟨S_, .i32⟩
  | 58 => ⟨S2500000, .i32⟩
  | 59 => ⟨S2500000, .i1⟩
  | 60 => ⟨S_, .i32⟩
  | 61 => ⟨S2500000, .i32⟩
  | 62 => ⟨S2500000, .i32⟩
  | 63 => ⟨S2500000, .i32⟩
  | 64 => ⟨S2500000x1, .i32⟩
  | 65 => ⟨S2500000x42, .f32⟩
  | 66 => ⟨S2500000x7x6, .f32⟩
  | 67 => ⟨S2500000x7x1, .f32⟩
  | 68 => ⟨S2500000x7x6, .f32⟩
  | 69 => ⟨S2500000x7x6, .f32⟩
  | 70 => ⟨S2500000x42, .f32⟩
  | _ => ⟨S1000000, .f32⟩

abbrev hbmTy (i : Nat) : BufTy := match i / 128 with
  | 0 => hbmTy0_0 i
  | 1 => hbmTy0_1 i
  | 2 => hbmTy0_2 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_6 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_7 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_8 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_9 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_cst_10 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_11 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_cst_12 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_13 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_14 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_cst_15 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_cst_16 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_cst_17 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_cst_18 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_cst_19 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_cst_20 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_cst_21 : Ref sig .tc := ⟨.hbm, 226, rfl⟩
abbrev main_v200 : Ref sig .tc := ⟨.hbm, 227, rfl⟩
abbrev main_v201 : Ref sig .tc := ⟨.hbm, 228, rfl⟩
abbrev main_cst_22 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_cst_23 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_cst_24 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_cst_25 : Ref sig .tc := ⟨.hbm, 248, rfl⟩
abbrev main_v218 : Ref sig .tc := ⟨.hbm, 249, rfl⟩
abbrev main_cst_26 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_cst_27 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_cst_28 : Ref sig .tc := ⟨.hbm, 258, rfl⟩
abbrev main_v225 : Ref sig .tc := ⟨.hbm, 259, rfl⟩
abbrev main_v226 : Ref sig .tc := ⟨.hbm, 260, rfl⟩
abbrev main_cst_29 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_cst_30 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_cst_31 : Ref sig .tc := ⟨.hbm, 269, rfl⟩
abbrev main_v233 : Ref sig .tc := ⟨.hbm, 270, rfl⟩
abbrev main_v234 : Ref sig .tc := ⟨.hbm, 271, rfl⟩
abbrev main_cst_32 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_cst_33 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_cst_34 : Ref sig .tc := ⟨.hbm, 280, rfl⟩
abbrev main_v241 : Ref sig .tc := ⟨.hbm, 281, rfl⟩
abbrev main_v242 : Ref sig .tc := ⟨.hbm, 282, rfl⟩
abbrev main_cst_35 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_cst_36 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_cst_37 : Ref sig .tc := ⟨.hbm, 291, rfl⟩
abbrev main_v249 : Ref sig .tc := ⟨.hbm, 292, rfl⟩
abbrev main_v250 : Ref sig .tc := ⟨.hbm, 293, rfl⟩
abbrev main_cst_38 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_cst_39 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_cst_40 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_c : Ref sig .tc := ⟨.hbm, 313, rfl⟩
abbrev main_v267 : Ref sig .tc := ⟨.hbm, 314, rfl⟩
abbrev main_v268 : Ref sig .tc := ⟨.hbm, 315, rfl⟩
abbrev main_c_41 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S6_S1x6_1 : S6.BroadcastsInDim S1x6 (![1] : Fin 1 → Fin S1x6.rank)
  bcast_S1x6_S1000000x6_0_1 : S1x6.BroadcastsInDim S1000000x6 (![0, 1] : Fin 2 → Fin S1000000x6.rank)
  bcast_S1000000x1_S1000000x6_0_1 : S1000000x1.BroadcastsInDim S1000000x6 (![0, 1] : Fin 2 → Fin S1000000x6.rank)
  bcast_S_S1000000 : S_.BroadcastsInDim S1000000 (![] : Fin 0 → Fin S1000000.rank)
  slices_S7x6_S1x6_0_0 : S7x6.Slices ![0, 0] S1x6
  shapeCasts_S1x6_S6 : S1x6.ShapeCasts S6
  slices_S7x6_S1x6_1_0 : S7x6.Slices ![1, 0] S1x6
  slices_S7x6_S1x6_2_0 : S7x6.Slices ![2, 0] S1x6
  bcast_S_S1000000x6 : S_.BroadcastsInDim S1000000x6 (![] : Fin 0 → Fin S1000000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  bcast_S1000000x6_S1000000x1x6_0_2 : S1000000x6.BroadcastsInDim S1000000x1x6 (![0, 2] : Fin 2 → Fin S1000000x1x6.rank)
  concatenates_S1000000x1x6_S1000000x1x6_S1000000x1x6_S1000000x1x6_S1000000x1x6_S1000000x1x6_S1000000x1x6_S1000000x7x6_d1 : Shape.Concatenates [S1000000x1x6, S1000000x1x6, S1000000x1x6, S1000000x1x6, S1000000x1x6, S1000000x1x6, S1000000x1x6] S1000000x7x6 1
  shapeCasts_S1000000x7x6_S1000000x42 : S1000000x7x6.ShapeCasts S1000000x42
  bcast_S1000000x1_S1000000x42_0_1 : S1000000x1.BroadcastsInDim S1000000x42 (![0, 1] : Fin 2 → Fin S1000000x42.rank)
  bcast_S_S2500000 : S_.BroadcastsInDim S2500000 (![] : Fin 0 → Fin S2500000.rank)
  bcast_S2500000_S2500000x1_0 : S2500000.BroadcastsInDim S2500000x1 (![0] : Fin 1 → Fin S2500000x1.rank)
  concatenates_S2500000x1_S2500000x1_S2500000x1_S2500000x1_S2500000x1_S2500000x1_S2500000x1_S2500000x7_d1 : Shape.Concatenates [S2500000x1, S2500000x1, S2500000x1, S2500000x1, S2500000x1, S2500000x1, S2500000x1] S2500000x7 1
  shapeCasts_S2500000x42_S2500000x7x6 : S2500000x42.ShapeCasts S2500000x7x6
  bcast_S2500000x7_S2500000x7x1_0_1 : S2500000x7.BroadcastsInDim S2500000x7x1 (![0, 1] : Fin 2 → Fin S2500000x7x1.rank)
  bcast_S2500000x7x1_S2500000x7x6_0_1_2 : S2500000x7x1.BroadcastsInDim S2500000x7x6 (![0, 1, 2] : Fin 3 → Fin S2500000x7x6.rank)
  shapeCasts_S2500000x7x6_S2500000x42 : S2500000x7x6.ShapeCasts S2500000x42
  gather_S1000000x42_S2500000x1_S2500000x42_1_0_n_n_0_1_142_wf : GatherDims.WF S1000000x42 S2500000x1 S2500000x42 [1] [0] [] [0] [] 1 ![1, 42]

variable [Facts₀]

def gather_S1000000x42_S2500000x1_S2500000x42_1_0_n_n_0_1_142 : GatherDims S1000000x42 S2500000x1 S2500000x42 where
  offsetDims := [1]
  collapsedSliceDims := [0]
  operandBatchingDims := []
  startIndicesBatchingDims := []
  startIndexMap := [0]
  indexVectorDim := 1
  sliceSizes := ![1, 42]
  wf := gather_S1000000x42_S2500000x1_S2500000x42_1_0_n_n_0_1_142_wf

class Facts : Prop extends Facts₀ where

variable [Facts]
-- ==== Proof.Spec.lean ====
/-
  The two programs' results as functions of ONE gathered distance, ONE angle and a column, on the extended reals,
  and the laws that join them.

  Output 1, the distance embedding, at edge e and radial index k: env(d) · sin(freq k · d) with d = dists e / 5, where
  env(d) = 1/d − 28·d⁵ + 48·d⁵·d + 21·d⁵·d·d. The two programs differ only in how the fifth power is bracketed.

  Output 2 at triplet t and column q = 6·l + k: env(d) · j_l(d · z q) · P_l(cos(angle t)), where d is the distance of the
  gathered edge over 5, z q the q-th entry of a fixed table of 42 words, j_l the spherical Bessel function of order l
  by the upward recurrence j₀ = sin x / x, j₁ = sin x / x² − cos x / x, j_{m+1} = (2m+1)/x · j_m − j_{m−1}, and P_l the
  Legendre polynomial by its recurrence. One program divides by x each time; the other forms 1/x once and multiplies.
  Off x = 0 the two agree: a quotient by a nonzero x is the product with x⁻¹, and (x·x)⁻¹ = x⁻¹·x⁻¹.
  One program scales the distance by the rational 1/5, the other divides it by 5.

  The gathered edge: one program clamps the signed index into [0, 999999]; the other adds 1000000 to a negative index
  and the gather then clamps. On a non-negative index the two rows are one.
-/
import Idealize.ShloMosaic.PureOps.Ideal
import Idealize.ShloMosaic.Lib.ValueIdx

noncomputable section

namespace Cert.Spec

open Idealize.ShloMosaic

/-- The extended real a 32-bit float word denotes. -/
abbrev lit (w : BitVec 32) : EReal := Ideal.ofBits .f32 w

abbrev one : EReal := lit 0x3F800000#32
abbrev two : EReal := lit 0x40000000#32
abbrev three : EReal := lit 0x40400000#32
abbrev four : EReal := lit 0x40800000#32
abbrev five : EReal := lit 0x40A00000#32
abbrev six : EReal := lit 0x40C00000#32
abbrev seven : EReal := lit 0x40E00000#32
abbrev nine : EReal := lit 0x41100000#32
abbrev eleven : EReal := lit 0x41300000#32
abbrev m28 : EReal := lit 0xC1E00000#32
abbrev c48 : EReal := lit 0x42400000#32
abbrev c21 : EReal := lit 0x41A80000#32

/-! ## The scaled distance -/

/-- The distance times the rational 1/5. -/
def dK (r : EReal) : EReal := r * ((1 / 5 : ℝ) : EReal)
/-- The distance divided by the word 5.0. -/
def dR (r : EReal) : EReal := Ideal.div r five

/-! ## The envelope -/

def pow5K (d : EReal) : EReal := (((d * d) * d) * d) * d
def pow5R (d : EReal) : EReal := d * ((d * d) * (d * d))
/-- 1/d − 28·p + 48·p·d + 21·p·d·d, bracketed as both programs bracket it. -/
def envOf (p d : EReal) : EReal := ((Ideal.div one d + m28 * p) + (c48 * p) * d) + ((c21 * p) * d) * d
def envK (d : EReal) : EReal := envOf (pow5K d) d
def envR (d : EReal) : EReal := envOf (pow5R d) d

/-! ## The Legendre polynomials at c, by the recurrence (2l+1)·c·P_l − l·P_{l−1} over l+1 -/

def P0 (_c : EReal) : EReal := one
def P1 (c : EReal) : EReal := c
def P2 (c : EReal) : EReal := Ideal.div ((three * c) * P1 c - one * P0 c) two
def P3 (c : EReal) : EReal := Ideal.div ((five * c) * P2 c - two * P1 c) three
def P4 (c : EReal) : EReal := Ideal.div ((seven * c) * P3 c - three * P2 c) four
def P5 (c : EReal) : EReal := Ideal.div ((nine * c) * P4 c - four * P3 c) five
def P6 (c : EReal) : EReal := Ideal.div ((eleven * c) * P5 c - five * P4 c) six
/-- P_l at c, for l = 0 … 6 (0 beyond). -/
def leg : Nat → EReal → EReal
  | 0, c => P0 c | 1, c => P1 c | 2, c => P2 c | 3, c => P3 c | 4, c => P4 c | 5, c => P5 c | 6, c => P6 c
  | _, _ => 0

/-! ## The spherical Bessel functions, with the reciprocal formed once -/

def invK (x : EReal) : EReal := Ideal.div one x
def j0K (x : EReal) : EReal := Ideal.sin x * invK x
def j1K (x : EReal) : EReal := (Ideal.sin x * invK x) * invK x - Ideal.cos x * invK x
def j2K (x : EReal) : EReal := (three * invK x) * j1K x - j0K x
def j3K (x : EReal) : EReal := (five * invK x) * j2K x - j1K x
def j4K (x : EReal) : EReal := (seven * invK x) * j3K x - j2K x
def j5K (x : EReal) : EReal := (nine * invK x) * j4K x - j3K x
def j6K (x : EReal) : EReal := (eleven * invK x) * j5K x - j4K x
def besK : Nat → EReal → EReal
  | 0, x => j0K x | 1, x => j1K x | 2, x => j2K x | 3, x => j3K x | 4, x => j4K x | 5, x => j5K x | 6, x => j6K x
  | _, _ => 0

/-! ## The same, dividing by x each time -/

def j0R (x : EReal) : EReal := Ideal.div (Ideal.sin x) x
def j1R (x : EReal) : EReal := Ideal.div (Ideal.sin x) (x * x) - Ideal.div (Ideal.cos x) x
def j2R (x : EReal) : EReal := Ideal.div three x * j1R x - j0R x
def j3R (x : EReal) : EReal := Ideal.div five x * j2R x - j1R x
def j4R (x : EReal) : EReal := Ideal.div seven x * j3R x - j2R x
def j5R (x : EReal) : EReal := Ideal.div nine x * j4R x - j3R x
def j6R (x : EReal) : EReal := Ideal.div eleven x * j5R x - j4R x
def besR : Nat → EReal → EReal
  | 0, x => j0R x | 1, x => j1R x | 2, x => j2R x | 3, x => j3R x | 4, x => j4R x | 5, x => j5R x | 6, x => j6R x
  | _, _ => 0

/-! ## The table of 42 words, row-major over (order l, radial index k), and a column's order -/

def zWord : Fin 42 → BitVec 32 := fun
  | 0 => 0x40490FDB#32 | 1 => 0x40C90FDB#32 | 2 => 0x4116CBE4#32 | 3 => 0x41490FDB#32 | 4 => 0x417B53D1#32 | 5 => 0x4196CBE4#32 | 6 => 0x4096CBE4#32 | 7 => 0x40FB53D1#32
  | 8 => 0x412FEDDF#32 | 9 => 0x416231D6#32 | 10 => 0x418A3AE6#32 | 11 => 0x41A35CE2#32 | 12 => 0x40C90FDB#32 | 13 => 0x4116CBE4#32 | 14 => 0x41490FDB#32 | 15 => 0x417B53D1#32
  | 16 => 0x4196CBE4#32 | 17 => 0x41AFEDDF#32 | 18 => 0x40FB53D1#32 | 19 => 0x412FEDDF#32 | 20 => 0x416231D6#32 | 21 => 0x418A3AE6#32 | 22 => 0x41A35CE2#32 | 23 => 0x41BC7EDD#32
  | 24 => 0x4116CBE4#32 | 25 => 0x41490FDB#32 | 26 => 0x417B53D1#32 | 27 => 0x4196CBE4#32 | 28 => 0x41AFEDDF#32 | 29 => 0x41C90FDB#32 | 30 => 0x412FEDDF#32 | 31 => 0x416231D6#32
  | 32 => 0x418A3AE6#32 | 33 => 0x41A35CE2#32 | 34 => 0x41BC7EDD#32 | 35 => 0x41D5A0D8#32 | 36 => 0x41490FDB#32 | 37 => 0x417B53D1#32 | 38 => 0x4196CBE4#32 | 39 => 0x41AFEDDF#32
  | 40 => 0x41C90FDB#32 | 41 => 0x41E231D6#32
  | ⟨_ + 42, h⟩ => absurd h (Nat.not_lt.2 (Nat.le_add_left _ _))
/-- The table's q-th entry as an extended real. -/
def zOf (q : Fin 42) : EReal := lit (zWord q)
/-- Column q = 6·l + k belongs to order l. -/
def ordOf (q : Fin 42) : Nat := q.val / 6

/-! ## The results at one entry -/

/-- Output 1 at (e, k), from the distance r of edge e and the frequency f of k: fifth power bracketed to the left. -/
def aK (r f : EReal) : EReal := envK (dR r) * Ideal.sin (f * dR r)
/-- The same with the fifth power by squaring. -/
def aR (r f : EReal) : EReal := envR (dR r) * Ideal.sin (f * dR r)
/-- Output 2 from the gathered distance r, the angle, a table entry z and an order l: the reciprocal formed once, the
    distance scaled by 1/5. -/
def bKz (r ang z : EReal) (l : Nat) : EReal :=
  (besK l (dK r * z) * envK (dK r)) * leg l (Ideal.cos ang)
/-- Output 2 at (t, q): the table's q-th entry and column q's order. -/
def bK (r ang : EReal) (q : Fin 42) : EReal := bKz r ang (zOf q) (ordOf q)
/-- The same dividing by x each time, the distance divided by 5. -/
def bR (r ang : EReal) (q : Fin 42) : EReal :=
  (envR (dR r) * besR (ordOf q) (dR r * zOf q)) * leg (ordOf q) (Ideal.cos ang)

/-! ## The gathered row -/

/-- A signed 32-bit index clamped into the rows [0, 999999] of a table of 1000000 rows. -/
def rowOf (k : BitVec 32) : Fin 1000000 := ⟨min k.toInt.toNat 999999, by omega⟩
/-- The index clamped into [0, 999999] by a signed maximum with 0 and a signed minimum with 999999. -/
def clipK (k : BitVec 32) : BitVec 32 := IntOp.minsi 999999#32 (IntOp.maxsi 0#32 k)
/-- A negative index moved up by 1000000. -/
def wrapR (k : BitVec 32) : BitVec 32 := Scalar.select (IntOp.cmpi .slt k 0#32) (IntOp.addi k 1000000#32) k

/-! ## Literal facts: the words 1.0 and 5.0, and a normal word is not zero -/

/-- The word 1.0 denotes 1. -/
theorem one_eq : one = 1 := by
  show Ideal.ofBits .f32 0x3F800000#32 = 1
  simp [Ideal.ofBits, Ideal.ieee, -EReal.coe_mul]; norm_num

/-- The word 5.0 denotes the real 5. -/
theorem five_eq : five = ((5 : ℝ) : EReal) := by
  show Ideal.ofBits .f32 0x40A00000#32 = _
  simp [Ideal.ofBits, Ideal.ieee, -EReal.coe_mul]; norm_num

/-- A word whose exponent field is neither all ones nor zero denotes ±(2²³ + T)·2^(E−150), a nonzero real. -/
theorem lit_ne_zero (w : BitVec 32) (h255 : (w.extractLsb' 23 8).toNat ≠ 255)
    (h0 : (w.extractLsb' 23 8).toNat ≠ 0) : lit w ≠ 0 := by
  show Ideal.ieee 8 23 w ≠ 0
  unfold Ideal.ieee
  simp only []
  rw [if_neg (by simpa using h255), if_neg h0, Ne, EReal.coe_eq_zero]
  refine mul_ne_zero (mul_ne_zero ?_ ?_) (zpow_ne_zero _ two_ne_zero)
  · split <;> norm_num
  · exact Nat.cast_ne_zero.2 (by positivity)

/-- Every entry of the table is a normal word, so denotes a nonzero real. -/
theorem zWord_normal : ∀ q : Fin 42,
    ((zWord q).extractLsb' 23 8).toNat ≠ 255 ∧ ((zWord q).extractLsb' 23 8).toNat ≠ 0 := by
  decide

theorem zOf_ne_zero (q : Fin 42) : zOf q ≠ 0 :=
  lit_ne_zero _ (zWord_normal q).1 (zWord_normal q).2

/-! ## The fifth power and the envelope -/

/-- The two bracketings of d⁵. -/
theorem pow5K_eq_pow5R (d : EReal) : pow5K d = pow5R d := by
  unfold pow5K pow5R; ac_rfl

theorem envK_eq_envR (d : EReal) : envK d = envR d := by
  rw [envK, envR, pow5K_eq_pow5R]

/-! ## The scaled distance: a quotient by 5 is the product with 1/5 -/

theorem dR_eq_dK (r : EReal) : dR r = dK r := by
  rw [dR, dK, five_eq]
  exact Ideal.div_coe (by norm_num) r

theorem dK_ne_zero {r : EReal} (hr : r ≠ 0) : dK r ≠ 0 := by
  rw [dK]
  exact mul_ne_zero hr (EReal.coe_ne_zero.2 (by norm_num))

/-! ## Off zero a quotient is the product with the reciprocal -/

theorem div_of_ne (a : EReal) {x : EReal} (hx : x ≠ 0) : Ideal.div a x = a * x⁻¹ := by
  rw [Ideal.div, if_neg hx]

theorem invK_of_ne {x : EReal} (hx : x ≠ 0) : invK x = x⁻¹ := by
  rw [invK, div_of_ne _ hx, one_eq, one_mul]

/-! ## The spherical Bessel functions agree off zero, order by order -/

theorem j0_eq {x : EReal} (hx : x ≠ 0) : j0K x = j0R x := by
  rw [j0K, j0R, invK_of_ne hx, div_of_ne _ hx]

/-- Here (x·x)⁻¹ = x⁻¹·x⁻¹ and associativity join sin x · x⁻¹ · x⁻¹ with sin x / (x·x). -/
theorem j1_eq {x : EReal} (hx : x ≠ 0) : j1K x = j1R x := by
  rw [j1K, j1R, invK_of_ne hx, div_of_ne _ hx, div_of_ne _ (mul_ne_zero hx hx), EReal.mul_inv, mul_assoc]

theorem j2_eq {x : EReal} (hx : x ≠ 0) : j2K x = j2R x := by
  rw [j2K, j2R, invK_of_ne hx, div_of_ne _ hx, j1_eq hx, j0_eq hx]

theorem j3_eq {x : EReal} (hx : x ≠ 0) : j3K x = j3R x := by
  rw [j3K, j3R, invK_of_ne hx, div_of_ne _ hx, j2_eq hx, j1_eq hx]

theorem j4_eq {x : EReal} (hx : x ≠ 0) : j4K x = j4R x := by
  rw [j4K, j4R, invK_of_ne hx, div_of_ne _ hx, j3_eq hx, j2_eq hx]

theorem j5_eq {x : EReal} (hx : x ≠ 0) : j5K x = j5R x := by
  rw [j5K, j5R, invK_of_ne hx, div_of_ne _ hx, j4_eq hx, j3_eq hx]

theorem j6_eq {x : EReal} (hx : x ≠ 0) : j6K x = j6R x := by
  rw [j6K, j6R, invK_of_ne hx, div_of_ne _ hx, j5_eq hx, j4_eq hx]

theorem bes_eq {x : EReal} (hx : x ≠ 0) : ∀ l : Nat, besK l x = besR l x
  | 0 => j0_eq hx
  | 1 => j1_eq hx
  | 2 => j2_eq hx
  | 3 => j3_eq hx
  | 4 => j4_eq hx
  | 5 => j5_eq hx
  | 6 => j6_eq hx
  | _ + 7 => rfl

/-! ## The laws -/

/-- The two bracketings of the fifth power agree: multiplication is associative and commutative. -/
theorem aK_eq_aR (r f : EReal) : aK r f = aR r f := by
  rw [aK, aR, envK_eq_envR]

/-- Off a zero distance the two forms of output 2 agree. -/
theorem bK_eq_bR (r ang : EReal) (q : Fin 42) (hr : r ≠ 0) : bK r ang q = bR r ang q := by
  -- the Bessel argument d·z is a product of nonzero factors
  have hx : dK r * zOf q ≠ 0 := mul_ne_zero (dK_ne_zero hr) (zOf_ne_zero q)
  rw [bK, bKz, bR, dR_eq_dK, bes_eq hx, envK_eq_envR, mul_comm (besR _ _)]

/-- On a non-negative index the clamped row and the wrapped-then-clamped row are one. -/
theorem rows_agree (k : BitVec 32) (hk : 0 ≤ k.toInt) : rowOf (clipK k) = rowOf (wrapR k) := by
  -- a non-negative index is not below zero in the signed order
  have h0 : k.slt 0#32 = false := by
    rw [BitVec.slt, decide_eq_false_iff_not]
    have : (0#32 : BitVec 32).toInt = 0 := by decide
    omega
  -- so it is not moved, and the maximum with 0 is the index itself
  have hw : wrapR k = k := by
    simp [wrapR, Scalar.select, IntOp.cmpi, h0]
  have hmax : IntOp.maxsi 0#32 k = k := by
    simp [IntOp.maxsi, h0]
  rw [hw, clipK, hmax, IntOp.minsi]
  split
  · -- above 999999 both rows are the last row
    rename_i h
    have h1 : (999999#32 : BitVec 32).toInt = 999999 := by decide
    have h2 : (999999 : Int) < k.toInt := by
      rw [BitVec.slt, decide_eq_true_eq, h1] at h; exact h
    apply Fin.ext
    show min (999999#32 : BitVec 32).toInt.toNat 999999 = min k.toInt.toNat 999999
    rw [h1]; omega
  · rfl

end Cert.Spec

end
-- ==== Proof.PreFacts.lean ====
/-
  What the precondition says of the inputs: beside finiteness it is the conjunction of "every distance is different from
  zero" (a float comparison, unordered-or-unequal, against the zero word, all-reduced) and "every gather index is at least
  zero" (a signed comparison against 0, all-reduced). The all-ones value of the whole predicate gives each entry's fact.
-/
import proofs.«426921_j31129922961736_3_alg».proof.Pre_finite_inputs
import proofs.«426921_j31129922961736_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- From the precondition's value "all ones": no distance is zero, and no gather index is negative. -/
theorem of_pre (dists : FVec Ideal S1000000 .f32) (angles : FVec Ideal S2500000 .f32) (kj : IVec S2500000 32)
    (freq : FVec Ideal S6 .f32) (h : fn (F := Ideal) dists angles kj freq = (fun _ => 1#1)) :
    (∀ e : Fin 1000000, (dists (ix1 e) : EReal) ≠ 0) ∧ (∀ t : Fin 2500000, 0 ≤ (kj (ix1 t)).toInt) := by
  -- the predicate's one entry, as a nested conjunction of five all-reductions
  have h0 := congrFun h ValueIdx.ix0
  dsimp only [fn, fn_part1] at h0
  haveI : Subsingleton S_.Idx := ⟨fun a b => funext fun d => d.elim0⟩
  obtain ⟨h1, hk⟩ := IntOp.andi_eq_one.1 h0
  obtain ⟨-, hd⟩ := IntOp.andi_eq_one.1 h1
  refine ⟨fun e => ?_, fun t => ?_⟩
  · -- the comparison "unordered or unequal" of dists[e] with the zero word is 1; the zero word is the real 0
    have hb := Host.reduce_andi_all _ _ _ _ _ hd (ix1 e)
    have hb' : Ideal.cmp .une (dists (ix1 e)) (Ideal.ofBits .f32 0x00000000#32) = 1#1 := hb
    have hz0 : Ideal.ofBits .f32 0x00000000#32 = 0 := by simp [Ideal.ofBits, Ideal.ieee]
    rw [hz0] at hb'
    intro hz
    rw [hz] at hb'
    revert hb'
    simp [Ideal.cmp]
  · -- the signed comparison kj[t] ≥ 0 is 1
    have hb := Host.reduce_andi_all _ _ _ _ _ hk (ix1 t)
    have hb' : IntOp.cmpi .sge (kj (ix1 t)) (0#32) = 1#1 := hb
    rw [IntOp.cmpi_sge] at hb'
    exact hb'

end Cert.PreFacts

end
-- ==== Proof.KernelValA.lean ====
/-
  The kernel program's first result, entry by entry. The first kernel's grid has 245 points. Point t reads block t, of
  4096 entries, of the distances padded at the high end to 1003520 entries, and the six frequencies, and writes block t,
  of 4096 rows, of a 1003520 by 6 array: at (i, k) of the block, env(d)·sin(freq k · d) with d the padded distance
  4096·t + i over 5. The blocks tile that array, so its row r is written by point r / 4096; the result is its first
  1000000 rows, and below entry 1000000 the padded distances are the distances themselves.
-/
import proofs.«426921_j31129922961736_3_alg».proof.Proof.Gen.KernelIdeal.Frame
import proofs.«426921_j31129922961736_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost

set_option maxRecDepth 16384

noncomputable section

namespace Cert.KernelIdeal.ValA

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The result, walked back to the first kernel's output array -/

/-- Once the rows have been cut out after the first kernel, nothing writes the result again: not the later operations,
    not the second kernel. -/
theorem W12_main_v2 (c : Dev nD) :
    W12 (F := Ideal) m ρ c (Proc.devRef .tc main_v2) = W4 (F := Ideal) m ρ c (Proc.devRef .tc main_v2) :=
  calc W12 (F := Ideal) m ρ c (Proc.devRef .tc main_v2)
    _ = W11 (F := Ideal) m ρ c (Proc.devRef .tc main_v2) := StableHlo.after_of_forall_not_mem (b := Proc.devRef .tc main_v2) _ _ (List.forall_iff_forall_mem.mp (by
          simp only [hostOps2, List.Forall, StableHlo.nullary_writes, StableHlo.unary_writes, StableHlo.binary_writes, Finset.mem_singleton]
          repeat' apply And.intro
          all_goals exact StableHlo.devRef_ne_of_ne (by decide)))
    _ = W10 (F := Ideal) m ρ c (Proc.devRef .tc main_v2) := W11_of_ne m ρ c main_v2 (by decide)
    _ = W9 (F := Ideal) m ρ c (Proc.devRef .tc main_v2) := StableHlo.after_of_forall_not_mem (b := Proc.devRef .tc main_v2) _ _ (List.forall_iff_forall_mem.mp (by
          simp only [hostOps1_6, List.Forall, StableHlo.nullary_writes, StableHlo.unary_writes, StableHlo.binary_writes, Finset.mem_singleton]
          repeat' apply And.intro
          all_goals exact StableHlo.devRef_ne_of_ne (by decide)))
    _ = W8 (F := Ideal) m ρ c (Proc.devRef .tc main_v2) := StableHlo.after_of_forall_not_mem (b := Proc.devRef .tc main_v2) _ _ (List.forall_iff_forall_mem.mp (by
          simp only [hostOps1_5, List.Forall, StableHlo.nullary_writes, StableHlo.unary_writes, StableHlo.binary_writes, Finset.mem_singleton]
          repeat' apply And.intro
          all_goals exact StableHlo.devRef_ne_of_ne (by decide)))
    _ = W7 (F := Ideal) m ρ c (Proc.devRef .tc main_v2) := StableHlo.after_of_forall_not_mem (b := Proc.devRef .tc main_v2) _ _ (List.forall_iff_forall_mem.mp (by
          simp only [hostOps1_4, List.Forall, StableHlo.nullary_writes, StableHlo.unary_writes, StableHlo.binary_writes, Finset.mem_singleton]
          repeat' apply And.intro
          all_goals exact StableHlo.devRef_ne_of_ne (by decide)))
    _ = W6 (F := Ideal) m ρ c (Proc.devRef .tc main_v2) := StableHlo.after_of_forall_not_mem (b := Proc.devRef .tc main_v2) _ _ (List.forall_iff_forall_mem.mp (by
          simp only [hostOps1_3, List.Forall, StableHlo.nullary_writes, StableHlo.unary_writes, StableHlo.binary_writes, Finset.mem_singleton]
          repeat' apply And.intro
          all_goals exact StableHlo.devRef_ne_of_ne (by decide)))
    _ = W5 (F := Ideal) m ρ c (Proc.devRef .tc main_v2) := StableHlo.after_of_forall_not_mem (b := Proc.devRef .tc main_v2) _ _ (List.forall_iff_forall_mem.mp (by
          simp only [hostOps1_2, List.Forall, StableHlo.nullary_writes, StableHlo.unary_writes, StableHlo.binary_writes, Finset.mem_singleton]
          repeat' apply And.intro
          all_goals exact StableHlo.devRef_ne_of_ne (by decide)))
    _ = W4 (F := Ideal) m ρ c (Proc.devRef .tc main_v2) := StableHlo.after_of_forall_not_mem (b := Proc.devRef .tc main_v2) _ _ (List.forall_iff_forall_mem.mp (by
          simp only [hostOps1_1, List.Forall, StableHlo.nullary_writes, StableHlo.unary_writes, StableHlo.binary_writes, Finset.mem_singleton]
          repeat' apply And.intro
          all_goals exact StableHlo.devRef_ne_of_ne (by decide)))

/-- The result is the first 1000000 rows of the first kernel's output array. -/
theorem W4_main_v2 (c : Dev nD) :
    (W4 (F := Ideal) m ρ c (Proc.devRef .tc main_v2) : S1000000x6.Idx → EReal)
      = extractStridedSlice S1000000x6 ![0, 0] (W3 (F := Ideal) m ρ c (Proc.devRef .tc main_v1) : S1003520x6.Idx → EReal) slices_S1003520x6_S1000000x6_0_0 := by
  show StableHlo.after hostOps1 (W3 (F := Ideal) m ρ c) (Proc.devRef .tc main_v2) = _
  after_results

/-! ## What the first kernel reads: the padded distances and the frequencies -/

/-- Nothing before the first kernel writes the distances. -/
theorem W1_main_arg0 (c : Dev nD) :
    W1 (F := Ideal) m ρ c (Proc.devRef .tc main_arg0) = m ((c.tc : Thread nD τ).loc main_arg0) :=
  calc W1 (F := Ideal) m ρ c (Proc.devRef .tc main_arg0)
    _ = W0 (F := Ideal) m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c.tc : Thread nD τ).loc main_arg0) := rfl

/-- Nothing before the first kernel writes the frequencies. -/
theorem V2_main_arg3 (c : Dev nD) :
    V2 (F := Ideal) m ρ c main_arg3 = m ((c.tc : Thread nD τ).loc main_arg3) :=
  calc W2 (F := Ideal) m ρ c (Proc.devRef .tc main_arg3)
    _ = W1 (F := Ideal) m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, Finset.mem_singleton]
          repeat' apply And.intro
          all_goals exact StableHlo.devRef_ne_of_ne (by decide)))
    _ = W0 (F := Ideal) m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c.tc : Thread nD τ).loc main_arg3) := rfl

/-- The first kernel's first operand is the distances padded at the high end by 3520 entries. -/
theorem V2_main_v0 (c : Dev nD) :
    (V2 (F := Ideal) m ρ c main_v0 : S1003520.Idx → EReal)
      = pad S1003520 ![0] ![3520] ![0] (W1 (F := Ideal) m ρ c (Proc.devRef .tc main_arg0) : S1000000.Idx → EReal)
          (W1 (F := Ideal) m ρ c (Proc.devRef .tc main_cst_0) : S_.Idx → EReal) pads_S1000000_S1003520_035200 h_S_ := by
  show StableHlo.after hostOps0_1 (W1 (F := Ideal) m ρ c) (Proc.devRef .tc main_v0) = _
  after_results
  rfl

/-- Below entry 1000000 the padded distances are the distances. -/
theorem V2_main_v0_apply (c : Dev nD) (e : Fin 1000000) (P : Fin 1003520) (hP : P.val = e.val) :
    (V2 (F := Ideal) m ρ c main_v0 : S1003520.Idx → EReal) (ix1 P)
      = (m ((c.tc : Thread nD τ).loc main_arg0) : S1000000.Idx → EReal) (ix1 e) := by
  rw [V2_main_v0]
  refine (pad_apply_of_inside _ _ _ _ _ _ _ (ix1 P) (ix1 e) (fun a => ?_)).trans ?_
  · match a with
    | ⟨0, _⟩ => show P.val = 0 + e.val * (0 + 1); omega
  · exact congrFun (W1_main_arg0 m ρ c) (ix1 e)

/-! ## The body's arithmetic at one entry of a block -/

section Layout
variable {α : Type}

/-- A vector of a entries cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A vector of 4096 entries laid down the rows of a 4096 by 6 block reads, at (i, k), its entry i. -/
theorem col_apply (v : S4096.Idx → EReal) (i : Fin 4096) (k : Fin 6) :
    broadcastTo S4096x6 (shapeCast S4096x1 v shapeCasts_S4096_S4096x1) broadcasts_S4096x1_S4096x6 (ix2 i k) = v (ix1 i) :=
  (broadcastTo_a1_ab_apply _ _ i k).trans (shapeCast_a_a1_apply v _ i 0)

/-- A vector of 6 entries laid along the columns of a 4096 by 6 block reads, at (i, k), its entry k. -/
theorem row_apply (v : S6.Idx → EReal) (i : Fin 4096) (k : Fin 6) :
    broadcastTo S4096x6 (shapeCast S1x6 v shapeCasts_S6_S1x6) broadcasts_S1x6_S4096x6 (ix2 i k) = v (ix1 k) :=
  (broadcastTo_1b_ab_apply _ _ i k).trans (shapeCast_a_1a_apply v _ 0 k)

/-- The sine of a vector, entry by entry. -/
theorem sin_apply {s : Shape} {φ : FTy} (a : FVec Ideal s φ) (i : s.Idx) : sin a i = Ideal.sin (a i) := rfl

/-- The body's stored value at (i, k) of a block: the envelope of the block's distance i over 5, times the sine of
    frequency k times that scaled distance. -/
theorem pay_apply (x0 : Vec Ideal S4096 .f32) (x1 : Vec Ideal S6 .f32) (i : Fin 4096) (k : Fin 6) :
    (k0_pay1 (F := Ideal) x0 x1 : S4096x6.Idx → EReal) (ix2 i k)
      = Spec.aK ((x0 : S4096.Idx → EReal) (ix1 i)) ((x1 : S6.Idx → EReal) (ix1 k)) := by
  unfold k0_pay1
  simp only [mulf_apply, addf_apply, divf_apply, broadcast_apply, sin_apply, shapeCast_self, col_apply, row_apply]
  rfl

/-! ## From the blocks to the array -/

theorem hz1 : (![0] : Fin 1 → Nat) = fun _ => 0 := funext fun a => by fin_cases a <;> rfl
theorem hz2 : (![0, 0] : Fin 2 → Nat) = fun _ => 0 := funext fun a => by fin_cases a <;> rfl

/-- The first kernel's output array as one function of the padded distances D and the frequencies Fq: at row r and
    column k, the envelope of D r over 5 times the sine of Fq k times D r over 5. -/
def rbf (D : S1003520.Idx → EReal) (Fq : S6.Idx → EReal) : S1003520x6.Idx → EReal :=
  fun J => Spec.aK (D (ix1 (⟨(J 0).val, idx2_lt0 J⟩ : Fin 1003520))) (Fq (ix1 (⟨(J 1).val, idx2_lt1 J⟩ : Fin 6)))

theorem rbf_ix2 (D : S1003520.Idx → EReal) (Fq : S6.Idx → EReal) (P : Fin 1003520) (Q : Fin 6) :
    rbf D Fq (ix2 P Q) = Spec.aK (D (ix1 P)) (Fq (ix1 Q)) := rfl

/-- Entry (p, q) of the body's stored block is entry (P, Q) of that function when the loaded blocks hold D at P and
    Fq at Q there. -/
theorem block_entry (x0 : Vec Ideal S4096 .f32) (x1 : Vec Ideal S6 .f32) (D : S1003520.Idx → EReal) (Fq : S6.Idx → EReal)
    (p : Fin 4096) (q : Fin 6) (P : Fin 1003520) (Q : Fin 6)
    (h0 : (x0 : S4096.Idx → EReal) (ix1 p) = D (ix1 P)) (h1 : (x1 : S6.Idx → EReal) (ix1 q) = Fq (ix1 Q)) :
    (k0_pay1 (F := Ideal) x0 x1 : S4096x6.Idx → EReal) (ix2 p q) = rbf D Fq (ix2 P Q) := by
  rw [pay_apply, h0, h1, rbf_ix2]

/-- The block indices over the grid: point t reads distances block t and the one block of frequencies, and writes
    output block (t, 0). -/
theorem idx_facts : ∀ t : Fin cfg0.N, win0_0.index t (0 : Fin 1) = t.val ∧ win0_1.index t (0 : Fin 1) = 0
    ∧ win0_2.index t (0 : Fin 2) = t.val ∧ win0_2.index t (1 : Fin 2) = 0 :=
  (by decide +kernel : ∀ t : Fin grid0.N, _)

/-- What point t writes back is block t of that function of the two arrays the first kernel reads. -/
theorem flushed_eq (c : Dev nD) (t : Fin cfg0.N) :
    (dat0 (V2 (F := Ideal) m ρ) c).flushed 2 t
      = ((cfg0.win 2).blk t).view.read (Elt Ideal) (rbf (V2 (F := Ideal) m ρ c main_v0) (V2 (F := Ideal) m ρ c main_arg3)) := by
  show (cfg0.win 2).cut (grid0.coords t) ((dat0 (V2 (F := Ideal) m ρ) c).after 2 t) = _
  rw [after0_2]
  unfold out0_2
  rw [View.canon_unit_zero hz2]
  simp only [View.ld_unit_zero (S := S4096) hz1, View.ld_unit_zero (S := S6) hz1]
  obtain ⟨e0, e1, e2, e3⟩ := idx_facts t
  have hN : cfg0.N = 245 := N_0
  have htN : t.val < 245 := hN ▸ t.isLt
  funext j
  obtain ⟨p, q, rfl⟩ : ∃ (p : Fin 4096) (q : Fin 6), j = ix2 p q := ⟨j 0, j 1, eq_ix2 j⟩
  have hP : t.val * 4096 + p.val < 1003520 := by have := p.isLt; omega
  refine (block_entry (iblk0 (V2 (F := Ideal) m ρ) c 0 t) (iblk0 (V2 (F := Ideal) m ρ) c 1 t)
    (V2 (F := Ideal) m ρ c main_v0) (V2 (F := Ideal) m ρ c main_arg3) p q ⟨t.val * 4096 + p.val, hP⟩ q ?_ ?_).trans ?_
  · show V2 (F := Ideal) m ρ c main_v0 (((cfg0.win 0).blk t).view.emb (ix1 p)) = V2 (F := Ideal) m ρ c main_v0 (ix1 ⟨t.val * 4096 + p.val, hP⟩)
    congr 1; funext a; apply Fin.ext
    match a with
    | ⟨0, _⟩ => show win0_0.index t (0 : Fin 1) * 4096 + 1 * p.val = t.val * 4096 + p.val; omega
  · show V2 (F := Ideal) m ρ c main_arg3 (((cfg0.win 1).blk t).view.emb (ix1 q)) = V2 (F := Ideal) m ρ c main_arg3 (ix1 q)
    congr 1; funext a; apply Fin.ext
    match a with
    | ⟨0, _⟩ => show win0_1.index t (0 : Fin 1) * 6 + 1 * q.val = q.val; omega
  · show rbf _ _ (ix2 ⟨t.val * 4096 + p.val, hP⟩ q) = rbf _ _ (((cfg0.win 2).blk t).view.emb (ix2 p q))
    congr 1; funext a; apply Fin.ext
    match a with
    | ⟨0, _⟩ => show t.val * 4096 + p.val = win0_2.index t (0 : Fin 2) * 4096 + 1 * p.val; omega
    | ⟨1, _⟩ => show q.val = win0_2.index t (1 : Fin 2) * 6 + 1 * q.val; omega

/-- An index of the output array is in point t's block iff each coordinate is in the block's range on its axis. -/
theorem mem_blk (t : Fin cfg0.N) (i : S1003520x6.Idx) :
    i ∈ ((cfg0.win 2).blk t).view.set ↔ ∀ a : Fin 2, win0_2.index t a * S4096x6.size a ≤ (i a).val ∧ (i a).val < win0_2.index t a * S4096x6.size a + S4096x6.size a := by
  show i ∈ ((View.whole main_v1).slice (win0_2.rect t)).set ↔ _
  rw [View.set_slice_whole, Rect.mem_set_unit]
  exact Iff.rfl

/-- Row r of the output array is in the block of point r / 4096. -/
theorem cover (i : S1003520x6.Idx) :
    ∃ t : Fin cfg0.N, (cfg0.win 2).flush t = true ∧ i ∈ ((cfg0.win 2).blk t).view.set := by
  have hi0 : (i 0).val < 1003520 := (i 0).isLt
  have hi1 : (i 1).val < 6 := (i 1).isLt
  have hN : cfg0.N = 245 := N_0
  have ht : (i 0).val / 4096 < cfg0.N := by rw [hN]; omega
  obtain ⟨e0, e1, e2, e3⟩ := idx_facts ⟨(i 0).val / 4096, ht⟩
  refine ⟨⟨(i 0).val / 4096, ht⟩, flush0_2 _, ?_⟩
  rw [mem_blk]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e2]; show (i 0).val / 4096 * 4096 ≤ (i 0).val ∧ (i 0).val < (i 0).val / 4096 * 4096 + 4096; omega
  | ⟨1, _⟩ =>
    show win0_2.index ⟨(i 0).val / 4096, ht⟩ (1 : Fin 2) * 6 ≤ (i 1).val ∧ (i 1).val < win0_2.index ⟨(i 0).val / 4096, ht⟩ (1 : Fin 2) * 6 + 6
    rw [e3]; omega

/-- The first kernel's output array once every point has written its block. -/
theorem arr_eq (c : Dev nD) :
    (dat0 (V2 (F := Ideal) m ρ) c).arrAt 2 cfg0.N = rbf (V2 (F := Ideal) m ρ c main_v0) (V2 (F := Ideal) m ρ c main_arg3) :=
  (dat0 (V2 (F := Ideal) m ρ) c).arrAt_eq_of_cover 2 (rbf (V2 (F := Ideal) m ρ c main_v0) (V2 (F := Ideal) m ρ c main_arg3))
    (fun t _ => flushed_eq m ρ c t) cover

/-- The first result at edge e and radial index k. -/
theorem valA (c : Dev nD) (e : Fin 1000000) (k : Fin 6) :
    (W12 (F := Ideal) m ρ c (Proc.devRef .tc main_v2) : S1000000x6.Idx → EReal) (ix2 e k)
      = Spec.aK ((m ((c.tc : Thread nD τ).loc main_arg0) : S1000000.Idx → EReal) (ix1 e))
          ((m ((c.tc : Thread nD τ).loc main_arg3) : S6.Idx → EReal) (ix1 k)) := by
  have hE : e.val < 1003520 := by have := e.isLt; omega
  refine (congrFun ((W12_main_v2 m ρ c).trans (W4_main_v2 m ρ c)) (ix2 e k)).trans ?_
  refine (extractStridedSlice_apply _ _ _ (ix2 e k) (ix2 (⟨e.val, hE⟩ : Fin 1003520) k) (fun a => ?_)).trans ?_
  · match a with
    | ⟨0, _⟩ => show e.val = 0 + e.val; omega
    | ⟨1, _⟩ => show k.val = 0 + k.val; omega
  refine (congrFun ((W3_arr m ρ c 2).trans (arr_eq m ρ c)) (ix2 (⟨e.val, hE⟩ : Fin 1003520) k)).trans ?_
  rw [rbf_ix2, V2_main_v0_apply m ρ c e ⟨e.val, hE⟩ rfl, V2_main_arg3]

end Cert.KernelIdeal.ValA

end
-- ==== Proof.KernelPayB.lean ====
/-
  What the second kernel's body leaves in one output block, entry by entry, as a function of its three input blocks: the
  2048 gathered distances x0, the 2048 angles x1 and the 42 table entries x2. At (i, q) it is the order-(q/6) Bessel value
  at d·(x2 q) (reciprocal formed once), times the envelope at d, times the order-(q/6) Legendre value at cos(x1 i), with
  d = (x0 i)·(1/5). The order is picked by a chain of selects on the integer quotient of the column number by 6, which the
  body computes as a truncated quotient corrected for sign; on columns 0 … 41 it is q/6.
-/
import proofs.«426921_j31129922961736_3_alg».proof.Proof.Gen.KernelIdeal.Frame
import proofs.«426921_j31129922961736_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.PayB

open Cert.KernelIdeal Cert.KernelIdeal.Gen
open Idealize.ShloMosaic Idealize.ShloMosaic.TcCoe Idealize.ShloMosaic.ValueIdx Idealize.SL.Sem

theorem hz1 : (![0] : Fin 1 → Nat) = fun _ => 0 := funext fun a => by fin_cases a <;> rfl
theorem hz2 : (![0, 0] : Fin 2 → Nat) = fun _ => 0 := funext fun a => by fin_cases a <;> rfl

/-! ## Layout: a vector as a column, a column along the rows, a vector as a row along the columns -/

section Layout
variable {α : Type}

/-- An `[a]` array cast to `[a, 1]` reads, at `(i, u)`, the operand at `i`. -/
theorem shapeCast_a_a1_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, q)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (q : Fin b) : broadcastTo ⟨2, ![a, b]⟩ v h (ix2 i q) = v (ix2 i (0 : Fin 1)) := by
  refine broadcastTo_apply v h (ix2 i q) (ix2 i (0 : Fin 1)) fun ax => ?_
  match ax with
  | ⟨0, _⟩ =>
    show i.val = if a = 1 then 0 else i.val
    split
    · have := i.isLt; omega
    · rfl
  | ⟨1, _⟩ => rfl

/-- A vector of 2048 entries laid as a column and broadcast along 42 columns reads its entry at the row. -/
theorem colB (v : S2048.Idx → α) (i : Fin 2048) (q : Fin 42) :
    broadcastTo S2048x42 (shapeCast S2048x1 v shapeCasts_S2048_S2048x1) broadcasts_S2048x1_S2048x42 (ix2 i q) = v (ix1 i) := by
  rw [broadcastTo_a1_ab_apply, shapeCast_a_a1_apply]

/-- The same with the column cast to its own shape in between. -/
theorem colB' (v : S2048.Idx → α) (i : Fin 2048) (q : Fin 42) :
    broadcastTo S2048x42 (shapeCast S2048x1 (shapeCast S2048x1 v shapeCasts_S2048_S2048x1) shapeCasts_S2048x1_S2048x1)
      broadcasts_S2048x1_S2048x42 (ix2 i q) = v (ix1 i) := by
  rw [shapeCast_self, colB]

/-- A vector of 42 entries laid as a row and broadcast along 2048 rows reads its entry at the column. -/
theorem rowB (v : S42.Idx → α) (i : Fin 2048) (q : Fin 42) :
    broadcastTo S2048x42 (shapeCast S1x42 v shapeCasts_S42_S1x42) broadcasts_S1x42_S2048x42 (ix2 i q) = v (ix1 q) := by
  rw [broadcastTo_1b_ab_apply, shapeCast_a_1a_apply]

end Layout

/-! ## The sine, the cosine and the integer comparison read at an index -/

section Pointwise
variable {s : Shape} {φ : FTy}

theorem sin_apply (a : FVec Ideal s φ) (j : s.Idx) : sin a j = Ideal.sin (a j) := rfl
theorem cos_apply (a : FVec Ideal s φ) (j : s.Idx) : cos a j = Ideal.cos (a j) := rfl
theorem cmpi_apply {w : ℕ} (p : CmpIPredicate) (a b : IVec s w) (j : s.Idx) : cmpi p a b j = IntOp.cmpi p (a j) (b j) := rfl

end Pointwise

/-! ## The named constant -/

/-- The named reciprocal denotes the rational 1/5. -/
theorem inv_5 : Named.named (F := Ideal) κ "inv_5" (φ := .f32) 0x3E4CCCCD#32 = ((1 / 5 : ℝ) : EReal) :=
  show (κ "inv_5").getD _ = _ from by rw [show κ "inv_5" = some ((1 / 5 : ℝ) : EReal) from rfl]; rfl

/-! ## The rank-1 payloads at a row -/

/-- The scaled distance. -/
theorem pay1_apply (x0 : Vec Ideal S2048 .f32) (j : S2048.Idx) :
    (k1_pay1 (F := Ideal) x0 : S2048.Idx → EReal) j = Spec.dK ((x0 : S2048.Idx → EReal) j) := by
  unfold k1_pay1
  simp only [mulf_apply, broadcast_apply, shapeCast_self, inv_5]
  rfl

/-- The envelope at the scaled distance. -/
theorem pay2_apply (x0 : Vec Ideal S2048 .f32) (j : S2048.Idx) :
    (k1_pay2 (F := Ideal) x0 : S2048.Idx → EReal) j = Spec.envK (Spec.dK ((x0 : S2048.Idx → EReal) j)) := by
  unfold k1_pay2
  simp only [mulf_apply, addf_apply, divf_apply, broadcast_apply, pay1_apply]
  rfl

/-- The cosine of the angle. -/
theorem pay3_apply (x1 : Vec Ideal S2048 .f32) (j : S2048.Idx) :
    (k1_pay3 (F := Ideal) x1 : S2048.Idx → EReal) j = Ideal.cos ((x1 : S2048.Idx → EReal) j) := by
  unfold k1_pay3
  simp only [cos_apply, shapeCast_self]

/-- The constant one. -/
theorem pay4_apply (j : S2048.Idx) : (k1_pay4 (F := Ideal) : S2048.Idx → EReal) j = Spec.one := rfl

/-- The second Legendre polynomial at the cosine. -/
theorem pay5_apply (x1 : Vec Ideal S2048 .f32) (j : S2048.Idx) :
    (k1_pay5 (F := Ideal) x1 : S2048.Idx → EReal) j = Spec.P2 (Ideal.cos ((x1 : S2048.Idx → EReal) j)) := by
  unfold k1_pay5
  simp only [mulf_apply, subf_apply, divf_apply, broadcast_apply, pay3_apply, pay4_apply]
  rfl

/-- The third. -/
theorem pay6_apply (x1 : Vec Ideal S2048 .f32) (j : S2048.Idx) :
    (k1_pay6 (F := Ideal) x1 : S2048.Idx → EReal) j = Spec.P3 (Ideal.cos ((x1 : S2048.Idx → EReal) j)) := by
  unfold k1_pay6
  simp only [mulf_apply, subf_apply, divf_apply, broadcast_apply, pay3_apply, pay5_apply]
  rfl

/-- Seven times the cosine. -/
theorem pay7_apply (x1 : Vec Ideal S2048 .f32) (j : S2048.Idx) :
    (k1_pay7 (F := Ideal) x1 : S2048.Idx → EReal) j = Spec.seven * Ideal.cos ((x1 : S2048.Idx → EReal) j) := by
  unfold k1_pay7
  simp only [mulf_apply, broadcast_apply, pay3_apply]
  rfl

/-- The fourth Legendre polynomial at the cosine. -/
theorem pay8_apply (x1 : Vec Ideal S2048 .f32) (j : S2048.Idx) :
    (k1_pay8 (F := Ideal) (k1_pay5 x1) (k1_pay6 x1) (k1_pay7 x1) : S2048.Idx → EReal) j
      = Spec.P4 (Ideal.cos ((x1 : S2048.Idx → EReal) j)) := by
  unfold k1_pay8
  simp only [mulf_apply, subf_apply, divf_apply, broadcast_apply, pay5_apply, pay6_apply, pay7_apply]
  rfl

/-- The fifth. -/
theorem pay9_apply (x1 : Vec Ideal S2048 .f32) (j : S2048.Idx) :
    (k1_pay9 (F := Ideal) (k1_pay3 x1) (k1_pay5 x1) (k1_pay6 x1) (k1_pay7 x1) : S2048.Idx → EReal) j
      = Spec.P5 (Ideal.cos ((x1 : S2048.Idx → EReal) j)) := by
  unfold k1_pay9
  simp only [mulf_apply, subf_apply, divf_apply, broadcast_apply, pay3_apply, pay6_apply, pay8_apply]
  rfl

/-- The sixth. -/
theorem pay10_apply (x1 : Vec Ideal S2048 .f32) (j : S2048.Idx) :
    (k1_pay10 (F := Ideal) (k1_pay3 x1) (k1_pay5 x1) (k1_pay6 x1) (k1_pay7 x1) : S2048.Idx → EReal) j
      = Spec.P6 (Ideal.cos ((x1 : S2048.Idx → EReal) j)) := by
  unfold k1_pay10
  simp only [mulf_apply, subf_apply, divf_apply, broadcast_apply, pay3_apply, pay8_apply, pay9_apply]
  rfl

/-! ## The rank-2 payloads at a row and a column -/

/-- The Bessel argument: the scaled distance of the row times the table entry of the column. -/
theorem pay11_apply (v3 : FVec Ideal S2048 .f32) (v66 : Vec Ideal S42 .f32) (i : Fin 2048) (q : Fin 42) :
    (k1_pay11 (F := Ideal) v3 v66 : S2048x42.Idx → EReal) (ix2 i q)
      = (v3 : S2048.Idx → EReal) (ix1 i) * (v66 : S42.Idx → EReal) (ix1 q) := by
  unfold k1_pay11
  simp only [mulf_apply, colB, rowB]

/-- Its reciprocal, formed once. -/
theorem pay12_apply (v3 : FVec Ideal S2048 .f32) (v66 : Vec Ideal S42 .f32) (i : Fin 2048) (q : Fin 42) :
    (k1_pay12 (F := Ideal) v3 v66 : S2048x42.Idx → EReal) (ix2 i q)
      = Spec.invK ((v3 : S2048.Idx → EReal) (ix1 i) * (v66 : S42.Idx → EReal) (ix1 q)) := by
  unfold k1_pay12
  simp only [divf_apply, broadcast_apply, pay11_apply]
  rfl

/-- Its sine. -/
theorem pay13_apply (v3 : FVec Ideal S2048 .f32) (v66 : Vec Ideal S42 .f32) (i : Fin 2048) (q : Fin 42) :
    (k1_pay13 (F := Ideal) v3 v66 : S2048x42.Idx → EReal) (ix2 i q)
      = Ideal.sin ((v3 : S2048.Idx → EReal) (ix1 i) * (v66 : S42.Idx → EReal) (ix1 q)) := by
  unfold k1_pay13
  simp only [sin_apply, pay11_apply]

/-- Its cosine. -/
theorem pay14_apply (v3 : FVec Ideal S2048 .f32) (v66 : Vec Ideal S42 .f32) (i : Fin 2048) (q : Fin 42) :
    (k1_pay14 (F := Ideal) v3 v66 : S2048x42.Idx → EReal) (ix2 i q)
      = Ideal.cos ((v3 : S2048.Idx → EReal) (ix1 i) * (v66 : S42.Idx → EReal) (ix1 q)) := by
  unfold k1_pay14
  simp only [cos_apply, pay11_apply]

/-- The Bessel function of order 0 from the reciprocal, the sine and the cosine, entry by entry. -/
theorem pay18_apply (v73 v74 : FVec Ideal S2048x42 .f32) (y : S2048x42.Idx) :
    (k1_pay18 (F := Ideal) v73 v74 : S2048x42.Idx → EReal) y = v74 y * v73 y := rfl

/-- Order 1. -/
theorem pay19_apply (v73 v74 v75 : FVec Ideal S2048x42 .f32) (y : S2048x42.Idx) :
    (k1_pay19 (F := Ideal) v73 v74 v75 : S2048x42.Idx → EReal) y = (v74 y * v73 y) * v73 y - v75 y * v73 y := rfl

/-- Order 2, by the recurrence. -/
theorem pay20_apply (v73 v74 v75 : FVec Ideal S2048x42 .f32) (y : S2048x42.Idx) :
    (k1_pay20 (F := Ideal) v73 v74 v75 : S2048x42.Idx → EReal) y
      = (Spec.three * v73 y) * ((v74 y * v73 y) * v73 y - v75 y * v73 y) - v74 y * v73 y := rfl

/-- Order 3, by the recurrence. -/
theorem pay22_apply (v73 v74 v75 : FVec Ideal S2048x42 .f32) (y : S2048x42.Idx) :
    (k1_pay22 (F := Ideal) v73 v74 v75 : S2048x42.Idx → EReal) y
      = (Spec.five * v73 y) * ((Spec.three * v73 y) * ((v74 y * v73 y) * v73 y - v75 y * v73 y) - v74 y * v73 y)
          - ((v74 y * v73 y) * v73 y - v75 y * v73 y) := rfl

/-- The orders 0 to 3 at the Bessel argument. -/
theorem j0_apply (v3 : FVec Ideal S2048 .f32) (v66 : Vec Ideal S42 .f32) (i : Fin 2048) (q : Fin 42) :
    (k1_pay18 (F := Ideal) (k1_pay12 v3 v66) (k1_pay13 v3 v66) : S2048x42.Idx → EReal) (ix2 i q)
      = Spec.j0K ((v3 : S2048.Idx → EReal) (ix1 i) * (v66 : S42.Idx → EReal) (ix1 q)) := by
  rw [pay18_apply, pay12_apply, pay13_apply]; rfl
theorem j1_apply (v3 : FVec Ideal S2048 .f32) (v66 : Vec Ideal S42 .f32) (i : Fin 2048) (q : Fin 42) :
    (k1_pay19 (F := Ideal) (k1_pay12 v3 v66) (k1_pay13 v3 v66) (k1_pay14 v3 v66) : S2048x42.Idx → EReal) (ix2 i q)
      = Spec.j1K ((v3 : S2048.Idx → EReal) (ix1 i) * (v66 : S42.Idx → EReal) (ix1 q)) := by
  rw [pay19_apply, pay12_apply, pay13_apply, pay14_apply]; rfl
theorem j2_apply (v3 : FVec Ideal S2048 .f32) (v66 : Vec Ideal S42 .f32) (i : Fin 2048) (q : Fin 42) :
    (k1_pay20 (F := Ideal) (k1_pay12 v3 v66) (k1_pay13 v3 v66) (k1_pay14 v3 v66) : S2048x42.Idx → EReal) (ix2 i q)
      = Spec.j2K ((v3 : S2048.Idx → EReal) (ix1 i) * (v66 : S42.Idx → EReal) (ix1 q)) := by
  rw [pay20_apply, pay12_apply, pay13_apply, pay14_apply]; rfl
theorem j3_apply (v3 : FVec Ideal S2048 .f32) (v66 : Vec Ideal S42 .f32) (i : Fin 2048) (q : Fin 42) :
    (k1_pay22 (F := Ideal) (k1_pay12 v3 v66) (k1_pay13 v3 v66) (k1_pay14 v3 v66) : S2048x42.Idx → EReal) (ix2 i q)
      = Spec.j3K ((v3 : S2048.Idx → EReal) (ix1 i) * (v66 : S42.Idx → EReal) (ix1 q)) := by
  rw [pay22_apply, pay12_apply, pay13_apply, pay14_apply]; rfl

/-! ## The column's order: the truncated quotient by 6, corrected for sign -/

/-- The body's integer chain on one word `w` of the column counter. -/
def ordW (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 6#32 0#32)) (Scalar.extui (Scalar.cmpi .slt 6#32 0#32))))
      (IntOp.cmpi .ne (IntOp.remsi .vector w 6#32) 0#32))
    (IntOp.subi (IntOp.divsi .vector w 6#32) 1#32)
    (IntOp.divsi .vector w 6#32)

/-- On the columns 0 … 41 the chain gives the quotient by 6. -/
theorem ordW_table : ∀ q : Fin 42, ordW (BitVec.ofNat 32 q.val) = BitVec.ofNat 32 (q.val / 6) := by
  decide

/-- The order the body computes at column `q`. -/
theorem ord_apply (i : Fin 2048) (q : Fin 42) :
    k1_pay17 (iota .tc S2048x42 32 [1] iota_S2048x42_d1_w32) 6#32 k1_pay15 k1_pay16
        (Scalar.extui (Scalar.cmpi .sgt 6#32 0#32)) (Scalar.cmpi .slt 6#32 0#32) (ix2 i q)
      = BitVec.ofNat 32 (q.val / 6) := by
  have h : iota .tc S2048x42 32 [1] iota_S2048x42_d1_w32 (ix2 i q) = BitVec.ofNat 32 q.val :=
    iota_single_apply .tc S2048x42 32 1 iota_S2048x42_d1_w32 (ix2 i q)
  show ordW (iota .tc S2048x42 32 [1] iota_S2048x42_d1_w32 (ix2 i q)) = _
  rw [h]
  exact ordW_table q

/-! ## The chains of selects -/

/-- Of seven candidates the one numbered `l` (the last beyond 5). -/
def pick7 {α : Type} (l : ℕ) (a0 a1 a2 a3 a4 a5 a6 : α) : α :=
  match l with
  | 0 => a0 | 1 => a1 | 2 => a2 | 3 => a3 | 4 => a4 | 5 => a5 | _ => a6

/-- A chain of selects on "the order is 6", "is 5", …, "is 1" over the word of an order below 7 picks that order's candidate. -/
theorem sel7 {α : Type} (l : ℕ) (hl : l < 7) (a0 a1 a2 a3 a4 a5 a6 : α) :
    Scalar.select (IntOp.cmpi .eq (BitVec.ofNat 32 l) 6#32) a6
      (Scalar.select (IntOp.cmpi .eq (BitVec.ofNat 32 l) 5#32) a5
        (Scalar.select (IntOp.cmpi .eq (BitVec.ofNat 32 l) 4#32) a4
          (Scalar.select (IntOp.cmpi .eq (BitVec.ofNat 32 l) 3#32) a3
            (Scalar.select (IntOp.cmpi .eq (BitVec.ofNat 32 l) 2#32) a2
              (Scalar.select (IntOp.cmpi .eq (BitVec.ofNat 32 l) 1#32) a1 a0)))))
      = pick7 l a0 a1 a2 a3 a4 a5 a6 := by
  interval_cases l <;> rfl

/-- The Legendre chain up to order 2: the order's word against 2, then 1, else the constant. -/
theorem pay21_apply (v24 v25 v33 : FVec Ideal S2048 .f32) (v76 : IVec S2048x42 32) (c6 : BitVec 32)
    (v78 v85 : IVec S2048x42 32) (v87 : BitVec 32) (v88 : BitVec 1) (i : Fin 2048) (q : Fin 42) :
    (k1_pay21 (F := Ideal) v24 v25 v33 v76 c6 v78 v85 v87 v88 : S2048x42.Idx → EReal) (ix2 i q)
      = Scalar.select (IntOp.cmpi .eq (k1_pay17 v76 c6 v78 v85 v87 v88 (ix2 i q)) 2#32) ((v33 : S2048.Idx → EReal) (ix1 i))
          (Scalar.select (IntOp.cmpi .eq (k1_pay17 v76 c6 v78 v85 v87 v88 (ix2 i q)) 1#32) ((v24 : S2048.Idx → EReal) (ix1 i))
            ((v25 : S2048.Idx → EReal) (ix1 i))) := by
  unfold k1_pay21
  simp only [select_apply, cmpi_apply, broadcast_apply, colB']

/-- The Bessel chain up to order 3. -/
theorem pay23_apply (v73 v74 v75 : FVec Ideal S2048x42 .f32) (v76 : IVec S2048x42 32) (c6 : BitVec 32)
    (v78 v85 : IVec S2048x42 32) (v87 : BitVec 32) (v88 : BitVec 1) (y : S2048x42.Idx) :
    (k1_pay23 (F := Ideal) v73 v74 v75 v76 c6 v78 v85 v87 v88 : S2048x42.Idx → EReal) y
      = Scalar.select (IntOp.cmpi .eq (k1_pay17 v76 c6 v78 v85 v87 v88 y) 3#32) (k1_pay22 v73 v74 v75 y)
          (Scalar.select (IntOp.cmpi .eq (k1_pay17 v76 c6 v78 v85 v87 v88 y) 2#32) (k1_pay20 v73 v74 v75 y)
            (Scalar.select (IntOp.cmpi .eq (k1_pay17 v76 c6 v78 v85 v87 v88 y) 1#32) (k1_pay19 v73 v74 v75 y)
              (k1_pay18 v73 v74 y))) := rfl

/-- The last payload: the orders 4, 5, 6 by the recurrence from the reciprocal and the orders 2 and 3, both chains
    finished, and the product (Bessel value · envelope) · Legendre value. -/
theorem pay25_apply (v23 v41 v49 v57 v65 : FVec Ideal S2048 .f32) (v73 : FVec Ideal S2048x42 .f32) (v100 : IVec S2048x42 32)
    (v121 v130 v134 v137 : FVec Ideal S2048x42 .f32) (i : Fin 2048) (q : Fin 42) :
    (k1_pay25 (F := Ideal) v23 v41 v49 v57 v65 v73 v100 v121 v130 v134 v137 k1_pay24 : S2048x42.Idx → EReal) (ix2 i q)
      = (Scalar.select (IntOp.cmpi .eq (v100 (ix2 i q)) 6#32)
            ((Spec.eleven * v73 (ix2 i q))
                * ((Spec.nine * v73 (ix2 i q)) * ((Spec.seven * v73 (ix2 i q)) * v134 (ix2 i q) - v121 (ix2 i q)) - v134 (ix2 i q))
              - ((Spec.seven * v73 (ix2 i q)) * v134 (ix2 i q) - v121 (ix2 i q)))
            (Scalar.select (IntOp.cmpi .eq (v100 (ix2 i q)) 5#32)
              ((Spec.nine * v73 (ix2 i q)) * ((Spec.seven * v73 (ix2 i q)) * v134 (ix2 i q) - v121 (ix2 i q)) - v134 (ix2 i q))
              (Scalar.select (IntOp.cmpi .eq (v100 (ix2 i q)) 4#32)
                ((Spec.seven * v73 (ix2 i q)) * v134 (ix2 i q) - v121 (ix2 i q))
                (v137 (ix2 i q))))
          * (v23 : S2048.Idx → EReal) (ix1 i))
        * Scalar.select (IntOp.cmpi .eq (v100 (ix2 i q)) 6#32) ((v65 : S2048.Idx → EReal) (ix1 i))
            (Scalar.select (IntOp.cmpi .eq (v100 (ix2 i q)) 5#32) ((v57 : S2048.Idx → EReal) (ix1 i))
              (Scalar.select (IntOp.cmpi .eq (v100 (ix2 i q)) 4#32) ((v49 : S2048.Idx → EReal) (ix1 i))
                (Scalar.select (IntOp.cmpi .eq (v100 (ix2 i q)) 3#32) ((v41 : S2048.Idx → EReal) (ix1 i))
                  (v130 (ix2 i q))))) := by
  unfold k1_pay25 k1_pay24
  simp only [mulf_apply, subf_apply, select_apply, cmpi_apply, broadcast_apply, colB, colB']
  rfl

/-! ## The output block -/

/-- The body's output block at row i and column q. -/
theorem payB (x0 x1 : Vec Ideal S2048 .f32) (x2 : Vec Ideal S42 .f32) (i : Fin 2048) (q : Fin 42) :
    (out1_3 (F := Ideal) x0 x1 x2 : S2048x42.Idx → EReal) (ix2 i q)
      = Spec.bKz ((x0 : S2048.Idx → EReal) (ix1 i)) ((x1 : S2048.Idx → EReal) (ix1 i)) ((x2 : S42.Idx → EReal) (ix1 q)) (Spec.ordOf q) := by
  unfold out1_3
  rw [View.canon_unit_zero hz2]
  simp only [View.ld_unit_zero (S := S2048) hz1, View.ld_unit_zero (S := S42) hz1]
  rw [pay25_apply, pay21_apply, pay23_apply, ord_apply]
  simp only [pay1_apply, pay2_apply, pay3_apply, pay4_apply, pay5_apply, pay6_apply, pay8_apply, pay9_apply,
    pay10_apply, pay12_apply, j0_apply, j1_apply, j2_apply, j3_apply]
  have hl : q.val / 6 < 7 := by have := q.isLt; omega
  rw [sel7 _ hl, sel7 _ hl]
  unfold Spec.bKz Spec.ordOf
  generalize q.val / 6 = l at hl ⊢
  interval_cases l <;> rfl

end Cert.KernelIdeal.PayB

end
-- ==== Proof.KernelValB.lean ====
/-
  The kernel program's second result, entry by entry. The host clamps each gather index into [0, 999999], gathers that
  distance, pads distances (with 5.0) and angles (with 0.0) to 2500608 entries; the second pallas_call runs over 1221
  blocks of 2048 triplets, and block t of its output holds at (i, q) the product of the order-(q/6) Bessel value at
  d·z q, the envelope at d and the order-(q/6) Legendre value at the cosine of the angle, d the padded gathered distance
  times 1/5, the order picked out of seven candidates by a chain of selects on the column's integer quotient by 6. The
  blocks tile the output, and the result is its first 2500000 rows, where the padded arrays are the arrays themselves.

  The steps. (1) Point t's input blocks are rows 2048·t … 2048·t + 2047 of the two padded arrays and the whole table, so
  what it writes back is block t of ONE function G of the three arrays: G at (r, q) is the body's value on row r of the
  padded distances, row r of the padded angles and entry q of the table. Row r lies in point r / 2048's block, so the
  output array ends holding G. (2) Each host stretch is read at the buffers it writes, from any contents before it; chained
  from the launch, the padded distances are pad(gather(distances, clamp(indices)), 5.0), the padded angles pad(angles, 0.0),
  and the table is the 42 words. (3) At a row below 2500000 a padded array reads the array it pads; the gather at t reads
  the distances at the signed start index clamped into [0, 999999], which is the specification's row of the clamped
  index; entry q of the table is the specification's q-th word. (4) The result at (t, q) is the output array at (t, q).
-/
import proofs.«426921_j31129922961736_3_alg».proof.Proof.Gen.KernelIdeal.Frame
import proofs.«426921_j31129922961736_3_alg».proof.Proof.Spec
import proofs.«426921_j31129922961736_3_alg».proof.Proof.KernelPayB
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost

set_option maxRecDepth 16384

noncomputable section

namespace Cert.KernelIdeal.ValB

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The second region: from blocks to the output array -/

/-- The index maps over the grid: the two long inputs and the output are at block t at point t, the table at block 0. -/
theorem idx_facts : ∀ t : Fin cfg1.N, win1_0.index t (0 : Fin 1) = t.val ∧ win1_1.index t (0 : Fin 1) = t.val
    ∧ win1_2.index t (0 : Fin 1) = 0 ∧ win1_3.index t (0 : Fin 2) = t.val ∧ win1_3.index t (1 : Fin 2) = 0 :=
  (by decide +kernel : ∀ t : Fin grid1.N, _)

/-- The output array as one function of the three input arrays: at (r, q) the body's value on row r of the two long
    arrays and entry q of the table. -/
def G (a5 a6 : S2500608.Idx → EReal) (z : S42.Idx → EReal) : S2500608x42.Idx → EReal :=
  fun i => Spec.bKz (a5 (ix1 (n := 2500608) (i 0))) (a6 (ix1 (n := 2500608) (i 0))) (z (ix1 (n := 42) (i 1))) (Spec.ordOf (i 1))

/-- G at explicit coordinates. -/
theorem G_apply (a5 a6 : S2500608.Idx → EReal) (z : S42.Idx → EReal) (r : Fin 2500608) (q : Fin 42) :
    G a5 a6 z (ix2 r q) = Spec.bKz (a5 (ix1 r)) (a6 (ix1 r)) (z (ix1 q)) (Spec.ordOf q) := rfl

/-- Point t's block of the padded distances is rows 2048·t … 2048·t + 2047. -/
theorem blk0_apply (c : Dev nD) (t : Fin cfg1.N) (i : Fin 2048) (r : Fin 2500608) (hr : r.val = t.val * 2048 + i.val) :
    (iblk1 (V10 (F := Ideal) m ρ) c 0 t : S2048.Idx → EReal) (ix1 i) = (V10 (F := Ideal) m ρ c main_v5 : S2500608.Idx → EReal) (ix1 r) := by
  unfold iblk1
  rw [View.read_apply]
  show (V10 (F := Ideal) m ρ c main_v5 : S2500608.Idx → EReal) _ = _
  congr 1
  funext a
  apply Fin.ext
  match a with
  | ⟨0, _⟩ => show win1_0.index t (0 : Fin 1) * 2048 + 1 * i.val = r.val; rw [(idx_facts t).1, hr]; omega

/-- Point t's block of the padded angles is rows 2048·t … 2048·t + 2047. -/
theorem blk1_apply (c : Dev nD) (t : Fin cfg1.N) (i : Fin 2048) (r : Fin 2500608) (hr : r.val = t.val * 2048 + i.val) :
    (iblk1 (V10 (F := Ideal) m ρ) c 1 t : S2048.Idx → EReal) (ix1 i) = (V10 (F := Ideal) m ρ c main_v6 : S2500608.Idx → EReal) (ix1 r) := by
  unfold iblk1
  rw [View.read_apply]
  show (V10 (F := Ideal) m ρ c main_v6 : S2500608.Idx → EReal) _ = _
  congr 1
  funext a
  apply Fin.ext
  match a with
  | ⟨0, _⟩ => show win1_1.index t (0 : Fin 1) * 2048 + 1 * i.val = r.val; rw [(idx_facts t).2.1, hr]; omega

/-- Every point's block of the table is the table. -/
theorem blk2_apply (c : Dev nD) (t : Fin cfg1.N) (q : Fin 42) :
    (iblk1 (V10 (F := Ideal) m ρ) c 2 t : S42.Idx → EReal) (ix1 q) = (V10 (F := Ideal) m ρ c main_cst : S42.Idx → EReal) (ix1 q) := by
  unfold iblk1
  rw [View.read_apply]
  show (V10 (F := Ideal) m ρ c main_cst : S42.Idx → EReal) _ = _
  congr 1
  funext a
  apply Fin.ext
  match a with
  | ⟨0, _⟩ => show win1_2.index t (0 : Fin 1) * 42 + 1 * q.val = q.val; rw [(idx_facts t).2.2.1]; omega

/-- What point t writes back is block t of G of the arrays the region finds. -/
theorem flushed_eq (c : Dev nD) (t : Fin cfg1.N) :
    (dat1 (V10 (F := Ideal) m ρ) c).flushed 3 t
      = ((cfg1.win 3).blk t).view.read (Elt Ideal) (G (V10 (F := Ideal) m ρ c main_v5) (V10 (F := Ideal) m ρ c main_v6) (V10 (F := Ideal) m ρ c main_cst)) := by
  show (cfg1.win 3).cut (grid1.coords t) ((dat1 (V10 (F := Ideal) m ρ) c).after 3 t) = _
  rw [after1_3]
  funext j
  obtain ⟨i, q, rfl⟩ : ∃ (i : Fin 2048) (q : Fin 42), j = ix2 i q := ⟨j 0, j 1, eq_ix2 j⟩
  rw [View.read_apply]
  have hN : cfg1.N = 1221 := N_1
  have ht : t.val < 1221 := hN ▸ t.isLt
  obtain ⟨r, hr⟩ : ∃ r : Fin 2500608, r.val = t.val * 2048 + i.val := ⟨⟨t.val * 2048 + i.val, by have := i.isLt; omega⟩, rfl⟩
  have hemb : ((cfg1.win 3).blk t).view.emb (ix2 i q) = (ix2 r q : S2500608x42.Idx) := by
    funext a
    apply Fin.ext
    match a with
    | ⟨0, _⟩ => show win1_3.index t (0 : Fin 2) * 2048 + 1 * i.val = r.val; rw [(idx_facts t).2.2.2.1, hr]; omega
    | ⟨1, _⟩ => show win1_3.index t (1 : Fin 2) * 42 + 1 * q.val = q.val; rw [(idx_facts t).2.2.2.2]; omega
  show (out1_3 (F := Ideal) (iblk1 (V10 (F := Ideal) m ρ) c 0 t) (iblk1 (V10 (F := Ideal) m ρ) c 1 t) (iblk1 (V10 (F := Ideal) m ρ) c 2 t) : S2048x42.Idx → EReal) (ix2 i q)
    = G (V10 (F := Ideal) m ρ c main_v5) (V10 (F := Ideal) m ρ c main_v6) (V10 (F := Ideal) m ρ c main_cst) (((cfg1.win 3).blk t).view.emb (ix2 i q))
  rw [hemb, G_apply]
  refine (PayB.payB (iblk1 (V10 (F := Ideal) m ρ) c 0 t) (iblk1 (V10 (F := Ideal) m ρ) c 1 t) (iblk1 (V10 (F := Ideal) m ρ) c 2 t) i q).trans ?_
  rw [blk0_apply m ρ c t i r hr, blk1_apply m ρ c t i r hr, blk2_apply m ρ c t q]

/-- An index of the output array is in point t's block iff each coordinate is in the block's range on its axis. -/
theorem mem_blk (t : Fin cfg1.N) (i : S2500608x42.Idx) :
    i ∈ ((cfg1.win 3).blk t).view.set ↔ ∀ a : Fin 2, win1_3.index t a * S2048x42.size a ≤ (i a).val ∧ (i a).val < win1_3.index t a * S2048x42.size a + S2048x42.size a := by
  show i ∈ ((View.whole main_v7).slice (win1_3.rect t)).set ↔ _
  rw [View.set_slice_whole, Rect.mem_set_unit]
  exact Iff.rfl

/-- Row r of the output array is covered by point r / 2048. -/
theorem cover (i : S2500608x42.Idx) : ∃ t : Fin cfg1.N, (cfg1.win 3).flush t = true ∧ i ∈ ((cfg1.win 3).blk t).view.set := by
  have hN : cfg1.N = 1221 := N_1
  have h0 : (i 0).val < 2500608 := (i 0).isLt
  have h1 : (i 1).val < 42 := (i 1).isLt
  refine ⟨⟨(i 0).val / 2048, by rw [hN]; omega⟩, flush1_3 _, ?_⟩
  rw [mem_blk]
  obtain ⟨-, -, -, e3, e4⟩ := idx_facts ⟨(i 0).val / 2048, by rw [hN]; omega⟩
  intro a
  match a with
  | ⟨0, _⟩ =>
    show win1_3.index _ (0 : Fin 2) * 2048 ≤ (i 0).val ∧ (i 0).val < win1_3.index _ (0 : Fin 2) * 2048 + 2048
    rw [e3]; show (i 0).val / 2048 * 2048 ≤ (i 0).val ∧ (i 0).val < (i 0).val / 2048 * 2048 + 2048; omega
  | ⟨1, _⟩ =>
    show win1_3.index _ (1 : Fin 2) * 42 ≤ (i 1).val ∧ (i 1).val < win1_3.index _ (1 : Fin 2) * 42 + 42
    rw [e4]; omega

/-- The output array after the second region: G of the arrays the region finds. -/
theorem final (c : Dev nD) : (dat1 (V10 (F := Ideal) m ρ) c).arrAt 3 cfg1.N
    = G (V10 (F := Ideal) m ρ c main_v5) (V10 (F := Ideal) m ρ c main_v6) (V10 (F := Ideal) m ρ c main_cst) :=
  (dat1 (V10 (F := Ideal) m ρ) c).arrAt_eq_of_cover 3 _ (fun t _ => flushed_eq m ρ c t) cover

/-! ## The host stretches before the second region, each read at the buffers it writes, from any contents -/

section Stretch
variable (V : Valuation τ sig (Elt Ideal))

/-- The clamp of the gather indices into [0, 999999]. -/
theorem st_v3 : (StableHlo.after hostOps1_1 (StableHlo.after hostOps1 V) (Proc.devRef .tc main_v3) : S2500000.Idx → BitVec 32)
    = minsi (broadcastInDim S2500000 ![] bcast_S_S2500000 (constantI S_ 32 999999#32))
        (maxsi (broadcastInDim S2500000 ![] bcast_S_S2500000 (constantI S_ 32 0#32))
          (V (Proc.devRef .tc main_arg2) : S2500000.Idx → BitVec 32)) := by
  after_results
  try rfl

/-- The clamp's stretches keep the distances. -/
theorem st_arg0 : StableHlo.after hostOps1_1 (StableHlo.after hostOps1 V) (Proc.devRef .tc main_arg0) = V (Proc.devRef .tc main_arg0) := by
  after_results
  try rfl

/-- The gather of the distances at the clamped indices, kept as a column. -/
theorem st_v4 : (StableHlo.after hostOps1_2 V (Proc.devRef .tc main_v4) : S2500000.Idx → EReal)
    = Host.gather gather_S1000000_S2500000x1_S2500000_n_0_n_n_0_1_1 (V (Proc.devRef .tc main_arg0) : S1000000.Idx → EReal)
        (broadcastInDim S2500000x1 ![0] bcast_S2500000_S2500000x1_0 (V (Proc.devRef .tc main_v3) : S2500000.Idx → BitVec 32)) := by
  after_results
  try rfl

/-- The gathered distances padded with 5.0 to 2500608 entries. -/
theorem st_v5 : (StableHlo.after hostOps1_4 (StableHlo.after hostOps1_3 V) (Proc.devRef .tc main_v5) : S2500608.Idx → EReal)
    = pad S2500608 ![0] ![608] ![0] (V (Proc.devRef .tc main_v4) : S2500000.Idx → EReal)
        (constant (F := Ideal) S_ .f32 0x40A00000#32) pads_S2500000_S2500608_06080 h_S_ := by
  after_results
  try rfl

/-- The last two stretches keep the padded distances. -/
theorem st_v5_keep : StableHlo.after hostOps1_6 (StableHlo.after hostOps1_5 V) (Proc.devRef .tc main_v5) = V (Proc.devRef .tc main_v5) := by
  after_results
  try rfl

/-- The angles padded with 0.0 to 2500608 entries. -/
theorem st_v6 : (StableHlo.after hostOps1_6 (StableHlo.after hostOps1_5 V) (Proc.devRef .tc main_v6) : S2500608.Idx → EReal)
    = pad S2500608 ![0] ![608] ![0] (V (Proc.devRef .tc main_arg1) : S2500000.Idx → EReal)
        (constant (F := Ideal) S_ .f32 0x00000000#32) pads_S2500000_S2500608_06080 h_S_ := by
  after_results
  try rfl

/-- The stretches up to the distances' padding keep the angles. -/
theorem st_arg1 : StableHlo.after hostOps1_4 (StableHlo.after hostOps1_3 (StableHlo.after hostOps1_2 (StableHlo.after hostOps1_1 (StableHlo.after hostOps1 V)))) (Proc.devRef .tc main_arg1) = V (Proc.devRef .tc main_arg1) := by
  after_results
  try rfl

/-- No stretch after the first region writes the table. -/
theorem st_cst : StableHlo.after hostOps1_6 (StableHlo.after hostOps1_5 (StableHlo.after hostOps1_4 (StableHlo.after hostOps1_3 (StableHlo.after hostOps1_2 (StableHlo.after hostOps1_1 (StableHlo.after hostOps1 V)))))) (Proc.devRef .tc main_cst) = V (Proc.devRef .tc main_cst) := by
  after_results
  try rfl

/-- The first two stretches: the table of 42 words is written, the arguments are kept. -/
theorem st0_cst : (StableHlo.after hostOps0_1 (StableHlo.after hostOps0 V) (Proc.devRef .tc main_cst) : S42.Idx → EReal)
    = fun i => Ideal.ofBits .f32 (lit0 (S42.rowMajor i)) := by
  after_results
  try rfl
theorem st0_arg0 : StableHlo.after hostOps0_1 (StableHlo.after hostOps0 V) (Proc.devRef .tc main_arg0) = V (Proc.devRef .tc main_arg0) := by
  after_results
  try rfl
theorem st0_arg1 : StableHlo.after hostOps0_1 (StableHlo.after hostOps0 V) (Proc.devRef .tc main_arg1) = V (Proc.devRef .tc main_arg1) := by
  after_results
  try rfl
theorem st0_arg2 : StableHlo.after hostOps0_1 (StableHlo.after hostOps0 V) (Proc.devRef .tc main_arg2) = V (Proc.devRef .tc main_arg2) := by
  after_results
  try rfl

end Stretch

/-! ## The arrays the second region finds -/

/-- The first region and the stretches before it keep the arguments and the table. -/
theorem w3_arg0 (c : Dev nD) : W3 (F := Ideal) m ρ c (Proc.devRef .tc main_arg0) = m ((c : Thread nD τ).loc main_arg0) :=
  (W3_of_ne m ρ c main_arg0 (by decide)).trans (st0_arg0 (W0 (F := Ideal) m ρ c))
theorem w3_arg1 (c : Dev nD) : W3 (F := Ideal) m ρ c (Proc.devRef .tc main_arg1) = m ((c : Thread nD τ).loc main_arg1) :=
  (W3_of_ne m ρ c main_arg1 (by decide)).trans (st0_arg1 (W0 (F := Ideal) m ρ c))
theorem w3_arg2 (c : Dev nD) : W3 (F := Ideal) m ρ c (Proc.devRef .tc main_arg2) = m ((c : Thread nD τ).loc main_arg2) :=
  (W3_of_ne m ρ c main_arg2 (by decide)).trans (st0_arg2 (W0 (F := Ideal) m ρ c))
theorem w3_cst (c : Dev nD) : (W3 (F := Ideal) m ρ c (Proc.devRef .tc main_cst) : S42.Idx → EReal) = fun i => Ideal.ofBits .f32 (lit0 (S42.rowMajor i)) :=
  (W3_of_ne m ρ c main_cst (by decide)).trans (st0_cst (W0 (F := Ideal) m ρ c))

/-- The table reaches the second region as the first host stretch wrote it. -/
theorem v10_cst (c : Dev nD) : (W10 (F := Ideal) m ρ c (Proc.devRef .tc main_cst) : S42.Idx → EReal)
    = fun i => Ideal.ofBits .f32 (lit0 (S42.rowMajor i)) :=
  (st_cst (W3 (F := Ideal) m ρ c)).trans (w3_cst m ρ c)

/-- The padded angles. -/
theorem v10_v6 (c : Dev nD) : (W10 (F := Ideal) m ρ c (Proc.devRef .tc main_v6) : S2500608.Idx → EReal)
    = pad S2500608 ![0] ![608] ![0] (m ((c : Thread nD τ).loc main_arg1) : S2500000.Idx → EReal)
        (constant (F := Ideal) S_ .f32 0x00000000#32) pads_S2500000_S2500608_06080 h_S_ := by
  have e1 : W8 (F := Ideal) m ρ c (Proc.devRef .tc main_arg1) = W3 (F := Ideal) m ρ c (Proc.devRef .tc main_arg1) := st_arg1 (W3 (F := Ideal) m ρ c)
  refine (st_v6 (W8 (F := Ideal) m ρ c)).trans ?_
  rw [e1, w3_arg1]

/-- The padded gathered distances. -/
theorem v10_v5 (c : Dev nD) : (W10 (F := Ideal) m ρ c (Proc.devRef .tc main_v5) : S2500608.Idx → EReal)
    = pad S2500608 ![0] ![608] ![0]
        (Host.gather gather_S1000000_S2500000x1_S2500000_n_0_n_n_0_1_1 (m ((c : Thread nD τ).loc main_arg0) : S1000000.Idx → EReal)
          (broadcastInDim S2500000x1 ![0] bcast_S2500000_S2500000x1_0
            (minsi (broadcastInDim S2500000 ![] bcast_S_S2500000 (constantI S_ 32 999999#32))
              (maxsi (broadcastInDim S2500000 ![] bcast_S_S2500000 (constantI S_ 32 0#32))
                (m ((c : Thread nD τ).loc main_arg2) : S2500000.Idx → BitVec 32)))))
        (constant (F := Ideal) S_ .f32 0x40A00000#32) pads_S2500000_S2500608_06080 h_S_ := by
  have e3 : (W5 (F := Ideal) m ρ c (Proc.devRef .tc main_v3) : S2500000.Idx → BitVec 32)
      = minsi (broadcastInDim S2500000 ![] bcast_S_S2500000 (constantI S_ 32 999999#32))
          (maxsi (broadcastInDim S2500000 ![] bcast_S_S2500000 (constantI S_ 32 0#32))
            (W3 (F := Ideal) m ρ c (Proc.devRef .tc main_arg2) : S2500000.Idx → BitVec 32)) := st_v3 (W3 (F := Ideal) m ρ c)
  have e0 : W5 (F := Ideal) m ρ c (Proc.devRef .tc main_arg0) = W3 (F := Ideal) m ρ c (Proc.devRef .tc main_arg0) := st_arg0 (W3 (F := Ideal) m ρ c)
  have e4 : (W6 (F := Ideal) m ρ c (Proc.devRef .tc main_v4) : S2500000.Idx → EReal)
      = Host.gather gather_S1000000_S2500000x1_S2500000_n_0_n_n_0_1_1 (W5 (F := Ideal) m ρ c (Proc.devRef .tc main_arg0) : S1000000.Idx → EReal)
          (broadcastInDim S2500000x1 ![0] bcast_S2500000_S2500000x1_0 (W5 (F := Ideal) m ρ c (Proc.devRef .tc main_v3) : S2500000.Idx → BitVec 32)) := st_v4 (W5 (F := Ideal) m ρ c)
  refine (st_v5_keep (W8 (F := Ideal) m ρ c)).trans ?_
  refine (st_v5 (W6 (F := Ideal) m ρ c)).trans ?_
  rw [e4, e3, e0, w3_arg0, w3_arg2]

/-! ## The three arrays read at an entry -/

/-- The program's table of 42 words is the specification's. -/
theorem lit_eq : ∀ q : Fin 42, lit0 q = Spec.zWord q := by decide

/-- Entry q of the table is the specification's q-th word as an extended real. -/
theorem cst_apply (c : Dev nD) (q : Fin 42) : (V10 (F := Ideal) m ρ c main_cst : S42.Idx → EReal) (ix1 q) = Spec.zOf q := by
  show (W10 (F := Ideal) m ρ c (Proc.devRef .tc main_cst) : S42.Idx → EReal) (ix1 q) = _
  rw [v10_cst]
  show Ideal.ofBits .f32 (lit0 (S42.rowMajor (ix1 q))) = Ideal.ofBits .f32 (Spec.zWord q)
  have e : S42.rowMajor (ix1 q) = q := Fin.ext (Shape.rowMajor_val_one _)
  rw [e, lit_eq]

/-- Below row 2500000 the padded angles are the angles. -/
theorem v6_apply (c : Dev nD) (t : Fin 2500000) (r : Fin 2500608) (hr : r.val = t.val) :
    (V10 (F := Ideal) m ρ c main_v6 : S2500608.Idx → EReal) (ix1 r)
      = (m ((c : Thread nD τ).loc main_arg1) : S2500000.Idx → EReal) (ix1 t) := by
  show (W10 (F := Ideal) m ρ c (Proc.devRef .tc main_v6) : S2500608.Idx → EReal) (ix1 r) = _
  rw [v10_v6]
  exact pad_apply_of_inside ![0] ![608] ![0] _ _ pads_S2500000_S2500608_06080 h_S_ (ix1 r) (ix1 t) (fun a => by
    match a with
    | ⟨0, _⟩ => show r.val = 0 + t.val * (0 + 1); omega)

/-- Below row 2500000 the padded gathered distances are the distances at the clamped index's row. -/
theorem v5_apply (c : Dev nD) (t : Fin 2500000) (r : Fin 2500608) (hr : r.val = t.val) :
    (V10 (F := Ideal) m ρ c main_v5 : S2500608.Idx → EReal) (ix1 r)
      = (m ((c : Thread nD τ).loc main_arg0) : S1000000.Idx → EReal)
          (ix1 (Spec.rowOf (Spec.clipK ((m ((c : Thread nD τ).loc main_arg2) : S2500000.Idx → BitVec 32) (ix1 t))))) := by
  show (W10 (F := Ideal) m ρ c (Proc.devRef .tc main_v5) : S2500608.Idx → EReal) (ix1 r) = _
  rw [v10_v5]
  refine (pad_apply_of_inside ![0] ![608] ![0] _ _ pads_S2500000_S2500608_06080 h_S_ (ix1 r) (ix1 t) (fun a => by
    match a with
    | ⟨0, _⟩ => show r.val = 0 + t.val * (0 + 1); omega)).trans ?_
  have e1 : (ix1 t : S2500000.Idx) = Shape.Idx.ofFin t := by
    funext a; match a with | ⟨0, _⟩ => rfl
  have hk : (broadcastInDim S2500000x1 ![0] bcast_S2500000_S2500000x1_0
        (minsi (broadcastInDim S2500000 ![] bcast_S_S2500000 (constantI S_ 32 999999#32))
          (maxsi (broadcastInDim S2500000 ![] bcast_S_S2500000 (constantI S_ 32 0#32))
            (m ((c : Thread nD τ).loc main_arg2) : S2500000.Idx → BitVec 32)))) (StableHlo.Predicate.ixP t)
      = Spec.clipK ((m ((c : Thread nD τ).loc main_arg2) : S2500000.Idx → BitVec 32) (ix1 t)) := by
    rw [StableHlo.Predicate.bcast_col1, ← e1]
    rfl
  refine (congrArg _ e1).trans ?_
  refine (StableHlo.Predicate.gather_take gather_S1000000_S2500000x1_S2500000_n_0_n_n_0_1_1 rfl rfl rfl rfl _ _ t (by decide)).trans ?_
  refine congrArg _ ?_
  funext a
  match a with
  | ⟨0, _⟩ =>
    refine Fin.ext ?_
    show min _ (1000000 - 1) = min _ 999999
    rw [hk]

/-! ## The result -/

/-- The second result is the first 2500000 rows of the second region's output array. -/
theorem v8_eq (c : Dev nD) :
    (W12 (F := Ideal) m ρ c (Proc.devRef .tc main_v8) : S2500000x42.Idx → EReal)
      = extractStridedSlice S2500000x42 ![0, 0] (W11 (F := Ideal) m ρ c (Proc.devRef .tc main_v7) : S2500608x42.Idx → EReal) slices_S2500608x42_S2500000x42_0_0 := by
  show StableHlo.after hostOps2 _ (Proc.devRef .tc main_v8) = _
  after_results

/-- The second result at triplet t and column q. -/
theorem valB (c : Dev nD) (t : Fin 2500000) (q : Fin 42) :
    (W12 (F := Ideal) m ρ c (Proc.devRef .tc main_v8) : S2500000x42.Idx → EReal) (ix2 t q)
      = Spec.bK ((m ((c.tc : Thread nD τ).loc main_arg0) : S1000000.Idx → EReal)
            (ix1 (Spec.rowOf (Spec.clipK ((m ((c.tc : Thread nD τ).loc main_arg2) : S2500000.Idx → BitVec 32) (ix1 t))))))
          ((m ((c.tc : Thread nD τ).loc main_arg1) : S2500000.Idx → EReal) (ix1 t)) q := by
  obtain ⟨r, hr⟩ : ∃ r : Fin 2500608, r.val = t.val := ⟨⟨t.val, by have := t.isLt; omega⟩, rfl⟩
  have h7 : (W11 (F := Ideal) m ρ c (Proc.devRef .tc main_v7) : S2500608x42.Idx → EReal)
      = G (V10 (F := Ideal) m ρ c main_v5) (V10 (F := Ideal) m ρ c main_v6) (V10 (F := Ideal) m ρ c main_cst) :=
    (W11_arr m ρ c 3).trans (final m ρ c)
  rw [v8_eq]
  refine (extractStridedSlice_apply ![0, 0] _ slices_S2500608x42_S2500000x42_0_0 (ix2 t q) (ix2 r q) (fun a => by
    match a with
    | ⟨0, _⟩ => show r.val = 0 + t.val; omega
    | ⟨1, _⟩ => show q.val = 0 + q.val; omega)).trans ?_
  rw [h7, G_apply, v5_apply m ρ c t r hr, v6_apply m ρ c t r hr, cst_apply m ρ c q]
  rfl

end Cert.KernelIdeal.ValB

end
-- ==== Proof.RefOps.lean ====
/- The statements of the printed reference, window by window as printed, each as the host operation it runs, and that
   every one of them touches TensorCore references only. A transcription of the printed program: one entry per statement. -/
import proofs.«426921_j31129922961736_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 0, in order. -/
abbrev ops0 : List (HloOp τ sig (Elt F)) :=
  [ StableHlo.nullary main_cst (fun i => FloatOps.ofBits .f32 (lit0 (S7x6.rowMajor i))),
    StableHlo.unary main_arg0 main_v0 (broadcastInDim S1000000x1 ![0] bcast_S1000000_S1000000x1_0 : (⟨S1000000, .f32⟩ : BufTy).Contents (Elt F) → (⟨S1000000x1, .f32⟩ : BufTy).Contents (Elt F)),
    StableHlo.nullary main_cst_0 (constant S_ .f32 0x40A00000#32),
    StableHlo.unary main_cst_0 main_v1 (broadcastInDim S1000000x1 ![] bcast_S_S1000000x1 : (⟨S_, .f32⟩ : BufTy).Contents (Elt F) → (⟨S1000000x1, .f32⟩ : BufTy).Contents (Elt F)),
    StableHlo.binary main_v0 main_v1 main_v2 (Host.divf : (⟨S1000000x1, .f32⟩ : BufTy).Contents (Elt F) → (⟨S1000000x1, .f32⟩ : BufTy).Contents (Elt F) → (⟨S1000000x1, .f32⟩ : BufTy).Contents (Elt F)),
    StableHlo.binary main_v2 main_v2 main_v3 (mulf : (⟨S1000000x1, .f32⟩ : BufTy).Contents (Elt F) → (⟨S1000000x1, .f32⟩ : BufTy).Contents (Elt F) → (⟨S1000000x1, .f32⟩ : BufTy).Contents (Elt F)),
    StableHlo.binary main_v3 main_v3 main_v4 (mulf : (⟨S1000000x1, .f32⟩ : BufTy).Contents (Elt F) → (⟨S1000000x1, .f32⟩ : BufTy).Contents (Elt F) → (⟨S1000000x1, .f32⟩ : BufTy).Contents (Elt F)),
    StableHlo.binary main_v2 main_v4 main_v5 (mulf : (⟨S1000000x1, .f32⟩ : BufTy).Contents (Elt F) → (⟨S1000000x1, .f32⟩ : BufTy).Contents (Elt F) → (⟨S1000000x1, .f32⟩ : BufTy).Contents (Elt F)),
    StableHlo.nullary main_cst_1 (constant S_ .f32 0x3F800000#32),
    StableHlo.unary main_cst_1 main_v6 (broadcastInDim S1000000x1 ![] bcast_S_S1000000x1 : (⟨S_, .f32⟩ : BufTy).Contents (Elt F) → (⟨S1000000x1, .f32⟩ : BufTy).Contents (Elt F)),
    StableHlo.binary main_v6 main_v2 main_v7 (Host.divf : (⟨S1000000x1, .f32⟩ : BufTy).Contents (Elt F) → (⟨S1000000x1, .f32⟩ : BufTy).Contents (Elt F) → (⟨S1000000x1, .f32⟩ : BufTy).Contents (Elt F)),
    StableHlo.nullary main_cst_2 (constant S_ .f32 0xC1E00000#32),
    StableHlo.unary main_cst_2 main_v8 (broadcastInDim S1000000x1 ![] bcast_S_S1000000x1 : (⟨S_, .f32⟩ : BufTy).Contents (Elt F) → (⟨S1000000x1, .f32⟩ : BufTy).Contents (Elt F)),
    StableHlo.binary main_v8 main_v5 main_v9 (mulf : (⟨S1000000x1, .f32⟩ : BufTy).Contents (Elt F) → (⟨S1000000x1, .f32⟩ : BufTy).Contents (Elt F) → (⟨S1000000x1, .f32⟩ : BufTy).Contents (Elt F)),
    StableHlo.binary main_v7 main_v9 main_v10 (addf : (⟨S1000000x1, .f32⟩ : BufTy).Contents (Elt F) → (⟨S1000000x1, .f32⟩ : BufTy).Contents (Elt F) → (⟨S1000000x1, .f32⟩ : BufTy).Contents (Elt F)),
    StableHlo.nullary main_cst_3 (constant S_ .f32 0x42400000#32),
    StableHlo.unary main_cst_3 main_v11 (broadcastInDim S1000000x1 ![] bcast_S_S1000000x1 : (⟨S_, .f32⟩ : BufTy).Contents (Elt F) → (⟨S1000000x1, .f32⟩ : BufTy).Contents (Elt F)),
    StableHlo.binary main_v11 main_v5 main_v12 (mulf : (⟨S1000000x1, .f32⟩ : BufTy).Contents (Elt F) → (⟨S1000000x1, .f32⟩ : BufTy).Contents (Elt F) → (⟨S1000000x1, .f32⟩ : BufTy).Contents (Elt F)),
    StableHlo.binary main_v12 main_v2 main_v13 (mulf : (⟨S1000000x1, .f32⟩ : BufTy).Contents (Elt F) → (⟨S1000000x1, .f32⟩ : BufTy).Contents (Elt F) → (⟨S1000000x1, .f32⟩ : BufTy).Contents (Elt F)),
    StableHlo.binary main_v10 main_v13 main_v14 (addf : (⟨S1000000x1, .f32⟩ : BufTy).Contents (Elt F) → (⟨S1000000x1, .f32⟩ : BufTy).Contents (Elt F) → (⟨S1000000x1, .f32⟩ : BufTy).Contents (Elt F)),
    StableHlo.nullary main_cst_4 (constant S_ .f32 0x41A80000#32),
    StableHlo.unary main_cst_4 main_v15 (broadcastInDim S1000000x1 ![] bcast_S_S1000000x1 : (⟨S_, .f32⟩ : BufTy).Contents (Elt F) → (⟨S1000000x1, .f32⟩ : BufTy).Contents (Elt F)),
    StableHlo.binary main_v15 main_v5 main_v16 (mulf : (⟨S1000000x1, .f32⟩ : BufTy).Contents (Elt F) → (⟨S1000000x1, .f32⟩ : BufTy).Contents (Elt F) → (⟨S1000000x1, .f32⟩ : BufTy).Contents (Elt F)),
    StableHlo.binary main_v16 main_v2 main_v17 (mulf : (⟨S1000000x1, .f32⟩ : BufTy).Contents (Elt F) → (⟨S1000000x1, .f32⟩ : BufTy).Contents (Elt F) → (⟨S1000000x1, .f32⟩ : BufTy).Contents (Elt F)),
    StableHlo.binary main_v17 main_v2 main_v18 (mulf : (⟨S1000000x1, .f32⟩ : BufTy).Contents (Elt F) → (⟨S1000000x1, .f32⟩ : BufTy).Contents (Elt F) → (⟨S1000000x1, .f32⟩ : BufTy).Contents (Elt F)),
    StableHlo.binary main_v14 main_v18 main_v19 (addf : (⟨S1000000x1, .f32⟩ : BufTy).Contents (Elt F) → (⟨S1000000x1, .f32⟩ : BufTy).Contents (Elt F) → (⟨S1000000x1, .f32⟩ : BufTy).Contents (Elt F)),
    StableHlo.unary main_arg3 main_v20 (broadcastInDim S1x6 ![1] bcast_S6_S1x6_1 : (⟨S6, .f32⟩ : BufTy).Contents (Elt F) → (⟨S1x6, .f32⟩ : BufTy).Contents (Elt F)),
    StableHlo.unary main_v20 main_v21 (broadcastInDim S1000000x6 ![0, 1] bcast_S1x6_S1000000x6_0_1 : (⟨S1x6, .f32⟩ : BufTy).Contents (Elt F) → (⟨S1000000x6, .f32⟩ : BufTy).Contents (Elt F)),
    StableHlo.unary main_v2 main_v22 (broadcastInDim S1000000x6 ![0, 1] bcast_S1000000x1_S1000000x6_0_1 : (⟨S1000000x1, .f32⟩ : BufTy).Contents (Elt F) → (⟨S1000000x6, .f32⟩ : BufTy).Contents (Elt F)),
    StableHlo.binary main_v21 main_v22 main_v23 (mulf : (⟨S1000000x6, .f32⟩ : BufTy).Contents (Elt F) → (⟨S1000000x6, .f32⟩ : BufTy).Contents (Elt F) → (⟨S1000000x6, .f32⟩ : BufTy).Contents (Elt F)),
    StableHlo.unary main_v23 main_v24 (Host.sin : (⟨S1000000x6, .f32⟩ : BufTy).Contents (Elt F) → (⟨S1000000x6, .f32⟩ : BufTy).Contents (Elt F)),
    StableHlo.unary main_v19 main_v25 (broadcastInDim S1000000x6 ![0, 1] bcast_S1000000x1_S1000000x6_0_1 : (⟨S1000000x1, .f32⟩ : BufTy).Contents (Elt F) → (⟨S1000000x6, .f32⟩ : BufTy).Contents (Elt F)),
    StableHlo.binary main_v25 main_v24 main_v26 (mulf : (⟨S1000000x6, .f32⟩ : BufTy).Contents (Elt F) → (⟨S1000000x6, .f32⟩ : BufTy).Contents (Elt F) → (⟨S1000000x6, .f32⟩ : BufTy).Contents (Elt F)),
    StableHlo.nullary main_cst_5 (constant S_ .f32 0x40A00000#32),
    StableHlo.unary main_cst_5 main_v27 (broadcastInDim S1000000 ![] bcast_S_S1000000 : (⟨S_, .f32⟩ : BufTy).Contents (Elt F) → (⟨S1000000, .f32⟩ : BufTy).Contents (Elt F)),
    StableHlo.binary main_arg0 main_v27 main_v28 (Host.divf : (⟨S1000000, .f32⟩ : BufTy).Contents (Elt F) → (⟨S1000000, .f32⟩ : BufTy).Contents (Elt F) → (⟨S1000000, .f32⟩ : BufTy).Contents (Elt F)),
    StableHlo.unary main_v28 main_v29 (broadcastInDim S1000000x1 ![0] bcast_S1000000_S1000000x1_0 : (⟨S1000000, .f32⟩ : BufTy).Contents (Elt F) → (⟨S1000000x1, .f32⟩ : BufTy).Contents (Elt F)),
    StableHlo.unary main_cst main_v30 ((extractStridedSlice S1x6 ![0, 0] · slices_S7x6_S1x6_0_0) : (⟨S7x6, .f32⟩ : BufTy).Contents (Elt F) → (⟨S1x6, .f32⟩ : BufTy).Contents (Elt F)),
    StableHlo.reshape main_v30 main_v31 rfl shapeCasts_S1x6_S6,
    StableHlo.unary main_v31 main_v32 (broadcastInDim S1x6 ![1] bcast_S6_S1x6_1 : (⟨S6, .f32⟩ : BufTy).Contents (Elt F) → (⟨S1x6, .f32⟩ : BufTy).Contents (Elt F)),
    StableHlo.unary main_v29 main_v33 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v32 main_v34 (broadcastInDim S1000000x6 ![0, 1] bcast_S1x6_S1000000x6_0_1 : (⟨S1x6, .f32⟩ : BufTy).Contents (Elt F) → (⟨S1000000x6, .f32⟩ : BufTy).Contents (Elt F)),
    StableHlo.binary main_v33 main_v34 main_v35 (mulf : (⟨S1000000x6, .f32⟩ : BufTy).Contents (Elt F) → (⟨S1000000x6, .f32⟩ : BufTy).Contents (Elt F) → (⟨S1000000x6, .f32⟩ : BufTy).Contents (Elt F)),
    StableHlo.unary main_v35 main_v36 (Host.sin : (⟨S1000000x6, .f32⟩ : BufTy).Contents (Elt F) → (⟨S1000000x6, .f32⟩ : BufTy).Contents (Elt F)),
    StableHlo.binary main_v36 main_v35 main_v37 (Host.divf : (⟨S1000000x6, .f32⟩ : BufTy).Contents (Elt F) → (⟨S1000000x6, .f32⟩ : BufTy).Contents (Elt F) → (⟨S1000000x6, .f32⟩ : BufTy).Contents (Elt F)),
    StableHlo.unary main_v28 main_v38 (broadcastInDim S1000000x1 ![0] bcast_S1000000_S1000000x1_0 : (⟨S1000000, .f32⟩ : BufTy).Contents (Elt F) → (⟨S1000000x1, .f32⟩ : BufTy).Contents (Elt F)),
    StableHlo.unary main_cst main_v39 ((extractStridedSlice S1x6 ![1, 0] · slices_S7x6_S1x6_1_0) : (⟨S7x6, .f32⟩ : BufTy).Contents (Elt F) → (⟨S1x6, .f32⟩ : BufTy).Contents (Elt F)),
    StableHlo.reshape main_v39 main_v40 rfl shapeCasts_S1x6_S6,
    StableHlo.unary main_v40 main_v41 (broadcastInDim S1x6 ![1] bcast_S6_S1x6_1 : (⟨S6, .f32⟩ : BufTy).Contents (Elt F) → (⟨S1x6, .f32⟩ : BufTy).Contents (Elt F)),
    StableHlo.unary main_v38 main_v42 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v41 main_v43 (broadcastInDim S1000000x6 ![0, 1] bcast_S1x6_S1000000x6_0_1 : (⟨S1x6, .f32⟩ : BufTy).Contents (Elt F) → (⟨S1000000x6, .f32⟩ : BufTy).Contents (Elt F)),
    StableHlo.binary main_v42 main_v43 main_v44 (mulf : (⟨S1000000x6, .f32⟩ : BufTy).Contents (Elt F) → (⟨S1000000x6, .f32⟩ : BufTy).Contents (Elt F) → (⟨S1000000x6, .f32⟩ : BufTy).Contents (Elt F)),
    StableHlo.unary main_v44 main_v45 (Host.sin : (⟨S1000000x6, .f32⟩ : BufTy).Contents (Elt F) → (⟨S1000000x6, .f32⟩ : BufTy).Contents (Elt F)),
    StableHlo.binary main_v45 main_v44 main_v46 (Host.divf : (⟨S1000000x6, .f32⟩ : BufTy).Contents (Elt F) → (⟨S1000000x6, .f32⟩ : BufTy).Contents (Elt F) → (⟨S1000000x6, .f32⟩ : BufTy).Contents (Elt F)),
    StableHlo.unary main_v44 main_v47 (Host.sin : (⟨S1000000x6, .f32⟩ : BufTy).Contents (Elt F) → (⟨S1000000x6, .f32⟩ : BufTy).Contents (Elt F)),
    StableHlo.binary main_v44 main_v44 main_v48 (mulf : (⟨S1000000x6, .f32⟩ : BufTy).Contents (Elt F) → (⟨S1000000x6, .f32⟩ : BufTy).Contents (Elt F) → (⟨S1000000x6, .f32⟩ : BufTy).Contents (Elt F)),
    StableHlo.binary main_v47 main_v48 main_v49 (Host.divf : (⟨S1000000x6, .f32⟩ : BufTy).Contents (Elt F) → (⟨S1000000x6, .f32⟩ : BufTy).Contents (Elt F) → (⟨S1000000x6, .f32⟩ : BufTy).Contents (Elt F)),
    StableHlo.unary main_v44 main_v50 (Host.cos : (⟨S1000000x6, .f32⟩ : BufTy).Contents (Elt F) → (⟨S1000000x6, .f32⟩ : BufTy).Contents (Elt F)),
    StableHlo.binary main_v50 main_v44 main_v51 (Host.divf : (⟨S1000000x6, .f32⟩ : BufTy).Contents (Elt F) → (⟨S1000000x6, .f32⟩ : BufTy).Contents (Elt F) → (⟨S1000000x6, .f32⟩ : BufTy).Contents (Elt F)),
    StableHlo.binary main_v49 main_v51 main_v52 (subf : (⟨S1000000x6, .f32⟩ : BufTy).Contents (Elt F) → (⟨S1000000x6, .f32⟩ : BufTy).Contents (Elt F) → (⟨S1000000x6, .f32⟩ : BufTy).Contents (Elt F)) ]
theorem ops0_sub : (ops0 : List (HloOp τ sig (Elt F))).Forall fun op => op.bufs ⊆ tcRefs τ sig :=
  ⟨nullary_bufs_sub .., unary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., unary_bufs_sub .., binary_bufs_sub .., unary_bufs_sub .., binary_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub ..⟩

/-- The 60 operations of window 1, in order. -/
abbrev ops1 : List (HloOp τ sig (Elt F)) :=
  [ StableHlo.unary main_v28 main_v53 (broadcastInDim S1000000x1 ![0] bcast_S1000000_S1000000x1_0 : (⟨S1000000, .f32⟩ : BufTy).Contents (Elt F) → (⟨S1000000x1, .f32⟩ : BufTy).Contents (Elt F)),
    StableHlo.unary main_cst main_v54 ((extractStridedSlice S1x6 ![2, 0] · slices_S7x6_S1x6_2_0) : (⟨S7x6, .f32⟩ : BufTy).Contents (Elt F) → (⟨S1x6, .f32⟩ : BufTy).Contents (Elt F)),
    StableHlo.reshape main_v54 main_v55 rfl shapeCasts_S1x6_S6,
    StableHlo.unary main_v55 main_v56 (broadcastInDim S1x6 ![1] bcast_S6_S1x6_1 : (⟨S6, .f32⟩ : BufTy).Contents (Elt F) → (⟨S1x6, .f32⟩ : BufTy).Contents (Elt F)),
    StableHlo.unary main_v53 main_v57 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v56 main_v58 (broadcastInDim S1000000x6 ![0, 1] bcast_S1x6_S1000000x6_0_1 : (⟨S1x6, .f32⟩ : BufTy).Contents (Elt F) → (⟨S1000000x6, .f32⟩ : BufTy).Contents (Elt F)),
    StableHlo.binary main_v57 main_v58 main_v59 (mulf : (⟨S1000000x6, .f32⟩ : BufTy).Contents (Elt F) → (⟨S1000000x6, .f32⟩ : BufTy).Contents (Elt F) → (⟨S1000000x6, .f32⟩ : BufTy).Contents (Elt F)),
    StableHlo.unary main_v59 main_v60 (Host.sin : (⟨S1000000x6, .f32⟩ : BufTy).Contents (Elt F) → (⟨S1000000x6, .f32⟩ : BufTy).Contents (Elt F)),
    StableHlo.binary main_v60 main_v59 main_v61 (Host.divf : (⟨S1000000x6, .f32⟩ : BufTy).Contents (Elt F) → (⟨S1000000x6, .f32⟩ : BufTy).Contents (Elt F) → (⟨S1000000x6, .f32⟩ : BufTy).Contents (Elt F)),
    StableHlo.unary main_v59 main_v62 (Host.sin : (⟨S1000000x6, .f32⟩ : BufTy).Contents (Elt F) → (⟨S1000000x6, .f32⟩ : BufTy).Contents (Elt F)),
    StableHlo.binary main_v59 main_v59 main_v63 (mulf : (⟨S1000000x6, .f32⟩ : BufTy).Contents (Elt F) → (⟨S1000000x6, .f32⟩ : BufTy).Contents (Elt F) → (⟨S1000000x6, .f32⟩ : BufTy).Contents (Elt F)),
    StableHlo.binary main_v62 main_v63 main_v64 (Host.divf : (⟨S1000000x6, .f32⟩ : BufTy).Contents (Elt F) → (⟨S1000000x6, .f32⟩ : BufTy).Contents (Elt F) → (⟨S1000000x6, .f32⟩ : BufTy).Contents (Elt F)),
    StableHlo.unary main_v59 main_v65 (Host.cos : (⟨S1000000x6, .f32⟩ : BufTy).Contents (Elt F) → (⟨S1000000x6, .f32⟩ : BufTy).Contents (Elt F)),
    StableHlo.binary main_v65 main_v59 main_v66 (Host.divf : (⟨S1000000x6, .f32⟩ : BufTy).Contents (Elt F) → (⟨S1000000x6, .f32⟩ : BufTy).Contents (Elt F) → (⟨S1000000x6, .f32⟩ : BufTy).Contents (Elt F)),
    StableHlo.binary main_v64 main_v66 main_v67 (subf : (⟨S1000000x6, .f32⟩ : BufTy).Contents (Elt F) → (⟨S1000000x6, .f32⟩ : BufTy).Contents (Elt F) → (⟨S1000000x6, .f32⟩ : BufTy).Contents (Elt F)),
    StableHlo.nullary main_cst_6 (constant S_ .f32 0x40400000#32),
    StableHlo.unary main_cst_6 main_v68 (broadcastInDim S1000000x6 ![] bcast_S_S1000000x6 : (⟨S_, .f32⟩ : BufTy).Contents (Elt F) → (⟨S1000000x6, .f32⟩ : BufTy).Contents (Elt F)),
    StableHlo.binary main_v68 main_v59 main_v69 (Host.divf : (⟨S1000000x6, .f32⟩ : BufTy).Contents (Elt F) → (⟨S1000000x6, .f32⟩ : BufTy).Contents (Elt F) → (⟨S1000000x6, .f32⟩ : BufTy).Contents (Elt F)),
    StableHlo.binary main_v69 main_v67 main_v70 (mulf : (⟨S1000000x6, .f32⟩ : BufTy).Contents (Elt F) → (⟨S1000000x6, .f32⟩ : BufTy).Contents (Elt F) → (⟨S1000000x6, .f32⟩ : BufTy).Contents (Elt F)),
    StableHlo.binary main_v70 main_v61 main_v71 (subf : (⟨S1000000x6, .f32⟩ : BufTy).Contents (Elt F) → (⟨S1000000x6, .f32⟩ : BufTy).Contents (Elt F) → (⟨S1000000x6, .f32⟩ : BufTy).Contents (Elt F)),
    StableHlo.unary main_v28 main_v72 (broadcastInDim S1000000x1 ![0] bcast_S1000000_S1000000x1_0 : (⟨S1000000, .f32⟩ : BufTy).Contents (Elt F) → (⟨S1000000x1, .f32⟩ : BufTy).Contents (Elt F)),
    StableHlo.unary main_cst main_v73 ((extractStridedSlice S1x6 ![3, 0] · slices_S7x6_S1x6_3_0) : (⟨S7x6, .f32⟩ : BufTy).Contents (Elt F) → (⟨S1x6, .f32⟩ : BufTy).Contents (Elt F)),
    StableHlo.reshape main_v73 main_v74 rfl shapeCasts_S1x6_S6,
    StableHlo.unary main_v74 main_v75 (broadcastInDim S1x6 ![1] bcast_S6_S1x6_1 : (⟨S6, .f32⟩ : BufTy).Contents (Elt F) → (⟨S1x6, .f32⟩ : BufTy).Contents (Elt F)),
    StableHlo.unary main_v72 main_v76 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v75 main_v77 (broadcastInDim S1000000x6 ![0, 1] bcast_S1x6_S1000000x6_0_1 : (⟨S1x6, .f32⟩ : BufTy).Contents (Elt F) → (⟨S1000000x6, .f32⟩ : BufTy).Contents (Elt F)),
    StableHlo.binary main_v76 main_v77 main_v78 (mulf : (⟨S1000000x6, .f32⟩ : BufTy).Contents (Elt F) → (⟨S1000000x6, .f32⟩ : BufTy).Contents (Elt F) → (⟨S1000000x6, .f32⟩ : BufTy).Contents (Elt F)),
    StableHlo.unary main_v78 main_v79 (Host.sin : (⟨S1000000x6, .f32⟩ : BufTy).Contents (Elt F) → (⟨S1000000x6, .f32⟩ : BufTy).Contents (Elt F)),
    StableHlo.binary main_v79 main_v78 main_v80 (Host.divf : (⟨S1000000x6, .f32⟩ : BufTy).Contents (Elt F) → (⟨S1000000x6, .f32⟩ : BufTy).Contents (Elt F) → (⟨S1000000x6, .f32⟩ : BufTy).Contents (Elt F)),
    StableHlo.unary main_v78 main_v81 (Host.sin : (⟨S1000000x6, .f32⟩ : BufTy).Contents (Elt F) → (⟨S1000000x6, .f32⟩ : BufTy).Contents (Elt F)),
    StableHlo.binary main_v78 main_v78 main_v82 (mulf : (⟨S1000000x6, .f32⟩ : BufTy).Contents (Elt F) → (⟨S1000000x6, .f32⟩ : BufTy).Contents (Elt F) → (⟨S1000000x6, .f32⟩ : BufTy).Contents (Elt F)),
    StableHlo.binary main_v81 main_v82 main_v83 (Host.divf : (⟨S1000000x6, .f32⟩ : BufTy).Contents (Elt F) → (⟨S1000000x6, .f32⟩ : BufTy).Contents (Elt F) → (⟨S1000000x6, .f32⟩ : BufTy).Contents (Elt F)),
    StableHlo.unary main_v78 main_v84 (Host.cos : (⟨S1000000x6, .f32⟩ : BufTy).Contents (Elt F) → (⟨S1000000x6, .f32⟩ : BufTy).Contents (Elt F)),
    StableHlo.binary main_v84 main_v78 main_v85 (Host.divf : (⟨S1000000x6, .f32⟩ : BufTy).Contents (Elt F) → (⟨S1000000x6, .f32⟩ : BufTy).Contents (Elt F) → (⟨S1000000x6, .f32⟩ : BufTy).Contents (Elt F)),
    StableHlo.binary main_v83 main_v85 main_v86 (subf : (⟨S1000000x6, .f32⟩ : BufTy).Contents (Elt F) → (⟨S1000000x6, .f32⟩ : BufTy).Contents (Elt F) → (⟨S1000000x6, .f32⟩ : BufTy).Contents (Elt F)),
    StableHlo.nullary main_cst_7 (constant S_ .f32 0x40400000#32),
    StableHlo.unary main_cst_7 main_v87 (broadcastInDim S1000000x6 ![] bcast_S_S1000000x6 : (⟨S_, .f32⟩ : BufTy).Contents (Elt F) → (⟨S1000000x6, .f32⟩ : BufTy).Contents (Elt F)),
    StableHlo.binary main_v87 main_v78 main_v88 (Host.divf : (⟨S1000000x6, .f32⟩ : BufTy).Contents (Elt F) → (⟨S1000000x6, .f32⟩ : BufTy).Contents (Elt F) → (⟨S1000000x6, .f32⟩ : BufTy).Contents (Elt F)),
    StableHlo.binary main_v88 main_v86 main_v89 (mulf : (⟨S1000000x6, .f32⟩ : BufTy).Contents (Elt F) → (⟨S1000000x6, .f32⟩ : BufTy).Contents (Elt F) → (⟨S1000000x6, .f32⟩ : BufTy).Contents (Elt F)),
    StableHlo.binary main_v89 main_v80 main_v90 (subf : (⟨S1000000x6, .f32⟩ : BufTy).Contents (Elt F) → (⟨S1000000x6, .f32⟩ : BufTy).Contents (Elt F) → (⟨S1000000x6, .f32⟩ : BufTy).Contents (Elt F)),
    StableHlo.nullary main_cst_8 (constant S_ .f32 0x40A00000#32),
    StableHlo.unary main_cst_8 main_v91 (broadcastInDim S1000000x6 ![] bcast_S_S1000000x6 : (⟨S_, .f32⟩ : BufTy).Contents (Elt F) → (⟨S1000000x6, .f32⟩ : BufTy).Contents (Elt F)),
    StableHlo.binary main_v91 main_v78 main_v92 (Host.divf : (⟨S1000000x6, .f32⟩ : BufTy).Contents (Elt F) → (⟨S1000000x6, .f32⟩ : BufTy).Contents (Elt F) → (⟨S1000000x6, .f32⟩ : BufTy).Contents (Elt F)),
    StableHlo.binary main_v92 main_v90 main_v93 (mulf : (⟨S1000000x6, .f32⟩ : BufTy).Contents (Elt F) → (⟨S1000000x6, .f32⟩ : BufTy).Contents (Elt F) → (⟨S1000000x6, .f32⟩ : BufTy).Contents (Elt F)),
    StableHlo.binary main_v93 main_v86 main_v94 (subf : (⟨S1000000x6, .f32⟩ : BufTy).Contents (Elt F) → (⟨S1000000x6, .f32⟩ : BufTy).Contents (Elt F) → (⟨S1000000x6, .f32⟩ : BufTy).Contents (Elt F)),
    StableHlo.unary main_v28 main_v95 (broadcastInDim S1000000x1 ![0] bcast_S1000000_S1000000x1_0 : (⟨S1000000, .f32⟩ : BufTy).Contents (Elt F) → (⟨S1000000x1, .f32⟩ : BufTy).Contents (Elt F)),
    StableHlo.unary main_cst main_v96 ((extractStridedSlice S1x6 ![4, 0] · slices_S7x6_S1x6_4_0) : (⟨S7x6, .f32⟩ : BufTy).Contents (Elt F) → (⟨S1x6, .f32⟩ : BufTy).Contents (Elt F)),
    StableHlo.reshape main_v96 main_v97 rfl shapeCasts_S1x6_S6,
    StableHlo.unary main_v97 main_v98 (broadcastInDim S1x6 ![1] bcast_S6_S1x6_1 : (⟨S6, .f32⟩ : BufTy).Contents (Elt F) → (⟨S1x6, .f32⟩ : BufTy).Contents (Elt F)),
    StableHlo.unary main_v95 main_v99 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v98 main_v100 (broadcastInDim S1000000x6 ![0, 1] bcast_S1x6_S1000000x6_0_1 : (⟨S1x6, .f32⟩ : BufTy).Contents (Elt F) → (⟨S1000000x6, .f32⟩ : BufTy).Contents (Elt F)),
    StableHlo.binary main_v99 main_v100 main_v101 (mulf : (⟨S1000000x6, .f32⟩ : BufTy).Contents (Elt F) → (⟨S1000000x6, .f32⟩ : BufTy).Contents (Elt F) → (⟨S1000000x6, .f32⟩ : BufTy).Contents (Elt F)),
    StableHlo.unary main_v101 main_v102 (Host.sin : (⟨S1000000x6, .f32⟩ : BufTy).Contents (Elt F) → (⟨S1000000x6, .f32⟩ : BufTy).Contents (Elt F)),
    StableHlo.binary main_v102 main_v101 main_v103 (Host.divf : (⟨S1000000x6, .f32⟩ : BufTy).Contents (Elt F) → (⟨S1000000x6, .f32⟩ : BufTy).Contents (Elt F) → (⟨S1000000x6, .f32⟩ : BufTy).Contents (Elt F)),
    StableHlo.unary main_v101 main_v104 (Host.sin : (⟨S1000000x6, .f32⟩ : BufTy).Contents (Elt F) → (⟨S1000000x6, .f32⟩ : BufTy).Contents (Elt F)),
    StableHlo.binary main_v101 main_v101 main_v105 (mulf : (⟨S1000000x6, .f32⟩ : BufTy).Contents (Elt F) → (⟨S1000000x6, .f32⟩ : BufTy).Contents (Elt F) → (⟨S1000000x6, .f32⟩ : BufTy).Contents (Elt F)),
    StableHlo.binary main_v104 main_v105 main_v106 (Host.divf : (⟨S1000000x6, .f32⟩ : BufTy).Contents (Elt F) → (⟨S1000000x6, .f32⟩ : BufTy).Contents (Elt F) → (⟨S1000000x6, .f32⟩ : BufTy).Contents (Elt F)),
    StableHlo.unary main_v101 main_v107 (Host.cos : (⟨S1000000x6, .f32⟩ : BufTy).Contents (Elt F) → (⟨S1000000x6, .f32⟩ : BufTy).Contents (Elt F)),
    StableHlo.binary main_v107 main_v101 main_v108 (Host.divf : (⟨S1000000x6, .f32⟩ : BufTy).Contents (Elt F) → (⟨S1000000x6, .f32⟩ : BufTy).Contents (Elt F) → (⟨S1000000x6, .f32⟩ : BufTy).Contents (Elt F)),
    StableHlo.binary main_v106 main_v108 main_v109 (subf : (⟨S1000000x6, .f32⟩ : BufTy).Contents (Elt F) → (⟨S1000000x6, .f32⟩ : BufTy).Contents (Elt F) → (⟨S1000000x6, .f32⟩ : BufTy).Contents (Elt F)) ]
theorem ops1_sub : (ops1 : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub ..⟩

/-- The 60 operations of window 2, in order. -/
abbrev ops2 : List (HloOp τ sig (Elt F)) :=
  [ StableHlo.nullary main_cst_9 (constant S_ .f32 0x40400000#32),
    StableHlo.unary main_cst_9 main_v110 (broadcastInDim S1000000x6 ![] bcast_S_S1000000x6 : (⟨S_, .f32⟩ : BufTy).Contents (Elt F) → (⟨S1000000x6, .f32⟩ : BufTy).Contents (Elt F)),
    StableHlo.binary main_v110 main_v101 main_v111 (Host.divf : (⟨S1000000x6, .f32⟩ : BufTy).Contents (Elt F) → (⟨S1000000x6, .f32⟩ : BufTy).Contents (Elt F) → (⟨S1000000x6, .f32⟩ : BufTy).Contents (Elt F)),
    StableHlo.binary main_v111 main_v109 main_v112 (mulf : (⟨S1000000x6, .f32⟩ : BufTy).Contents (Elt F) → (⟨S1000000x6, .f32⟩ : BufTy).Contents (Elt F) → (⟨S1000000x6, .f32⟩ : BufTy).Contents (Elt F)),
    StableHlo.binary main_v112 main_v103 main_v113 (subf : (⟨S1000000x6, .f32⟩ : BufTy).Contents (Elt F) → (⟨S1000000x6, .f32⟩ : BufTy).Contents (Elt F) → (⟨S1000000x6, .f32⟩ : BufTy).Contents (Elt F)),
    StableHlo.nullary main_cst_10 (constant S_ .f32 0x40A00000#32),
    StableHlo.unary main_cst_10 main_v114 (broadcastInDim S1000000x6 ![] bcast_S_S1000000x6 : (⟨S_, .f32⟩ : BufTy).Contents (Elt F) → (⟨S1000000x6, .f32⟩ : BufTy).Contents (Elt F)),
    StableHlo.binary main_v114 main_v101 main_v115 (Host.divf : (⟨S1000000x6, .f32⟩ : BufTy).Contents (Elt F) → (⟨S1000000x6, .f32⟩ : BufTy).Contents (Elt F) → (⟨S1000000x6, .f32⟩ : BufTy).Contents (Elt F)),
    StableHlo.binary main_v115 main_v113 main_v116 (mulf : (⟨S1000000x6, .f32⟩ : BufTy).Contents (Elt F) → (⟨S1000000x6, .f32⟩ : BufTy).Contents (Elt F) → (⟨S1000000x6, .f32⟩ : BufTy).Contents (Elt F)),
    StableHlo.binary main_v116 main_v109 main_v117 (subf : (⟨S1000000x6, .f32⟩ : BufTy).Contents (Elt F) → (⟨S1000000x6, .f32⟩ : BufTy).Contents (Elt F) → (⟨S1000000x6, .f32⟩ : BufTy).Contents (Elt F)),
    StableHlo.nullary main_cst_11 (constant S_ .f32 0x40E00000#32),
    StableHlo.unary main_cst_11 main_v118 (broadcastInDim S1000000x6 ![] bcast_S_S1000000x6 : (⟨S_, .f32⟩ : BufTy).Contents (Elt F) → (⟨S1000000x6, .f32⟩ : BufTy).Contents (Elt F)),
    StableHlo.binary main_v118 main_v101 main_v119 (Host.divf : (⟨S1000000x6, .f32⟩ : BufTy).Contents (Elt F) → (⟨S1000000x6, .f32⟩ : BufTy).Contents (Elt F) → (⟨S1000000x6, .f32⟩ : BufTy).Contents (Elt F)),
    StableHlo.binary main_v119 main_v117 main_v120 (mulf : (⟨S1000000x6, .f32⟩ : BufTy).Contents (Elt F) → (⟨S1000000x6, .f32⟩ : BufTy).Contents (Elt F) → (⟨S1000000x6, .f32⟩ : BufTy).Contents (Elt F)),
    StableHlo.binary main_v120 main_v113 main_v121 (subf : (⟨S1000000x6, .f32⟩ : BufTy).Contents (Elt F) → (⟨S1000000x6, .f32⟩ : BufTy).Contents (Elt F) → (⟨S1000000x6, .f32⟩ : BufTy).Contents (Elt F)),
    StableHlo.unary main_v28 main_v122 (broadcastInDim S1000000x1 ![0] bcast_S1000000_S1000000x1_0 : (⟨S1000000, .f32⟩ : BufTy).Contents (Elt F) → (⟨S1000000x1, .f32⟩ : BufTy).Contents (Elt F)),
    StableHlo.unary main_cst main_v123 ((extractStridedSlice S1x6 ![5, 0] · slices_S7x6_S1x6_5_0) : (⟨S7x6, .f32⟩ : BufTy).Contents (Elt F) → (⟨S1x6, .f32⟩ : BufTy).Contents (Elt F)),
    StableHlo.reshape main_v123 main_v124 rfl shapeCasts_S1x6_S6,
    StableHlo.unary main_v124 main_v125 (broadcastInDim S1x6 ![1] bcast_S6_S1x6_1 : (⟨S6, .f32⟩ : BufTy).Contents (Elt F) → (⟨S1x6, .f32⟩ : BufTy).Contents (Elt F)),
    StableHlo.unary main_v122 main_v126 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v125 main_v127 (broadcastInDim S1000000x6 ![0, 1] bcast_S1x6_S1000000x6_0_1 : (⟨S1x6, .f32⟩ : BufTy).Contents (Elt F) → (⟨S1000000x6, .f32⟩ : BufTy).Contents (Elt F)),
    StableHlo.binary main_v126 main_v127 main_v128 (mulf : (⟨S1000000x6, .f32⟩ : BufTy).Contents (Elt F) → (⟨S1000000x6, .f32⟩ : BufTy).Contents (Elt F) → (⟨S1000000x6, .f32⟩ : BufTy).Contents (Elt F)),
    StableHlo.unary main_v128 main_v129 (Host.sin : (⟨S1000000x6, .f32⟩ : BufTy).Contents (Elt F) → (⟨S1000000x6, .f32⟩ : BufTy).Contents (Elt F)),
    StableHlo.binary main_v129 main_v128 main_v130 (Host.divf : (⟨S1000000x6, .f32⟩ : BufTy).Contents (Elt F) → (⟨S1000000x6, .f32⟩ : BufTy).Contents (Elt F) → (⟨S1000000x6, .f32⟩ : BufTy).Contents (Elt F)),
    StableHlo.unary main_v128 main_v131 (Host.sin : (⟨S1000000x6, .f32⟩ : BufTy).Contents (Elt F) → (⟨S1000000x6, .f32⟩ : BufTy).Contents (Elt F)),
    StableHlo.binary main_v128 main_v128 main_v132 (mulf : (⟨S1000000x6, .f32⟩ : BufTy).Contents (Elt F) → (⟨S1000000x6, .f32⟩ : BufTy).Contents (Elt F) → (⟨S1000000x6, .f32⟩ : BufTy).Contents (Elt F)),
    StableHlo.binary main_v131 main_v132 main_v133 (Host.divf : (⟨S1000000x6, .f32⟩ : BufTy).Contents (Elt F) → (⟨S1000000x6, .f32⟩ : BufTy).Contents (Elt F) → (⟨S1000000x6, .f32⟩ : BufTy).Contents (Elt F)),
    StableHlo.unary main_v128 main_v134 (Host.cos : (⟨S1000000x6, .f32⟩ : BufTy).Contents (Elt F) → (⟨S1000000x6, .f32⟩ : BufTy).Contents (Elt F)),
    StableHlo.binary main_v134 main_v128 main_v135 (Host.divf : (⟨S1000000x6, .f32⟩ : BufTy).Contents (Elt F) → (⟨S1000000x6, .f32⟩ : BufTy).Contents (Elt F) → (⟨S1000000x6, .f32⟩ : BufTy).Contents (Elt F)),
    StableHlo.binary main_v133 main_v135 main_v136 (subf : (⟨S1000000x6, .f32⟩ : BufTy).Contents (Elt F) → (⟨S1000000x6, .f32⟩ : BufTy).Contents (Elt F) → (⟨S1000000x6, .f32⟩ : BufTy).Contents (Elt F)),
    StableHlo.nullary main_cst_12 (constant S_ .f32 0x40400000#32),
    StableHlo.unary main_cst_12 main_v137 (broadcastInDim S1000000x6 ![] bcast_S_S1000000x6 : (⟨S_, .f32⟩ : BufTy).Contents (Elt F) → (⟨S1000000x6, .f32⟩ : BufTy).Contents (Elt F)),
    StableHlo.binary main_v137 main_v128 main_v138 (Host.divf : (⟨S1000000x6, .f32⟩ : BufTy).Contents (Elt F) → (⟨S1000000x6, .f32⟩ : BufTy).Contents (Elt F) → (⟨S1000000x6, .f32⟩ : BufTy).Contents (Elt F)),
    StableHlo.binary main_v138 main_v136 main_v139 (mulf : (⟨S1000000x6, .f32⟩ : BufTy).Contents (Elt F) → (⟨S1000000x6, .f32⟩ : BufTy).Contents (Elt F) → (⟨S1000000x6, .f32⟩ : BufTy).Contents (Elt F)),
    StableHlo.binary main_v139 main_v130 main_v140 (subf : (⟨S1000000x6, .f32⟩ : BufTy).Contents (Elt F) → (⟨S1000000x6, .f32⟩ : BufTy).Contents (Elt F) → (⟨S1000000x6, .f32⟩ : BufTy).Contents (Elt F)),
    StableHlo.nullary main_cst_13 (constant S_ .f32 0x40A00000#32),
    StableHlo.unary main_cst_13 main_v141 (broadcastInDim S1000000x6 ![] bcast_S_S1000000x6 : (⟨S_, .f32⟩ : BufTy).Contents (Elt F) → (⟨S1000000x6, .f32⟩ : BufTy).Contents (Elt F)),
    StableHlo.binary main_v141 main_v128 main_v142 (Host.divf : (⟨S1000000x6, .f32⟩ : BufTy).Contents (Elt F) → (⟨S1000000x6, .f32⟩ : BufTy).Contents (Elt F) → (⟨S1000000x6, .f32⟩ : BufTy).Contents (Elt F)),
    StableHlo.binary main_v142 main_v140 main_v143 (mulf : (⟨S1000000x6, .f32⟩ : BufTy).Contents (Elt F) → (⟨S1000000x6, .f32⟩ : BufTy).Contents (Elt F) → (⟨S1000000x6, .f32⟩ : BufTy).Contents (Elt F)),
    StableHlo.binary main_v143 main_v136 main_v144 (subf : (⟨S1000000x6, .f32⟩ : BufTy).Contents (Elt F) → (⟨S1000000x6, .f32⟩ : BufTy).Contents (Elt F) → (⟨S1000000x6, .f32⟩ : BufTy).Contents (Elt F)),
    StableHlo.nullary main_cst_14 (constant S_ .f32 0x40E00000#32),
    StableHlo.unary main_cst_14 main_v145 (broadcastInDim S1000000x6 ![] bcast_S_S1000000x6 : (⟨S_, .f32⟩ : BufTy).Contents (Elt F) → (⟨S1000000x6, .f32⟩ : BufTy).Contents (Elt F)),
    StableHlo.binary main_v145 main_v128 main_v146 (Host.divf : (⟨S1000000x6, .f32⟩ : BufTy).Contents (Elt F) → (⟨S1000000x6, .f32⟩ : BufTy).Contents (Elt F) → (⟨S1000000x6, .f32⟩ : BufTy).Contents (Elt F)),
    StableHlo.binary main_v146 main_v144 main_v147 (mulf : (⟨S1000000x6, .f32⟩ : BufTy).Contents (Elt F) → (⟨S1000000x6, .f32⟩ : BufTy).Contents (Elt F) → (⟨S1000000x6, .f32⟩ : BufTy).Contents (Elt F)),
    StableHlo.binary main_v147 main_v140 main_v148 (subf : (⟨S1000000x6, .f32⟩ : BufTy).Contents (Elt F) → (⟨S1000000x6, .f32⟩ : BufTy).Contents (Elt F) → (⟨S1000000x6, .f32⟩ : BufTy).Contents (Elt F)),
    StableHlo.nullary main_cst_15 (constant S_ .f32 0x41100000#32),
    StableHlo.unary main_cst_15 main_v149 (broadcastInDim S1000000x6 ![] bcast_S_S1000000x6 : (⟨S_, .f32⟩ : BufTy).Contents (Elt F) → (⟨S1000000x6, .f32⟩ : BufTy).Contents (Elt F)),
    StableHlo.binary main_v149 main_v128 main_v150 (Host.divf : (⟨S1000000x6, .f32⟩ : BufTy).Contents (Elt F) → (⟨S1000000x6, .f32⟩ : BufTy).Contents (Elt F) → (⟨S1000000x6, .f32⟩ : BufTy).Contents (Elt F)),
    StableHlo.binary main_v150 main_v148 main_v151 (mulf : (⟨S1000000x6, .f32⟩ : BufTy).Contents (Elt F) → (⟨S1000000x6, .f32⟩ : BufTy).Contents (Elt F) → (⟨S1000000x6, .f32⟩ : BufTy).Contents (Elt F)),
    StableHlo.binary main_v151 main_v144 main_v152 (subf : (⟨S1000000x6, .f32⟩ : BufTy).Contents (Elt F) → (⟨S1000000x6, .f32⟩ : BufTy).Contents (Elt F) → (⟨S1000000x6, .f32⟩ : BufTy).Contents (Elt F)),
    StableHlo.unary main_v28 main_v153 (broadcastInDim S1000000x1 ![0] bcast_S1000000_S1000000x1_0 : (⟨S1000000, .f32⟩ : BufTy).Contents (Elt F) → (⟨S1000000x1, .f32⟩ : BufTy).Contents (Elt F)),
    StableHlo.unary main_cst main_v154 ((extractStridedSlice S1x6 ![6, 0] · slices_S7x6_S1x6_6_0) : (⟨S7x6, .f32⟩ : BufTy).Contents (Elt F) → (⟨S1x6, .f32⟩ : BufTy).Contents (Elt F)),
    StableHlo.reshape main_v154 main_v155 rfl shapeCasts_S1x6_S6,
    StableHlo.unary main_v155 main_v156 (broadcastInDim S1x6 ![1] bcast_S6_S1x6_1 : (⟨S6, .f32⟩ : BufTy).Contents (Elt F) → (⟨S1x6, .f32⟩ : BufTy).Contents (Elt F)),
    StableHlo.unary main_v153 main_v157 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v156 main_v158 (broadcastInDim S1000000x6 ![0, 1] bcast_S1x6_S1000000x6_0_1 : (⟨S1x6, .f32⟩ : BufTy).Contents (Elt F) → (⟨S1000000x6, .f32⟩ : BufTy).Contents (Elt F)),
    StableHlo.binary main_v157 main_v158 main_v159 (mulf : (⟨S1000000x6, .f32⟩ : BufTy).Contents (Elt F) → (⟨S1000000x6, .f32⟩ : BufTy).Contents (Elt F) → (⟨S1000000x6, .f32⟩ : BufTy).Contents (Elt F)),
    StableHlo.unary main_v159 main_v160 (Host.sin : (⟨S1000000x6, .f32⟩ : BufTy).Contents (Elt F) → (⟨S1000000x6, .f32⟩ : BufTy).Contents (Elt F)),
    StableHlo.binary main_v160 main_v159 main_v161 (Host.divf : (⟨S1000000x6, .f32⟩ : BufTy).Contents (Elt F) → (⟨S1000000x6, .f32⟩ : BufTy).Contents (Elt F) → (⟨S1000000x6, .f32⟩ : BufTy).Contents (Elt F)),
    StableHlo.unary main_v159 main_v162 (Host.sin : (⟨S1000000x6, .f32⟩ : BufTy).Contents (Elt F) → (⟨S1000000x6, .f32⟩ : BufTy).Contents (Elt F)) ]
theorem ops2_sub : (ops2 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., reshape_bufs_sub .., unary_bufs_sub .., unary_bufs_sub .., unary_bufs_sub .., binary_bufs_sub .., unary_bufs_sub .., binary_bufs_sub .., unary_bufs_sub ..⟩

/-- The 60 operations of window 3, in order. -/
abbrev ops3 : List (HloOp τ sig (Elt F)) :=
  [ StableHlo.binary main_v159 main_v159 main_v163 (mulf : (⟨S1000000x6, .f32⟩ : BufTy).Contents (Elt F) → (⟨S1000000x6, .f32⟩ : BufTy).Contents (Elt F) → (⟨S1000000x6, .f32⟩ : BufTy).Contents (Elt F)),
    StableHlo.binary main_v162 main_v163 main_v164 (Host.divf : (⟨S1000000x6, .f32⟩ : BufTy).Contents (Elt F) → (⟨S1000000x6, .f32⟩ : BufTy).Contents (Elt F) → (⟨S1000000x6, .f32⟩ : BufTy).Contents (Elt F)),
    StableHlo.unary main_v159 main_v165 (Host.cos : (⟨S1000000x6, .f32⟩ : BufTy).Contents (Elt F) → (⟨S1000000x6, .f32⟩ : BufTy).Contents (Elt F)),
    StableHlo.binary main_v165 main_v159 main_v166 (Host.divf : (⟨S1000000x6, .f32⟩ : BufTy).Contents (Elt F) → (⟨S1000000x6, .f32⟩ : BufTy).Contents (Elt F) → (⟨S1000000x6, .f32⟩ : BufTy).Contents (Elt F)),
    StableHlo.binary main_v164 main_v166 main_v167 (subf : (⟨S1000000x6, .f32⟩ : BufTy).Contents (Elt F) → (⟨S1000000x6, .f32⟩ : BufTy).Contents (Elt F) → (⟨S1000000x6, .f32⟩ : BufTy).Contents (Elt F)),
    StableHlo.nullary main_cst_16 (constant S_ .f32 0x40400000#32),
    StableHlo.unary main_cst_16 main_v168 (broadcastInDim S1000000x6 ![] bcast_S_S1000000x6 : (⟨S_, .f32⟩ : BufTy).Contents (Elt F) → (⟨S1000000x6, .f32⟩ : BufTy).Contents (Elt F)),
    StableHlo.binary main_v168 main_v159 main_v169 (Host.divf : (⟨S1000000x6, .f32⟩ : BufTy).Contents (Elt F) → (⟨S1000000x6, .f32⟩ : BufTy).Contents (Elt F) → (⟨S1000000x6, .f32⟩ : BufTy).Contents (Elt F)),
    StableHlo.binary main_v169 main_v167 main_v170 (mulf : (⟨S1000000x6, .f32⟩ : BufTy).Contents (Elt F) → (⟨S1000000x6, .f32⟩ : BufTy).Contents (Elt F) → (⟨S1000000x6, .f32⟩ : BufTy).Contents (Elt F)),
    StableHlo.binary main_v170 main_v161 main_v171 (subf : (⟨S1000000x6, .f32⟩ : BufTy).Contents (Elt F) → (⟨S1000000x6, .f32⟩ : BufTy).Contents (Elt F) → (⟨S1000000x6, .f32⟩ : BufTy).Contents (Elt F)),
    StableHlo.nullary main_cst_17 (constant S_ .f32 0x40A00000#32),
    StableHlo.unary main_cst_17 main_v172 (broadcastInDim S1000000x6 ![] bcast_S_S1000000x6 : (⟨S_, .f32⟩ : BufTy).Contents (Elt F) → (⟨S1000000x6, .f32⟩ : BufTy).Contents (Elt F)),
    StableHlo.binary main_v172 main_v159 main_v173 (Host.divf : (⟨S1000000x6, .f32⟩ : BufTy).Contents (Elt F) → (⟨S1000000x6, .f32⟩ : BufTy).Contents (Elt F) → (⟨S1000000x6, .f32⟩ : BufTy).Contents (Elt F)),
    StableHlo.binary main_v173 main_v171 main_v174 (mulf : (⟨S1000000x6, .f32⟩ : BufTy).Contents (Elt F) → (⟨S1000000x6, .f32⟩ : BufTy).Contents (Elt F) → (⟨S1000000x6, .f32⟩ : BufTy).Contents (Elt F)),
    StableHlo.binary main_v174 main_v167 main_v175 (subf : (⟨S1000000x6, .f32⟩ : BufTy).Contents (Elt F) → (⟨S1000000x6, .f32⟩ : BufTy).Contents (Elt F) → (⟨S1000000x6, .f32⟩ : BufTy).Contents (Elt F)),
    StableHlo.nullary main_cst_18 (constant S_ .f32 0x40E00000#32),
    StableHlo.unary main_cst_18 main_v176 (broadcastInDim S1000000x6 ![] bcast_S_S1000000x6 : (⟨S_, .f32⟩ : BufTy).Contents (Elt F) → (⟨S1000000x6, .f32⟩ : BufTy).Contents (Elt F)),
    StableHlo.binary main_v176 main_v159 main_v177 (Host.divf : (⟨S1000000x6, .f32⟩ : BufTy).Contents (Elt F) → (⟨S1000000x6, .f32⟩ : BufTy).Contents (Elt F) → (⟨S1000000x6, .f32⟩ : BufTy).Contents (Elt F)),
    StableHlo.binary main_v177 main_v175 main_v178 (mulf : (⟨S1000000x6, .f32⟩ : BufTy).Contents (Elt F) → (⟨S1000000x6, .f32⟩ : BufTy).Contents (Elt F) → (⟨S1000000x6, .f32⟩ : BufTy).Contents (Elt F)),
    StableHlo.binary main_v178 main_v171 main_v179 (subf : (⟨S1000000x6, .f32⟩ : BufTy).Contents (Elt F) → (⟨S1000000x6, .f32⟩ : BufTy).Contents (Elt F) → (⟨S1000000x6, .f32⟩ : BufTy).Contents (Elt F)),
    StableHlo.nullary main_cst_19 (constant S_ .f32 0x41100000#32),
    StableHlo.unary main_cst_19 main_v180 (broadcastInDim S1000000x6 ![] bcast_S_S1000000x6 : (⟨S_, .f32⟩ : BufTy).Contents (Elt F) → (⟨S1000000x6, .f32⟩ : BufTy).Contents (Elt F)),
    StableHlo.binary main_v180 main_v159 main_v181 (Host.divf : (⟨S1000000x6, .f32⟩ : BufTy).Contents (Elt F) → (⟨S1000000x6, .f32⟩ : BufTy).Contents (Elt F) → (⟨S1000000x6, .f32⟩ : BufTy).Contents (Elt F)),
    StableHlo.binary main_v181 main_v179 main_v182 (mulf : (⟨S1000000x6, .f32⟩ : BufTy).Contents (Elt F) → (⟨S1000000x6, .f32⟩ : BufTy).Contents (Elt F) → (⟨S1000000x6, .f32⟩ : BufTy).Contents (Elt F)),
    StableHlo.binary main_v182 main_v175 main_v183 (subf : (⟨S1000000x6, .f32⟩ : BufTy).Contents (Elt F) → (⟨S1000000x6, .f32⟩ : BufTy).Contents (Elt F) → (⟨S1000000x6, .f32⟩ : BufTy).Contents (Elt F)),
    StableHlo.nullary main_cst_20 (constant S_ .f32 0x41300000#32),
    StableHlo.unary main_cst_20 main_v184 (broadcastInDim S1000000x6 ![] bcast_S_S1000000x6 : (⟨S_, .f32⟩ : BufTy).Contents (Elt F) → (⟨S1000000x6, .f32⟩ : BufTy).Contents (Elt F)),
    StableHlo.binary main_v184 main_v159 main_v185 (Host.divf : (⟨S1000000x6, .f32⟩ : BufTy).Contents (Elt F) → (⟨S1000000x6, .f32⟩ : BufTy).Contents (Elt F) → (⟨S1000000x6, .f32⟩ : BufTy).Contents (Elt F)),
    StableHlo.binary main_v185 main_v183 main_v186 (mulf : (⟨S1000000x6, .f32⟩ : BufTy).Contents (Elt F) → (⟨S1000000x6, .f32⟩ : BufTy).Contents (Elt F) → (⟨S1000000x6, .f32⟩ : BufTy).Contents (Elt F)),
    StableHlo.binary main_v186 main_v179 main_v187 (subf : (⟨S1000000x6, .f32⟩ : BufTy).Contents (Elt F) → (⟨S1000000x6, .f32⟩ : BufTy).Contents (Elt F) → (⟨S1000000x6, .f32⟩ : BufTy).Contents (Elt F)),
    StableHlo.unary main_v37 main_v188 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.unary main_v52 main_v189 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.unary main_v71 main_v190 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.unary main_v94 main_v191 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.unary main_v121 main_v192 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.unary main_v152 main_v193 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.unary main_v187 main_v194 (broadcastInDim S1000000x1x6 ![0, 2] bcast_S1000000x6_S1000000x1x6_0_2 : (⟨S1000000x6, .f32⟩ : BufTy).Contents (Elt F) → (⟨S1000000x1x6, .f32⟩ : BufTy).Contents (Elt F)),
    StableHlo.nary ![main_v188, main_v189, main_v190, main_v191, main_v192, main_v193, main_v194] main_v195 (fun u => concatenate S1000000x7x6 1 [⟨S1000000x1x6, u 0⟩, ⟨S1000000x1x6, u 1⟩, ⟨S1000000x1x6, u 2⟩, ⟨S1000000x1x6, u 3⟩, ⟨S1000000x1x6, u 4⟩, ⟨S1000000x1x6, u 5⟩, ⟨S1000000x1x6, u 6⟩] concatenates_S1000000x1x6_S1000000x1x6_S1000000x1x6_S1000000x1x6_S1000000x1x6_S1000000x1x6_S1000000x1x6_S1000000x7x6_d1),
    StableHlo.reshape main_v195 main_v196 rfl shapeCasts_S1000000x7x6_S1000000x42,
    StableHlo.binary main_v28 main_v28 main_v197 (mulf : (⟨S1000000, .f32⟩ : BufTy).Contents (Elt F) → (⟨S1000000, .f32⟩ : BufTy).Contents (Elt F) → (⟨S1000000, .f32⟩ : BufTy).Contents (Elt F)),
    StableHlo.binary main_v197 main_v197 main_v198 (mulf : (⟨S1000000, .f32⟩ : BufTy).Contents (Elt F) → (⟨S1000000, .f32⟩ : BufTy).Contents (Elt F) → (⟨S1000000, .f32⟩ : BufTy).Contents (Elt F)),
    StableHlo.binary main_v28 main_v198 main_v199 (mulf : (⟨S1000000, .f32⟩ : BufTy).Contents (Elt F) → (⟨S1000000, .f32⟩ : BufTy).Contents (Elt F) → (⟨S1000000, .f32⟩ : BufTy).Contents (Elt F)),
    StableHlo.nullary main_cst_21 (constant S_ .f32 0x3F800000#32),
    StableHlo.unary main_cst_21 main_v200 (broadcastInDim S1000000 ![] bcast_S_S1000000 : (⟨S_, .f32⟩ : BufTy).Contents (Elt F) → (⟨S1000000, .f32⟩ : BufTy).Contents (Elt F)),
    StableHlo.binary main_v200 main_v28 main_v201 (Host.divf : (⟨S1000000, .f32⟩ : BufTy).Contents (Elt F) → (⟨S1000000, .f32⟩ : BufTy).Contents (Elt F) → (⟨S1000000, .f32⟩ : BufTy).Contents (Elt F)),
    StableHlo.nullary main_cst_22 (constant S_ .f32 0xC1E00000#32),
    StableHlo.unary main_cst_22 main_v202 (broadcastInDim S1000000 ![] bcast_S_S1000000 : (⟨S_, .f32⟩ : BufTy).Contents (Elt F) → (⟨S1000000, .f32⟩ : BufTy).Contents (Elt F)),
    StableHlo.binary main_v202 main_v199 main_v203 (mulf : (⟨S1000000, .f32⟩ : BufTy).Contents (Elt F) → (⟨S1000000, .f32⟩ : BufTy).Contents (Elt F) → (⟨S1000000, .f32⟩ : BufTy).Contents (Elt F)),
    StableHlo.binary main_v201 main_v203 main_v204 (addf : (⟨S1000000, .f32⟩ : BufTy).Contents (Elt F) → (⟨S1000000, .f32⟩ : BufTy).Contents (Elt F) → (⟨S1000000, .f32⟩ : BufTy).Contents (Elt F)),
    StableHlo.nullary main_cst_23 (constant S_ .f32 0x42400000#32),
    StableHlo.unary main_cst_23 main_v205 (broadcastInDim S1000000 ![] bcast_S_S1000000 : (⟨S_, .f32⟩ : BufTy).Contents (Elt F) → (⟨S1000000, .f32⟩ : BufTy).Contents (Elt F)),
    StableHlo.binary main_v205 main_v199 main_v206 (mulf : (⟨S1000000, .f32⟩ : BufTy).Contents (Elt F) → (⟨S1000000, .f32⟩ : BufTy).Contents (Elt F) → (⟨S1000000, .f32⟩ : BufTy).Contents (Elt F)),
    StableHlo.binary main_v206 main_v28 main_v207 (mulf : (⟨S1000000, .f32⟩ : BufTy).Contents (Elt F) → (⟨S1000000, .f32⟩ : BufTy).Contents (Elt F) → (⟨S1000000, .f32⟩ : BufTy).Contents (Elt F)),
    StableHlo.binary main_v204 main_v207 main_v208 (addf : (⟨S1000000, .f32⟩ : BufTy).Contents (Elt F) → (⟨S1000000, .f32⟩ : BufTy).Contents (Elt F) → (⟨S1000000, .f32⟩ : BufTy).Contents (Elt F)),
    StableHlo.nullary main_cst_24 (constant S_ .f32 0x41A80000#32),
    StableHlo.unary main_cst_24 main_v209 (broadcastInDim S1000000 ![] bcast_S_S1000000 : (⟨S_, .f32⟩ : BufTy).Contents (Elt F) → (⟨S1000000, .f32⟩ : BufTy).Contents (Elt F)),
    StableHlo.binary main_v209 main_v199 main_v210 (mulf : (⟨S1000000, .f32⟩ : BufTy).Contents (Elt F) → (⟨S1000000, .f32⟩ : BufTy).Contents (Elt F) → (⟨S1000000, .f32⟩ : BufTy).Contents (Elt F)),
    StableHlo.binary main_v210 main_v28 main_v211 (mulf : (⟨S1000000, .f32⟩ : BufTy).Contents (Elt F) → (⟨S1000000, .f32⟩ : BufTy).Contents (Elt F) → (⟨S1000000, .f32⟩ : BufTy).Contents (Elt F)),
    StableHlo.binary main_v211 main_v28 main_v212 (mulf : (⟨S1000000, .f32⟩ : BufTy).Contents (Elt F) → (⟨S1000000, .f32⟩ : BufTy).Contents (Elt F) → (⟨S1000000, .f32⟩ : BufTy).Contents (Elt F)),
    StableHlo.binary main_v208 main_v212 main_v213 (addf : (⟨S1000000, .f32⟩ : BufTy).Contents (Elt F) → (⟨S1000000, .f32⟩ : BufTy).Contents (Elt F) → (⟨S1000000, .f32⟩ : BufTy).Contents (Elt F)) ]
theorem ops3_sub : (ops3 : List (HloOp τ sig (Elt F))).Forall fun op => op.bufs ⊆ tcRefs τ sig :=
  ⟨binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., unary_bufs_sub .., nary_bufs_sub .., reshape_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub ..⟩

/-- The 60 operations of window 4, in order. -/
abbrev ops4 : List (HloOp τ sig (Elt F)) :=
  [ StableHlo.unary main_v213 main_v214 (broadcastInDim S1000000x1 ![0] bcast_S1000000_S1000000x1_0 : (⟨S1000000, .f32⟩ : BufTy).Contents (Elt F) → (⟨S1000000x1, .f32⟩ : BufTy).Contents (Elt F)),
    StableHlo.unary main_v214 main_v215 (broadcastInDim S1000000x42 ![0, 1] bcast_S1000000x1_S1000000x42_0_1 : (⟨S1000000x1, .f32⟩ : BufTy).Contents (Elt F) → (⟨S1000000x42, .f32⟩ : BufTy).Contents (Elt F)),
    StableHlo.binary main_v215 main_v196 main_v216 (mulf : (⟨S1000000x42, .f32⟩ : BufTy).Contents (Elt F) → (⟨S1000000x42, .f32⟩ : BufTy).Contents (Elt F) → (⟨S1000000x42, .f32⟩ : BufTy).Contents (Elt F)),
    StableHlo.unary main_arg1 main_v217 (Host.cos : (⟨S2500000, .f32⟩ : BufTy).Contents (Elt F) → (⟨S2500000, .f32⟩ : BufTy).Contents (Elt F)),
    StableHlo.nullary main_cst_25 (constant S_ .f32 0x3F800000#32),
    StableHlo.unary main_cst_25 main_v218 (broadcastInDim S2500000 ![] bcast_S_S2500000 : (⟨S_, .f32⟩ : BufTy).Contents (Elt F) → (⟨S2500000, .f32⟩ : BufTy).Contents (Elt F)),
    StableHlo.nullary main_cst_26 (constant S_ .f32 0x40400000#32),
    StableHlo.unary main_cst_26 main_v219 (broadcastInDim S2500000 ![] bcast_S_S2500000 : (⟨S_, .f32⟩ : BufTy).Contents (Elt F) → (⟨S2500000, .f32⟩ : BufTy).Contents (Elt F)),
    StableHlo.binary main_v219 main_v217 main_v220 (mulf : (⟨S2500000, .f32⟩ : BufTy).Contents (Elt F) → (⟨S2500000, .f32⟩ : BufTy).Contents (Elt F) → (⟨S2500000, .f32⟩ : BufTy).Contents (Elt F)),
    StableHlo.binary main_v220 main_v217 main_v221 (mulf : (⟨S2500000, .f32⟩ : BufTy).Contents (Elt F) → (⟨S2500000, .f32⟩ : BufTy).Contents (Elt F) → (⟨S2500000, .f32⟩ : BufTy).Contents (Elt F)),
    StableHlo.nullary main_cst_27 (constant S_ .f32 0x3F800000#32),
    StableHlo.unary main_cst_27 main_v222 (broadcastInDim S2500000 ![] bcast_S_S2500000 : (⟨S_, .f32⟩ : BufTy).Contents (Elt F) → (⟨S2500000, .f32⟩ : BufTy).Contents (Elt F)),
    StableHlo.binary main_v222 main_v218 main_v223 (mulf : (⟨S2500000, .f32⟩ : BufTy).Contents (Elt F) → (⟨S2500000, .f32⟩ : BufTy).Contents (Elt F) → (⟨S2500000, .f32⟩ : BufTy).Contents (Elt F)),
    StableHlo.binary main_v221 main_v223 main_v224 (subf : (⟨S2500000, .f32⟩ : BufTy).Contents (Elt F) → (⟨S2500000, .f32⟩ : BufTy).Contents (Elt F) → (⟨S2500000, .f32⟩ : BufTy).Contents (Elt F)),
    StableHlo.nullary main_cst_28 (constant S_ .f32 0x40000000#32),
    StableHlo.unary main_cst_28 main_v225 (broadcastInDim S2500000 ![] bcast_S_S2500000 : (⟨S_, .f32⟩ : BufTy).Contents (Elt F) → (⟨S2500000, .f32⟩ : BufTy).Contents (Elt F)),
    StableHlo.binary main_v224 main_v225 main_v226 (Host.divf : (⟨S2500000, .f32⟩ : BufTy).Contents (Elt F) → (⟨S2500000, .f32⟩ : BufTy).Contents (Elt F) → (⟨S2500000, .f32⟩ : BufTy).Contents (Elt F)),
    StableHlo.nullary main_cst_29 (constant S_ .f32 0x40A00000#32),
    StableHlo.unary main_cst_29 main_v227 (broadcastInDim S2500000 ![] bcast_S_S2500000 : (⟨S_, .f32⟩ : BufTy).Contents (Elt F) → (⟨S2500000, .f32⟩ : BufTy).Contents (Elt F)),
    StableHlo.binary main_v227 main_v217 main_v228 (mulf : (⟨S2500000, .f32⟩ : BufTy).Contents (Elt F) → (⟨S2500000, .f32⟩ : BufTy).Contents (Elt F) → (⟨S2500000, .f32⟩ : BufTy).Contents (Elt F)),
    StableHlo.binary main_v228 main_v226 main_v229 (mulf : (⟨S2500000, .f32⟩ : BufTy).Contents (Elt F) → (⟨S2500000, .f32⟩ : BufTy).Contents (Elt F) → (⟨S2500000, .f32⟩ : BufTy).Contents (Elt F)),
    StableHlo.nullary main_cst_30 (constant S_ .f32 0x40000000#32),
    StableHlo.unary main_cst_30 main_v230 (broadcastInDim S2500000 ![] bcast_S_S2500000 : (⟨S_, .f32⟩ : BufTy).Contents (Elt F) → (⟨S2500000, .f32⟩ : BufTy).Contents (Elt F)),
    StableHlo.binary main_v230 main_v217 main_v231 (mulf : (⟨S2500000, .f32⟩ : BufTy).Contents (Elt F) → (⟨S2500000, .f32⟩ : BufTy).Contents (Elt F) → (⟨S2500000, .f32⟩ : BufTy).Contents (Elt F)),
    StableHlo.binary main_v229 main_v231 main_v232 (subf : (⟨S2500000, .f32⟩ : BufTy).Contents (Elt F) → (⟨S2500000, .f32⟩ : BufTy).Contents (Elt F) → (⟨S2500000, .f32⟩ : BufTy).Contents (Elt F)),
    StableHlo.nullary main_cst_31 (constant S_ .f32 0x40400000#32),
    StableHlo.unary main_cst_31 main_v233 (broadcastInDim S2500000 ![] bcast_S_S2500000 : (⟨S_, .f32⟩ : BufTy).Contents (Elt F) → (⟨S2500000, .f32⟩ : BufTy).Contents (Elt F)),
    StableHlo.binary main_v232 main_v233 main_v234 (Host.divf : (⟨S2500000, .f32⟩ : BufTy).Contents (Elt F) → (⟨S2500000, .f32⟩ : BufTy).Contents (Elt F) → (⟨S2500000, .f32⟩ : BufTy).Contents (Elt F)),
    StableHlo.nullary main_cst_32 (constant S_ .f32 0x40E00000#32),
    StableHlo.unary main_cst_32 main_v235 (broadcastInDim S2500000 ![] bcast_S_S2500000 : (⟨S_, .f32⟩ : BufTy).Contents (Elt F) → (⟨S2500000, .f32⟩ : BufTy).Contents (Elt F)),
    StableHlo.binary main_v235 main_v217 main_v236 (mulf : (⟨S2500000, .f32⟩ : BufTy).Contents (Elt F) → (⟨S2500000, .f32⟩ : BufTy).Contents (Elt F) → (⟨S2500000, .f32⟩ : BufTy).Contents (Elt F)),
    StableHlo.binary main_v236 main_v234 main_v237 (mulf : (⟨S2500000, .f32⟩ : BufTy).Contents (Elt F) → (⟨S2500000, .f32⟩ : BufTy).Contents (Elt F) → (⟨S2500000, .f32⟩ : BufTy).Contents (Elt F)),
    StableHlo.nullary main_cst_33 (constant S_ .f32 0x40400000#32),
    StableHlo.unary main_cst_33 main_v238 (broadcastInDim S2500000 ![] bcast_S_S2500000 : (⟨S_, .f32⟩ : BufTy).Contents (Elt F) → (⟨S2500000, .f32⟩ : BufTy).Contents (Elt F)),
    StableHlo.binary main_v238 main_v226 main_v239 (mulf : (⟨S2500000, .f32⟩ : BufTy).Contents (Elt F) → (⟨S2500000, .f32⟩ : BufTy).Contents (Elt F) → (⟨S2500000, .f32⟩ : BufTy).Contents (Elt F)),
    StableHlo.binary main_v237 main_v239 main_v240 (subf : (⟨S2500000, .f32⟩ : BufTy).Contents (Elt F) → (⟨S2500000, .f32⟩ : BufTy).Contents (Elt F) → (⟨S2500000, .f32⟩ : BufTy).Contents (Elt F)),
    StableHlo.nullary main_cst_34 (constant S_ .f32 0x40800000#32),
    StableHlo.unary main_cst_34 main_v241 (broadcastInDim S2500000 ![] bcast_S_S2500000 : (⟨S_, .f32⟩ : BufTy).Contents (Elt F) → (⟨S2500000, .f32⟩ : BufTy).Contents (Elt F)),
    StableHlo.binary main_v240 main_v241 main_v242 (Host.divf : (⟨S2500000, .f32⟩ : BufTy).Contents (Elt F) → (⟨S2500000, .f32⟩ : BufTy).Contents (Elt F) → (⟨S2500000, .f32⟩ : BufTy).Contents (Elt F)),
    StableHlo.nullary main_cst_35 (constant S_ .f32 0x41100000#32),
    StableHlo.unary main_cst_35 main_v243 (broadcastInDim S2500000 ![] bcast_S_S2500000 : (⟨S_, .f32⟩ : BufTy).Contents (Elt F) → (⟨S2500000, .f32⟩ : BufTy).Contents (Elt F)),
    StableHlo.binary main_v243 main_v217 main_v244 (mulf : (⟨S2500000, .f32⟩ : BufTy).Contents (Elt F) → (⟨S2500000, .f32⟩ : BufTy).Contents (Elt F) → (⟨S2500000, .f32⟩ : BufTy).Contents (Elt F)),
    StableHlo.binary main_v244 main_v242 main_v245 (mulf : (⟨S2500000, .f32⟩ : BufTy).Contents (Elt F) → (⟨S2500000, .f32⟩ : BufTy).Contents (Elt F) → (⟨S2500000, .f32⟩ : BufTy).Contents (Elt F)),
    StableHlo.nullary main_cst_36 (constant S_ .f32 0x40800000#32),
    StableHlo.unary main_cst_36 main_v246 (broadcastInDim S2500000 ![] bcast_S_S2500000 : (⟨S_, .f32⟩ : BufTy).Contents (Elt F) → (⟨S2500000, .f32⟩ : BufTy).Contents (Elt F)),
    StableHlo.binary main_v246 main_v234 main_v247 (mulf : (⟨S2500000, .f32⟩ : BufTy).Contents (Elt F) → (⟨S2500000, .f32⟩ : BufTy).Contents (Elt F) → (⟨S2500000, .f32⟩ : BufTy).Contents (Elt F)),
    StableHlo.binary main_v245 main_v247 main_v248 (subf : (⟨S2500000, .f32⟩ : BufTy).Contents (Elt F) → (⟨S2500000, .f32⟩ : BufTy).Contents (Elt F) → (⟨S2500000, .f32⟩ : BufTy).Contents (Elt F)),
    StableHlo.nullary main_cst_37 (constant S_ .f32 0x40A00000#32),
    StableHlo.unary main_cst_37 main_v249 (broadcastInDim S2500000 ![] bcast_S_S2500000 : (⟨S_, .f32⟩ : BufTy).Contents (Elt F) → (⟨S2500000, .f32⟩ : BufTy).Contents (Elt F)),
    StableHlo.binary main_v248 main_v249 main_v250 (Host.divf : (⟨S2500000, .f32⟩ : BufTy).Contents (Elt F) → (⟨S2500000, .f32⟩ : BufTy).Contents (Elt F) → (⟨S2500000, .f32⟩ : BufTy).Contents (Elt F)),
    StableHlo.nullary main_cst_38 (constant S_ .f32 0x41300000#32),
    StableHlo.unary main_cst_38 main_v251 (broadcastInDim S2500000 ![] bcast_S_S2500000 : (⟨S_, .f32⟩ : BufTy).Contents (Elt F) → (⟨S2500000, .f32⟩ : BufTy).Contents (Elt F)),
    StableHlo.binary main_v251 main_v217 main_v252 (mulf : (⟨S2500000, .f32⟩ : BufTy).Contents (Elt F) → (⟨S2500000, .f32⟩ : BufTy).Contents (Elt F) → (⟨S2500000, .f32⟩ : BufTy).Contents (Elt F)),
    StableHlo.binary main_v252 main_v250 main_v253 (mulf : (⟨S2500000, .f32⟩ : BufTy).Contents (Elt F) → (⟨S2500000, .f32⟩ : BufTy).Contents (Elt F) → (⟨S2500000, .f32⟩ : BufTy).Contents (Elt F)),
    StableHlo.nullary main_cst_39 (constant S_ .f32 0x40A00000#32),
    StableHlo.unary main_cst_39 main_v254 (broadcastInDim S2500000 ![] bcast_S_S2500000 : (⟨S_, .f32⟩ : BufTy).Contents (Elt F) → (⟨S2500000, .f32⟩ : BufTy).Contents (Elt F)),
    StableHlo.binary main_v254 main_v242 main_v255 (mulf : (⟨S2500000, .f32⟩ : BufTy).Contents (Elt F) → (⟨S2500000, .f32⟩ : BufTy).Contents (Elt F) → (⟨S2500000, .f32⟩ : BufTy).Contents (Elt F)),
    StableHlo.binary main_v253 main_v255 main_v256 (subf : (⟨S2500000, .f32⟩ : BufTy).Contents (Elt F) → (⟨S2500000, .f32⟩ : BufTy).Contents (Elt F) → (⟨S2500000, .f32⟩ : BufTy).Contents (Elt F)),
    StableHlo.nullary main_cst_40 (constant S_ .f32 0x40C00000#32),
    StableHlo.unary main_cst_40 main_v257 (broadcastInDim S2500000 ![] bcast_S_S2500000 : (⟨S_, .f32⟩ : BufTy).Contents (Elt F) → (⟨S2500000, .f32⟩ : BufTy).Contents (Elt F)) ]
theorem ops4_sub : (ops4 : List (HloOp τ sig (Elt F))).Forall fun op => op.bufs ⊆ tcRefs τ sig :=
  ⟨unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

/-- The 23 operations of window 5, in order. -/
abbrev ops5 : List (HloOp τ sig (Elt F)) :=
  [ StableHlo.binary main_v256 main_v257 main_v258 (Host.divf : (⟨S2500000, .f32⟩ : BufTy).Contents (Elt F) → (⟨S2500000, .f32⟩ : BufTy).Contents (Elt F) → (⟨S2500000, .f32⟩ : BufTy).Contents (Elt F)),
    StableHlo.unary main_v218 main_v259 (broadcastInDim S2500000x1 ![0] bcast_S2500000_S2500000x1_0 : (⟨S2500000, .f32⟩ : BufTy).Contents (Elt F) → (⟨S2500000x1, .f32⟩ : BufTy).Contents (Elt F)),
    StableHlo.unary main_v217 main_v260 (broadcastInDim S2500000x1 ![0] bcast_S2500000_S2500000x1_0 : (⟨S2500000, .f32⟩ : BufTy).Contents (Elt F) → (⟨S2500000x1, .f32⟩ : BufTy).Contents (Elt F)),
    StableHlo.unary main_v226 main_v261 (broadcastInDim S2500000x1 ![0] bcast_S2500000_S2500000x1_0 : (⟨S2500000, .f32⟩ : BufTy).Contents (Elt F) → (⟨S2500000x1, .f32⟩ : BufTy).Contents (Elt F)),
    StableHlo.unary main_v234 main_v262 (broadcastInDim S2500000x1 ![0] bcast_S2500000_S2500000x1_0 : (⟨S2500000, .f32⟩ : BufTy).Contents (Elt F) → (⟨S2500000x1, .f32⟩ : BufTy).Contents (Elt F)),
    StableHlo.unary main_v242 main_v263 (broadcastInDim S2500000x1 ![0] bcast_S2500000_S2500000x1_0 : (⟨S2500000, .f32⟩ : BufTy).Contents (Elt F) → (⟨S2500000x1, .f32⟩ : BufTy).Contents (Elt F)),
    StableHlo.unary main_v250 main_v264 (broadcastInDim S2500000x1 ![0] bcast_S2500000_S2500000x1_0 : (⟨S2500000, .f32⟩ : BufTy).Contents (Elt F) → (⟨S2500000x1, .f32⟩ : BufTy).Contents (Elt F)),
    StableHlo.unary main_v258 main_v265 (broadcastInDim S2500000x1 ![0] bcast_S2500000_S2500000x1_0 : (⟨S2500000, .f32⟩ : BufTy).Contents (Elt F) → (⟨S2500000x1, .f32⟩ : BufTy).Contents (Elt F)),
    StableHlo.nary ![main_v259, main_v260, main_v261, main_v262, main_v263, main_v264, main_v265] main_v266 (fun u => concatenate S2500000x7 1 [⟨S2500000x1, u 0⟩, ⟨S2500000x1, u 1⟩, ⟨S2500000x1, u 2⟩, ⟨S2500000x1, u 3⟩, ⟨S2500000x1, u 4⟩, ⟨S2500000x1, u 5⟩, ⟨S2500000x1, u 6⟩] concatenates_S2500000x1_S2500000x1_S2500000x1_S2500000x1_S2500000x1_S2500000x1_S2500000x1_S2500000x7_d1),
    StableHlo.nullary main_c (constantI S_ 32 0#32),
    StableHlo.unary main_c main_v267 (broadcastInDim S2500000 ![] bcast_S_S2500000 : (⟨S_, .i32⟩ : BufTy).Contents (Elt F) → (⟨S2500000, .i32⟩ : BufTy).Contents (Elt F)),
    StableHlo.binary main_arg2 main_v267 main_v268 (cmpi .slt : (⟨S2500000, .i32⟩ : BufTy).Contents (Elt F) → (⟨S2500000, .i32⟩ : BufTy).Contents (Elt F) → (⟨S2500000, .i1⟩ : BufTy).Contents (Elt F)),
    StableHlo.nullary main_c_41 (constantI S_ 32 1000000#32),
    StableHlo.unary main_c_41 main_v269 (broadcastInDim S2500000 ![] bcast_S_S2500000 : (⟨S_, .i32⟩ : BufTy).Contents (Elt F) → (⟨S2500000, .i32⟩ : BufTy).Contents (Elt F)),
    StableHlo.binary main_arg2 main_v269 main_v270 (addi : (⟨S2500000, .i32⟩ : BufTy).Contents (Elt F) → (⟨S2500000, .i32⟩ : BufTy).Contents (Elt F) → (⟨S2500000, .i32⟩ : BufTy).Contents (Elt F)),
    StableHlo.ternary main_v268 main_v270 main_arg2 main_v271 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v271 main_v272 (broadcastInDim S2500000x1 ![0] bcast_S2500000_S2500000x1_0 : (⟨S2500000, .i32⟩ : BufTy).Contents (Elt F) → (⟨S2500000x1, .i32⟩ : BufTy).Contents (Elt F)),
    StableHlo.binary main_v216 main_v272 main_v273 ((fun x i => Host.gather gather_S1000000x42_S2500000x1_S2500000x42_1_0_n_n_0_1_142 x i) : (⟨S1000000x42, .f32⟩ : BufTy).Contents (Elt F) → (⟨S2500000x1, .i32⟩ : BufTy).Contents (Elt F) → (⟨S2500000x42, .f32⟩ : BufTy).Contents (Elt F)),
    StableHlo.reshape main_v273 main_v274 rfl shapeCasts_S2500000x42_S2500000x7x6,
    StableHlo.unary main_v266 main_v275 (broadcastInDim S2500000x7x1 ![0, 1] bcast_S2500000x7_S2500000x7x1_0_1 : (⟨S2500000x7, .f32⟩ : BufTy).Contents (Elt F) → (⟨S2500000x7x1, .f32⟩ : BufTy).Contents (Elt F)),
    StableHlo.unary main_v275 main_v276 (broadcastInDim S2500000x7x6 ![0, 1, 2] bcast_S2500000x7x1_S2500000x7x6_0_1_2 : (⟨S2500000x7x1, .f32⟩ : BufTy).Contents (Elt F) → (⟨S2500000x7x6, .f32⟩ : BufTy).Contents (Elt F)),
    StableHlo.binary main_v274 main_v276 main_v277 (mulf : (⟨S2500000x7x6, .f32⟩ : BufTy).Contents (Elt F) → (⟨S2500000x7x6, .f32⟩ : BufTy).Contents (Elt F) → (⟨S2500000x7x6, .f32⟩ : BufTy).Contents (Elt F)),
    StableHlo.reshape main_v277 main_v278 rfl shapeCasts_S2500000x7x6_S2500000x42 ]
theorem ops5_sub : (ops5 : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub ..⟩

end Cert.ReferenceIdeal.HandRun

end
-- ==== Proof.RefRun.lean ====
/-
  The reference program's run. Its @main is six windows of host operations run one after the other; each window is
  the list of its operations, so @main is the six lists in sequence, and every weakly fair execution terminates with
  each buffer at the fold of the operations' results over its launch contents. The two results are named as that fold
  read at their buffers; the four argument arrays are written by no operation and so keep their launch contents.
-/
import proofs.«426921_j31129922961736_3_alg».proof.Proof.RefOps

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops0 ++ ops1 ++ ops2 ++ ops3 ++ ops4 ++ ops5

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
theorem part4_eq (c : Dev nD) : main_part4 (F := F) c = seq ops4 := rfl
theorem part5_eq (c : Dev nD) : main_part5 (F := F) c = seq ops5 := rfl

/-- @main is its operations run in order. -/
theorem main_eq (c : Dev nD) : main (F := F) c = seq ops := by
  unfold main
  rw [part0_eq, part1_eq, part2_eq, part3_eq, part4_eq, part5_eq]
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨ops0_sub, ops1_sub⟩, ops2_sub⟩, ops3_sub⟩, ops4_sub⟩, ops5_sub⟩

/-- The fold over two lists in sequence is the second's fold from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- All operations' fold is the windows' folds in order. -/
theorem after_ops (V : Valuation τ sig (Elt F)) :
    after ops V = after ops5 (after ops4 (after ops3 (after ops2 (after ops1 (after ops0 V))))) := by
  simp only [ops, after_append]

section Kept
variable (V : Valuation τ sig (Elt F))
-- no window writes an argument array
theorem kept0_arg0 : after ops0 V (Proc.devRef .tc main_arg0) = V (Proc.devRef .tc main_arg0) := by after_results_simp
theorem kept1_arg0 : after ops1 V (Proc.devRef .tc main_arg0) = V (Proc.devRef .tc main_arg0) := by after_results_simp
theorem kept2_arg0 : after ops2 V (Proc.devRef .tc main_arg0) = V (Proc.devRef .tc main_arg0) := by after_results_simp
theorem kept3_arg0 : after ops3 V (Proc.devRef .tc main_arg0) = V (Proc.devRef .tc main_arg0) := by after_results_simp
theorem kept4_arg0 : after ops4 V (Proc.devRef .tc main_arg0) = V (Proc.devRef .tc main_arg0) := by after_results_simp
theorem kept5_arg0 : after ops5 V (Proc.devRef .tc main_arg0) = V (Proc.devRef .tc main_arg0) := by after_results_simp
theorem kept0_arg1 : after ops0 V (Proc.devRef .tc main_arg1) = V (Proc.devRef .tc main_arg1) := by after_results_simp
theorem kept1_arg1 : after ops1 V (Proc.devRef .tc main_arg1) = V (Proc.devRef .tc main_arg1) := by after_results_simp
theorem kept2_arg1 : after ops2 V (Proc.devRef .tc main_arg1) = V (Proc.devRef .tc main_arg1) := by after_results_simp
theorem kept3_arg1 : after ops3 V (Proc.devRef .tc main_arg1) = V (Proc.devRef .tc main_arg1) := by after_results_simp
theorem kept4_arg1 : after ops4 V (Proc.devRef .tc main_arg1) = V (Proc.devRef .tc main_arg1) := by after_results_simp
theorem kept5_arg1 : after ops5 V (Proc.devRef .tc main_arg1) = V (Proc.devRef .tc main_arg1) := by after_results_simp
theorem kept0_arg2 : after ops0 V (Proc.devRef .tc main_arg2) = V (Proc.devRef .tc main_arg2) := by after_results_simp
theorem kept1_arg2 : after ops1 V (Proc.devRef .tc main_arg2) = V (Proc.devRef .tc main_arg2) := by after_results_simp
theorem kept2_arg2 : after ops2 V (Proc.devRef .tc main_arg2) = V (Proc.devRef .tc main_arg2) := by after_results_simp
theorem kept3_arg2 : after ops3 V (Proc.devRef .tc main_arg2) = V (Proc.devRef .tc main_arg2) := by after_results_simp
theorem kept4_arg2 : after ops4 V (Proc.devRef .tc main_arg2) = V (Proc.devRef .tc main_arg2) := by after_results_simp
theorem kept5_arg2 : after ops5 V (Proc.devRef .tc main_arg2) = V (Proc.devRef .tc main_arg2) := by after_results_simp
theorem kept0_arg3 : after ops0 V (Proc.devRef .tc main_arg3) = V (Proc.devRef .tc main_arg3) := by after_results_simp
theorem kept1_arg3 : after ops1 V (Proc.devRef .tc main_arg3) = V (Proc.devRef .tc main_arg3) := by after_results_simp
theorem kept2_arg3 : after ops2 V (Proc.devRef .tc main_arg3) = V (Proc.devRef .tc main_arg3) := by after_results_simp
theorem kept3_arg3 : after ops3 V (Proc.devRef .tc main_arg3) = V (Proc.devRef .tc main_arg3) := by after_results_simp
theorem kept4_arg3 : after ops4 V (Proc.devRef .tc main_arg3) = V (Proc.devRef .tc main_arg3) := by after_results_simp
theorem kept5_arg3 : after ops5 V (Proc.devRef .tc main_arg3) = V (Proc.devRef .tc main_arg3) := by after_results_simp

theorem kept_arg0 : after ops V (Proc.devRef .tc main_arg0) = V (Proc.devRef .tc main_arg0) := by
  rw [after_ops, kept5_arg0, kept4_arg0, kept3_arg0, kept2_arg0, kept1_arg0, kept0_arg0]
theorem kept_arg1 : after ops V (Proc.devRef .tc main_arg1) = V (Proc.devRef .tc main_arg1) := by
  rw [after_ops, kept5_arg1, kept4_arg1, kept3_arg1, kept2_arg1, kept1_arg1, kept0_arg1]
theorem kept_arg2 : after ops V (Proc.devRef .tc main_arg2) = V (Proc.devRef .tc main_arg2) := by
  rw [after_ops, kept5_arg2, kept4_arg2, kept3_arg2, kept2_arg2, kept1_arg2, kept0_arg2]
theorem kept_arg3 : after ops V (Proc.devRef .tc main_arg3) = V (Proc.devRef .tc main_arg3) := by
  rw [after_ops, kept5_arg3, kept4_arg3, kept3_arg3, kept2_arg3, kept1_arg3, kept0_arg3]
end Kept

variable (m : (ℓ : Loc nD τ sig) → Buf (Elt F) ℓ)

/-- The first result: the fold of all operations over the launch contents, read at the buffer of %26. -/
def resA (c : Dev nD) : Buf (Elt F) ((c.tc : Thread nD τ).loc main_v26) :=
  after ops (launchContents m c) (Proc.devRef .tc main_v26)
/-- The second result: the same fold read at the buffer of %278. -/
def resB (c : Dev nD) : Buf (Elt F) ((c.tc : Thread nD τ).loc main_v278) :=
  after ops (launchContents m c) (Proc.devRef .tc main_v278)

/-- From any memory with zero counters every weakly fair execution of @main terminates, nothing faulting, with the two
    results at the fold's values and the four argument arrays as launched. -/
theorem run (ρ : Dev nD → PrngReg) :
    θ_run defs (onTc (τ := τ) (main (F := F))) ⟨m, fun _ => 0, ρ⟩ fun r => ∀ c : Dev nD,
      r.2.mem ((c.tc : Thread nD τ).loc main_v26) = resA m c
      ∧ r.2.mem ((c.tc : Thread nD τ).loc main_v278) = resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v26, h c main_v278,
      (h c main_arg0).trans (kept_arg0 _), (h c main_arg1).trans (kept_arg1 _),
      (h c main_arg2).trans (kept_arg2 _), (h c main_arg3).trans (kept_arg3 _)⟩)
    (run_seq scopedRefs_eq scopedSems_eq defs main (fun _ => ops) main_eq (fun _ => ops_sub) m ρ)

end Cert.ReferenceIdeal.HandRun

end
-- ==== Proof.RefValA.lean ====
/-
  The reference's first result, entry by entry: its first 27 operations divide the distances (as a column) by 5, form the
  envelope with the fifth power by squaring, broadcast the frequencies along rows and the scaled distances along columns,
  and multiply the envelope by the sine of their product. No later operation writes that buffer.
-/
import proofs.«426921_j31129922961736_3_alg».proof.Proof.RefRun
import proofs.«426921_j31129922961736_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.ReferenceIdeal.ValA

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo
open Idealize.ShloMosaic.StableHlo.Predicate

/-! ## Indices in either spelling -/

/-- The rank-1 index at a coordinate. -/
theorem ofFin_eq_ix1 {n : Nat} (p : Fin n) : Shape.Idx.ofFin p = ix1 p := by
  funext a; match a with | ⟨0, _⟩ => rfl
/-- The index (p, q) of a rectangle. -/
theorem ij_eq_ix2 {n m : Nat} (p : Fin n) (q : Fin m) : ij p q = ix2 p q := by
  funext a; match a with | ⟨0, _⟩ => rfl | ⟨1, _⟩ => rfl
/-- Row p of a one-column rectangle. -/
theorem ixP_eq_ix2 {n : Nat} (p : Fin n) : ixP p = ix2 p (0 : Fin 1) := by
  funext a; match a with | ⟨0, _⟩ => rfl | ⟨1, _⟩ => rfl

/-! ## The four broadcasts read at an entry -/

/-- A column [E,1] repeated along the six columns reads, at (e, k), the column's row e. -/
theorem col_read {α : Type} (v : S1000000x1.Idx → α) (e : Fin 1000000) (k : Fin 6) :
    broadcastInDim S1000000x6 ![0, 1] bcast_S1000000x1_S1000000x6_0_1 v (ix2 e k) = v (ix2 e (0 : Fin 1)) := by
  rw [← ij_eq_ix2, ← ixP_eq_ix2]; exact bcast_of_col bcast_S1000000x1_S1000000x6_0_1 v e k

/-- The six frequencies [6] → [1,6] → [E,6] read, at (e, k), frequency k. -/
theorem freq_read {α : Type} (v : S6.Idx → α) (e : Fin 1000000) (k : Fin 6) :
    broadcastInDim S1000000x6 ![0, 1] bcast_S1x6_S1000000x6_0_1 (broadcastInDim S1x6 ![1] bcast_S6_S1x6_1 v) (ix2 e k)
      = v (ix1 k) := by
  rw [← ij_eq_ix2, ← ofFin_eq_ix1]; exact bcast_cols bcast_S6_S1x6_1 bcast_S1x6_S1000000x6_0_1 v e k

/-- The distances [E] as a column [E,1] read, at row e, distance e. -/
theorem dist_read {α : Type} (v : S1000000.Idx → α) (e : Fin 1000000) :
    broadcastInDim S1000000x1 ![0] bcast_S1000000_S1000000x1_0 v (ix2 e (0 : Fin 1)) = v (ix1 e) := by
  rw [← ixP_eq_ix2, ← ofFin_eq_ix1]; exact bcast_col1 bcast_S1000000_S1000000x1_0 v e

/-- A scalar broadcast to the column [E,1] reads the scalar at every row. -/
theorem scal_read {α : Type} (v : S_.Idx → α) (j : S1000000x1.Idx) :
    broadcastInDim S1000000x1 ![] bcast_S_S1000000x1 v j = v ix0 := by
  rw [bcast_scalar bcast_S_S1000000x1 (by decide)]; exact congrArg v (eq_ix0 _)

/-! ## The host quotient and the host sine are entrywise -/

section Pointwise
variable {s : Shape} {φ : FTy}
theorem hdivf_apply (a b : FVec Ideal s φ) (i : s.Idx) : Host.divf a b i = Ideal.div (a i) (b i) := rfl
theorem hsin_apply (a : FVec Ideal s φ) (i : s.Idx) : Host.sin a i = Ideal.sin (a i) := rfl
end Pointwise

/-! ## The buffer of %26 is written in the first window only -/

section Kept
variable (V : Valuation τ sig (Elt Ideal))
theorem kept1_v26 : after ops1 V (Proc.devRef .tc main_v26) = V (Proc.devRef .tc main_v26) := by after_results_simp
theorem kept2_v26 : after ops2 V (Proc.devRef .tc main_v26) = V (Proc.devRef .tc main_v26) := by after_results_simp
theorem kept3_v26 : after ops3 V (Proc.devRef .tc main_v26) = V (Proc.devRef .tc main_v26) := by after_results_simp
theorem kept4_v26 : after ops4 V (Proc.devRef .tc main_v26) = V (Proc.devRef .tc main_v26) := by after_results_simp
theorem kept5_v26 : after ops5 V (Proc.devRef .tc main_v26) = V (Proc.devRef .tc main_v26) := by after_results_simp
end Kept

/-- The first window's value of %26 at (e, k), from any starting contents: with d the distance of edge e over 5 and f the
    frequency of k, the envelope 1/d − 28·d⁵ + 48·d⁵·d + 21·d⁵·d·d (d⁵ = d·((d·d)·(d·d))) times sin(f·d).
    The outer product, the sine and the inner product are entrywise; the envelope column, the scaled-distance column and
    the frequency row are read through their broadcasts; then the column's own entrywise operations at row e, the
    distance column and the five scalar words through theirs. What is left is the specification's term, bracket for
    bracket. -/
theorem v26_window0 (V : Valuation τ sig (Elt Ideal)) (e : Fin 1000000) (k : Fin 6) :
    (after ops0 V (Proc.devRef .tc main_v26) : S1000000x6.Idx → EReal) (ix2 e k)
      = Spec.aR ((V (Proc.devRef .tc main_arg0) : S1000000.Idx → EReal) (ix1 e))
          ((V (Proc.devRef .tc main_arg3) : S6.Idx → EReal) (ix1 k)) := by
  after_results_simp
  rw [mulf_apply, col_read, hsin_apply, mulf_apply, freq_read, col_read]
  simp only [mulf_apply, addf_apply, hdivf_apply]
  rw [dist_read, scal_read, scal_read, scal_read, scal_read, scal_read]
  rfl

variable (m : (ℓ : Loc nD τ sig) → Buf (Elt Ideal) ℓ)

/-- The first result at edge e and radial index k. -/
theorem valA (c : Dev nD) (e : Fin 1000000) (k : Fin 6) :
    (resA (F := Ideal) m c : S1000000x6.Idx → EReal) (ix2 e k)
      = Spec.aR ((m ((c.tc : Thread nD τ).loc main_arg0) : S1000000.Idx → EReal) (ix1 e))
          ((m ((c.tc : Thread nD τ).loc main_arg3) : S6.Idx → EReal) (ix1 k)) := by
  unfold resA
  rw [after_ops, kept5_v26, kept4_v26, kept3_v26, kept2_v26, kept1_v26]
  exact v26_window0 (launchContents m c) e k

end Cert.ReferenceIdeal.ValA

end
-- ==== Proof.RefBesLo.lean ====
/-
  The reference's Bessel values of orders 0 to 3, entry by entry. For order l the program slices row l out of the 7 × 6 table
  of words, multiplies the scaled distances d = dists/5 (broadcast along columns) by it (broadcast along rows) to x, and runs
  the upward recurrence to order l, dividing by x each time: j₀ = sin x / x, j₁ = sin x/(x·x) − cos x/x,
  j_{m+1} = ((2m+1)/x)·j_m − j_{m−1}. At (e, k), x = d(e) · z(6·l + k).
-/
import proofs.«426921_j31129922961736_3_alg».proof.Proof.RefRun
import proofs.«426921_j31129922961736_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.ReferenceIdeal.BesLo

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## Reads at an entry -/

/-- The table's words are the specification's. -/
theorem lit0_eq_zWord : ∀ q : Fin 42, lit0 q = Spec.zWord q := by decide

section Reads
variable {α : Type}

/-- A vector laid down the rows of a [1000000 × 6] rectangle ([n] → [n × 1] → [n × 6]) reads, at (e, k), the vector at e. -/
theorem col_read (d : S1000000.Idx → α) (e : Fin 1000000) (k : Fin 6) :
    broadcastInDim S1000000x6 ![0, 1] bcast_S1000000x1_S1000000x6_0_1
      (broadcastInDim S1000000x1 ![0] bcast_S1000000_S1000000x1_0 d) (ix2 e k) = d (ix1 e) := by
  refine (broadcastInDim_apply _ _ _ _ (ix2 e (0 : Fin 1)) (fun a => ?_)).trans ?_
  · match a with
    | ⟨0, _⟩ => exact (if_neg (show ¬((1000000 : ℕ) = 1) by omega)).symm
    | ⟨1, _⟩ => exact (if_pos rfl).symm
  · refine broadcastInDim_apply _ _ _ _ (ix1 e) (fun a => ?_)
    match a with
    | ⟨0, _⟩ => exact (if_neg (show ¬((1000000 : ℕ) = 1) by omega)).symm

/-- Row L of the 7 × 6 table, sliced out, flattened to [6] and laid along the columns ([6] → [1 × 6] → [n × 6]) reads,
    at (e, k), the table at (L, k). -/
theorem row_read (T : S7x6.Idx → α) (L : Nat) (hL : L < 7) (hs : S7x6.Slices ![L, 0] S1x6) (e : Fin 1000000) (k : Fin 6) :
    broadcastInDim S1000000x6 ![0, 1] bcast_S1x6_S1000000x6_0_1
      (broadcastInDim S1x6 ![1] bcast_S6_S1x6_1
        (fun i => shapeCast S6 (extractStridedSlice S1x6 ![L, 0] T hs) shapeCasts_S1x6_S6 i)) (ix2 e k)
      = T (ix2 ⟨L, hL⟩ k) := by
  refine (broadcastInDim_apply _ _ _ _ (ix2 (0 : Fin 1) k) (fun a => ?_)).trans ?_
  · match a with
    | ⟨0, _⟩ => exact (if_pos rfl).symm
    | ⟨1, _⟩ => exact (if_neg (show ¬((6 : ℕ) = 1) by omega)).symm
  refine (broadcastInDim_apply _ _ _ _ (ix1 k) (fun a => ?_)).trans ?_
  · match a with
    | ⟨0, _⟩ => exact (if_neg (show ¬((6 : ℕ) = 1) by omega)).symm
  show shapeCast S6 (extractStridedSlice S1x6 ![L, 0] T hs) shapeCasts_S1x6_S6 (ix1 k) = _
  refine (shapeCast_apply _ _ _ (ix2 (0 : Fin 1) k) ?_).trans ?_
  · rw [Shape.rowMajor_val_two, Shape.rowMajor_val_one]; show 0 * 6 + k.val = k.val; omega
  refine extractStridedSlice_apply _ _ _ _ (ix2 ⟨L, hL⟩ k) (fun a => ?_)
  match a with
  | ⟨0, _⟩ => show L = L + 0; rfl
  | ⟨1, _⟩ => show k.val = 0 + k.val; omega

end Reads

/-- The argument x at (e, k) for order L: the scaled distance of e times the table's entry (L, k). -/
abbrev xAt (d : S1000000.Idx → EReal) (T : S7x6.Idx → EReal) (L : Fin 7) (e : Fin 1000000) (k : Fin 6) : EReal :=
  d (ix1 e) * T (ix2 L k)

/-- The product x of the scaled distances down the rows and table row L along the columns, at (e, k). -/
theorem prod_read (d : S1000000.Idx → EReal) (T : S7x6.Idx → EReal) (L : Nat) (hL : L < 7)
    (hs : S7x6.Slices ![L, 0] S1x6) (e : Fin 1000000) (k : Fin 6) :
    (mulf (F := Ideal) (φ := .f32)
      (broadcastInDim S1000000x6 ![0, 1] bcast_S1000000x1_S1000000x6_0_1
        (broadcastInDim S1000000x1 ![0] bcast_S1000000_S1000000x1_0 d))
      (broadcastInDim S1000000x6 ![0, 1] bcast_S1x6_S1000000x6_0_1
        (broadcastInDim S1x6 ![1] bcast_S6_S1x6_1
          (fun i => shapeCast S6 (extractStridedSlice S1x6 ![L, 0] T hs) shapeCasts_S1x6_S6 i)))) (ix2 e k)
      = d (ix1 e) * T (ix2 ⟨L, hL⟩ k) :=
  congrArg₂ (· * ·) (col_read d e k) (row_read T L hL hs e k)

/-- The table entry at (L, k) is the specification's entry 6·L + k. -/
theorem table_read (L : Nat) (hL : L < 7) (k : Fin 6) (c : Nat) (hc : c = 6 * L) (h : c + k.val < 42) :
    (fun i : S7x6.Idx => (FloatOps.ofBits (F := Ideal) .f32 (lit0 (S7x6.rowMajor i)) : EReal)) (ix2 ⟨L, hL⟩ k)
      = Spec.zOf ⟨c + k.val, h⟩ := by
  have hq : S7x6.rowMajor (ix2 ⟨L, hL⟩ k) = (⟨c + k.val, h⟩ : Fin 42) := Fin.ext (by
    rw [Shape.rowMajor_val_two]; show L * 6 + k.val = c + k.val; omega)
  show Ideal.ofBits .f32 (lit0 (S7x6.rowMajor (ix2 ⟨L, hL⟩ k))) = Ideal.ofBits .f32 (Spec.zWord ⟨c + k.val, h⟩)
  rw [hq, lit0_eq_zWord]

/-- The scaled distance at e: the distance over the word 5.0. -/
theorem dist_read (r : S1000000.Idx → EReal) (e : Fin 1000000) :
    (Host.divf (F := Ideal) (φ := .f32) r
      (broadcastInDim S1000000 ![] bcast_S_S1000000 (constant (F := Ideal) S_ .f32 0x40A00000#32))) (ix1 e) = Spec.dR (r (ix1 e)) := rfl

section Recurrence
variable (X : S1000000x6.Idx → EReal) (i : S1000000x6.Idx)

/-- sin x / x, entry by entry. -/
theorem j0_read : (Host.divf (F := Ideal) (φ := .f32) (Host.sin X) X) i = Spec.j0R (X i) := rfl

/-- sin x / (x·x) − cos x / x, entry by entry. -/
theorem j1_read :
    (subf (F := Ideal) (φ := .f32) (Host.divf (Host.sin X) (mulf X X)) (Host.divf (Host.cos X) X)) i = Spec.j1R (X i) := rfl

end Recurrence

section Recurrence23
variable (X : S1000000x6.Idx → EReal) (i : S1000000x6.Idx)

/-- (3/x)·j₁ − j₀, entry by entry. -/
theorem j2_read :
    ((subf (mulf (Host.divf (broadcastInDim S1000000x6 ![] bcast_S_S1000000x6 (constant (F := Ideal) S_ .f32 0x40400000#32)) X) (subf (Host.divf (Host.sin X) (mulf X X)) (Host.divf (Host.cos X) X))) (Host.divf (Host.sin X) X)) : FVec Ideal S1000000x6 .f32) i = Spec.j2R (X i) := rfl

/-- (5/x)·j₂ − j₁, entry by entry. -/
theorem j3_read :
    ((subf (mulf (Host.divf (broadcastInDim S1000000x6 ![] bcast_S_S1000000x6 (constant (F := Ideal) S_ .f32 0x40A00000#32)) X) (subf (mulf (Host.divf (broadcastInDim S1000000x6 ![] bcast_S_S1000000x6 (constant (F := Ideal) S_ .f32 0x40400000#32)) X) (subf (Host.divf (Host.sin X) (mulf X X)) (Host.divf (Host.cos X) X))) (Host.divf (Host.sin X) X))) (subf (Host.divf (Host.sin X) (mulf X X)) (Host.divf (Host.cos X) X))) : FVec Ideal S1000000x6 .f32) i = Spec.j3R (X i) := rfl

end Recurrence23

/-! ## The windows

Each buffer is written by one operation. A window that does not write a buffer leaves it; the window that does leaves the
operation's function of its operands' contents. -/

section Windows
variable (V : Valuation τ sig (Elt Ideal))

theorem w1_v37 : after (ops1 (F := Ideal)) V (Proc.devRef .tc main_v37) = V (Proc.devRef .tc main_v37) := by after_results_simp
theorem w2_v37 : after (ops2 (F := Ideal)) V (Proc.devRef .tc main_v37) = V (Proc.devRef .tc main_v37) := by after_results_simp
theorem w3_v37 : after (ops3 (F := Ideal)) V (Proc.devRef .tc main_v37) = V (Proc.devRef .tc main_v37) := by after_results_simp
theorem w4_v37 : after (ops4 (F := Ideal)) V (Proc.devRef .tc main_v37) = V (Proc.devRef .tc main_v37) := by after_results_simp
theorem w5_v37 : after (ops5 (F := Ideal)) V (Proc.devRef .tc main_v37) = V (Proc.devRef .tc main_v37) := by after_results_simp
theorem w1_v52 : after (ops1 (F := Ideal)) V (Proc.devRef .tc main_v52) = V (Proc.devRef .tc main_v52) := by after_results_simp
theorem w2_v52 : after (ops2 (F := Ideal)) V (Proc.devRef .tc main_v52) = V (Proc.devRef .tc main_v52) := by after_results_simp
theorem w3_v52 : after (ops3 (F := Ideal)) V (Proc.devRef .tc main_v52) = V (Proc.devRef .tc main_v52) := by after_results_simp
theorem w4_v52 : after (ops4 (F := Ideal)) V (Proc.devRef .tc main_v52) = V (Proc.devRef .tc main_v52) := by after_results_simp
theorem w5_v52 : after (ops5 (F := Ideal)) V (Proc.devRef .tc main_v52) = V (Proc.devRef .tc main_v52) := by after_results_simp
theorem w2_v71 : after (ops2 (F := Ideal)) V (Proc.devRef .tc main_v71) = V (Proc.devRef .tc main_v71) := by after_results_simp
theorem w3_v71 : after (ops3 (F := Ideal)) V (Proc.devRef .tc main_v71) = V (Proc.devRef .tc main_v71) := by after_results_simp
theorem w4_v71 : after (ops4 (F := Ideal)) V (Proc.devRef .tc main_v71) = V (Proc.devRef .tc main_v71) := by after_results_simp
theorem w5_v71 : after (ops5 (F := Ideal)) V (Proc.devRef .tc main_v71) = V (Proc.devRef .tc main_v71) := by after_results_simp
theorem w2_v94 : after (ops2 (F := Ideal)) V (Proc.devRef .tc main_v94) = V (Proc.devRef .tc main_v94) := by after_results_simp
theorem w3_v94 : after (ops3 (F := Ideal)) V (Proc.devRef .tc main_v94) = V (Proc.devRef .tc main_v94) := by after_results_simp
theorem w4_v94 : after (ops4 (F := Ideal)) V (Proc.devRef .tc main_v94) = V (Proc.devRef .tc main_v94) := by after_results_simp
theorem w5_v94 : after (ops5 (F := Ideal)) V (Proc.devRef .tc main_v94) = V (Proc.devRef .tc main_v94) := by after_results_simp

/-- The scaled distances (of %28): the distances over the word 5.0. -/
theorem w0_v28 : (after (ops0 (F := Ideal)) V (Proc.devRef .tc main_v28) : S1000000.Idx → EReal)
    = Host.divf (F := Ideal) (φ := .f32) (V (Proc.devRef .tc main_arg0))
        (broadcastInDim S1000000 ![] bcast_S_S1000000 (constant (F := Ideal) S_ .f32 0x40A00000#32)) := by
  after_results_simp

/-- The 7 × 6 table of words (of %cst). -/
theorem w0_cst : (after (ops0 (F := Ideal)) V (Proc.devRef .tc main_cst) : S7x6.Idx → EReal)
    = (fun i => FloatOps.ofBits (F := Ideal) .f32 (lit0 (S7x6.rowMajor i))) := by
  after_results_simp
  rfl

/-- Order 0 in its window. -/
theorem w0_v37 (e : Fin 1000000) (k : Fin 6) :
    (after (ops0 (F := Ideal)) V (Proc.devRef .tc main_v37) : S1000000x6.Idx → EReal) (ix2 e k)
      = Spec.j0R (Spec.dR ((V (Proc.devRef .tc main_arg0) : S1000000.Idx → EReal) (ix1 e)) * Spec.zOf ⟨0 + k.val, by omega⟩) := by
  after_results_simp
  refine (j0_read _ _).trans (congrArg Spec.j0R ?_)
  refine (prod_read _ _ 0 (by omega) _ e k).trans ?_
  exact congrArg₂ (· * ·) (dist_read _ e) (table_read 0 (by omega) k 0 rfl _)

/-- Order 1 in its window. -/
theorem w0_v52 (e : Fin 1000000) (k : Fin 6) :
    (after (ops0 (F := Ideal)) V (Proc.devRef .tc main_v52) : S1000000x6.Idx → EReal) (ix2 e k)
      = Spec.j1R (Spec.dR ((V (Proc.devRef .tc main_arg0) : S1000000.Idx → EReal) (ix1 e)) * Spec.zOf ⟨6 + k.val, by omega⟩) := by
  after_results_simp
  refine (j1_read _ _).trans (congrArg Spec.j1R ?_)
  refine (prod_read _ _ 1 (by omega) _ e k).trans ?_
  exact congrArg₂ (· * ·) (dist_read _ e) (table_read 1 (by omega) k 6 rfl _)

/-- Order 2 in its window, over the scaled distances and the table as the window finds them. -/
theorem w1_v71 (e : Fin 1000000) (k : Fin 6) :
    (after (ops1 (F := Ideal)) V (Proc.devRef .tc main_v71) : S1000000x6.Idx → EReal) (ix2 e k)
      = Spec.j2R (xAt (V (Proc.devRef .tc main_v28)) (V (Proc.devRef .tc main_cst)) ⟨2, by omega⟩ e k) := by
  after_results_simp
  exact (j2_read _ _).trans (congrArg Spec.j2R (prod_read _ _ 2 (by omega) _ e k))

/-- Order 3 in its window, likewise. -/
theorem w1_v94 (e : Fin 1000000) (k : Fin 6) :
    (after (ops1 (F := Ideal)) V (Proc.devRef .tc main_v94) : S1000000x6.Idx → EReal) (ix2 e k)
      = Spec.j3R (xAt (V (Proc.devRef .tc main_v28)) (V (Proc.devRef .tc main_cst)) ⟨3, by omega⟩ e k) := by
  after_results_simp
  exact (j3_read _ _).trans (congrArg Spec.j3R (prod_read _ _ 3 (by omega) _ e k))

end Windows

/-! ## The four orders -/

/-- The order-0 Bessel buffer (of %37) at edge e and radial index k. -/
theorem bes0_apply (c : Dev nD) (e : Fin 1000000) (k : Fin 6) :
    (after (ops (F := Ideal)) (launchContents m c) (Proc.devRef .tc main_v37) : S1000000x6.Idx → EReal) (ix2 e k)
      = Spec.j0R (Spec.dR ((m ((c.tc : Thread nD τ).loc main_arg0) : S1000000.Idx → EReal) (ix1 e))
          * Spec.zOf ⟨0 + k.val, by omega⟩) := by
  rw [after_ops, w5_v37, w4_v37, w3_v37, w2_v37, w1_v37]
  exact w0_v37 _ e k

/-- The order-1 Bessel buffer (of %52) at edge e and radial index k. -/
theorem bes1_apply (c : Dev nD) (e : Fin 1000000) (k : Fin 6) :
    (after (ops (F := Ideal)) (launchContents m c) (Proc.devRef .tc main_v52) : S1000000x6.Idx → EReal) (ix2 e k)
      = Spec.j1R (Spec.dR ((m ((c.tc : Thread nD τ).loc main_arg0) : S1000000.Idx → EReal) (ix1 e))
          * Spec.zOf ⟨6 + k.val, by omega⟩) := by
  rw [after_ops, w5_v52, w4_v52, w3_v52, w2_v52, w1_v52]
  exact w0_v52 _ e k

/-- The order-2 Bessel buffer (of %71) at edge e and radial index k. -/
theorem bes2_apply (c : Dev nD) (e : Fin 1000000) (k : Fin 6) :
    (after (ops (F := Ideal)) (launchContents m c) (Proc.devRef .tc main_v71) : S1000000x6.Idx → EReal) (ix2 e k)
      = Spec.j2R (Spec.dR ((m ((c.tc : Thread nD τ).loc main_arg0) : S1000000.Idx → EReal) (ix1 e))
          * Spec.zOf ⟨12 + k.val, by omega⟩) := by
  rw [after_ops, w5_v71, w4_v71, w3_v71, w2_v71]
  refine (w1_v71 _ e k).trans (congrArg Spec.j2R ?_)
  rw [w0_v28, w0_cst]
  exact congrArg₂ (· * ·) (dist_read _ e) (table_read 2 (by omega) k 12 rfl _)

/-- The order-3 Bessel buffer (of %94) at edge e and radial index k. -/
theorem bes3_apply (c : Dev nD) (e : Fin 1000000) (k : Fin 6) :
    (after (ops (F := Ideal)) (launchContents m c) (Proc.devRef .tc main_v94) : S1000000x6.Idx → EReal) (ix2 e k)
      = Spec.j3R (Spec.dR ((m ((c.tc : Thread nD τ).loc main_arg0) : S1000000.Idx → EReal) (ix1 e))
          * Spec.zOf ⟨18 + k.val, by omega⟩) := by
  rw [after_ops, w5_v94, w4_v94, w3_v94, w2_v94]
  refine (w1_v94 _ e k).trans (congrArg Spec.j3R ?_)
  rw [w0_v28, w0_cst]
  exact congrArg₂ (· * ·) (dist_read _ e) (table_read 3 (by omega) k 18 rfl _)

end Cert.ReferenceIdeal.BesLo

end
-- ==== Proof.RefBesHi.lean ====
/-
  The reference's Bessel values of orders 4 to 6, entry by entry. For order l the program slices row l out of the 7 × 6 table
  of words, multiplies the scaled distances d = dists/5 (broadcast along columns) by it (broadcast along rows) to x, and runs
  the upward recurrence to order l, dividing by x each time: j₀ = sin x / x, j₁ = sin x/(x·x) − cos x/x,
  j_{m+1} = ((2m+1)/x)·j_m − j_{m−1}. At (e, k), x = d(e) · z(6·l + k).

  The operations run in six consecutive stretches. A buffer is written by exactly one operation, so a value is read in the
  stretch that writes it, as a function of what the earlier stretches left, and later stretches leave it alone. Order 4's
  argument and its orders 0 and 1 are written in the second stretch and its orders 2 to 4 in the third; order 5 lies whole
  in the third; order 6's argument, order 0 and a second sine are written in the third and the rest in the fourth.
-/
import proofs.«426921_j31129922961736_3_alg».proof.Proof.RefRun
import proofs.«426921_j31129922961736_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.ReferenceIdeal.BesHi

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

/-! ## Indices and the two broadcasts -/

/-- The pair index of the broadcast lemmas is the pair index by coordinates. -/
theorem ij_eq {n m : Nat} (p : Fin n) (q : Fin m) : Predicate.ij p q = ix2 p q := by
  funext d; match d with | ⟨0, _⟩ => rfl | ⟨1, _⟩ => rfl
/-- A vector's index from its one coordinate, in both spellings. -/
theorem ofFin_eq {n : Nat} (p : Fin n) : (Shape.Idx.ofFin p : (⟨1, ![n]⟩ : Shape).Idx) = ix1 p := by
  funext d; match d with | ⟨0, _⟩ => rfl

/-- A vector over the edges laid as a column and repeated along six columns reads, at (e, k), its entry e. -/
theorem rows_apply (v : S1000000.Idx → EReal) (e : Fin 1000000) (k : Fin 6) :
    broadcastInDim S1000000x6 ![0, 1] bcast_S1000000x1_S1000000x6_0_1
      (broadcastInDim S1000000x1 ![0] bcast_S1000000_S1000000x1_0 v) (ix2 e k) = v (ix1 e) := by
  have h := Predicate.bcast_rows bcast_S1000000_S1000000x1_0 bcast_S1000000x1_S1000000x6_0_1 v e k
  rw [ij_eq, ofFin_eq] at h
  exact h

/-- A vector of six laid as a row and repeated along the edges reads, at (e, k), its entry k. -/
theorem cols_apply (v : S6.Idx → EReal) (e : Fin 1000000) (k : Fin 6) :
    broadcastInDim S1000000x6 ![0, 1] bcast_S1x6_S1000000x6_0_1
      (broadcastInDim S1x6 ![1] bcast_S6_S1x6_1 v) (ix2 e k) = v (ix1 k) := by
  have h := Predicate.bcast_cols bcast_S6_S1x6_1 bcast_S1x6_S1000000x6_0_1 v e k
  rw [ij_eq, ofFin_eq] at h
  exact h

/-- Row l of the 7 × 6 table, cut out, flattened to six entries, laid as a row and repeated along the edges, reads at
    (e, k) the table at (l, k). -/
theorem row_apply (o : Nat) (T : S7x6.Idx → EReal) (hs : S7x6.Slices ![o, 0] S1x6) (l : Fin 7) (hl : l.val = o + 0)
    (e : Fin 1000000) (k : Fin 6) :
    broadcastInDim S1000000x6 ![0, 1] bcast_S1x6_S1000000x6_0_1
      (broadcastInDim S1x6 ![1] bcast_S6_S1x6_1 fun i =>
        shapeCast S6 (extractStridedSlice S1x6 ![o, 0] T hs) shapeCasts_S1x6_S6 i) (ix2 e k) = T (ix2 l k) := by
  refine (cols_apply _ e k).trans ?_
  refine (shapeCast_1a_a_apply _ shapeCasts_S1x6_S6 k).trans ?_
  exact slice2_axis0_apply o T hs (0 : Fin 1) k l hl

/-! ## The recurrence from given orders 0 and 1 -/

/-- One upward step: (c / x) · a − b. -/
def up (c x a b : EReal) : EReal := Ideal.div c x * a - b
/-- The product of two extended reals. -/
def pr (a b : EReal) : EReal := a * b
/-- Orders two to six from the values a0, a1 of orders zero and one, each one upward step from the two before it. -/
def u2 (x a0 a1 : EReal) : EReal := up Spec.three x a1 a0
def u3 (x a0 a1 : EReal) : EReal := up Spec.five x (u2 x a0 a1) a1
def u4 (x a0 a1 : EReal) : EReal := up Spec.seven x (u3 x a0 a1) (u2 x a0 a1)
def u5 (x a0 a1 : EReal) : EReal := up Spec.nine x (u4 x a0 a1) (u3 x a0 a1)
def u6 (x a0 a1 : EReal) : EReal := up Spec.eleven x (u5 x a0 a1) (u4 x a0 a1)
/-- Order one from a sine s computed apart: s/(x·x) − cos x / x. -/
def j1S (x s : EReal) : EReal := Ideal.div s (x * x) - Ideal.div (Ideal.cos x) x

/-- From j₀ and j₁ the steps give j₄ … -/
theorem u4_eq (x : EReal) : u4 x (Spec.j0R x) (Spec.j1R x) = Spec.j4R x := rfl
/-- … and j₆, the sine computed apart being the sine. -/
theorem u6_eq (x : EReal) : u6 x (Spec.j0R x) (j1S x (Ideal.sin x)) = Spec.j6R x := rfl

/-! ## The table's rows 4, 5 and 6 -/

theorem tbl4 (k : Fin 6) : lit0 (S7x6.rowMajor (ix2 (4 : Fin 7) k)) = Spec.zWord ⟨24 + k.val, by omega⟩ := by
  revert k; decide
theorem tbl5 (k : Fin 6) : lit0 (S7x6.rowMajor (ix2 (5 : Fin 7) k)) = Spec.zWord ⟨30 + k.val, by omega⟩ := by
  revert k; decide
theorem tbl6 (k : Fin 6) : lit0 (S7x6.rowMajor (ix2 (6 : Fin 7) k)) = Spec.zWord ⟨36 + k.val, by omega⟩ := by
  revert k; decide

/-! ## Each stretch of operations, from any contents V before it -/

section Windows
variable (V : Valuation τ sig (Elt Ideal))

/-- First stretch: the scaled distance of edge e is its distance over 5. -/
theorem w0_v28 (e : Fin 1000000) :
    (after (ops0 (F := Ideal)) V (Proc.devRef .tc main_v28) : S1000000.Idx → EReal) (ix1 e)
      = Spec.dR ((V (Proc.devRef .tc main_arg0) : S1000000.Idx → EReal) (ix1 e)) := by
  after_results_simp
  rfl

/-- First stretch: the table at (l, k) is its row-major word. -/
theorem w0_cst (l : Fin 7) (k : Fin 6) :
    (after (ops0 (F := Ideal)) V (Proc.devRef .tc main_cst) : S7x6.Idx → EReal) (ix2 l k)
      = Spec.lit (lit0 (S7x6.rowMajor (ix2 l k))) := by
  after_results_simp
  rfl

/-- The second stretch writes neither the scaled distances nor the table. -/
theorem k1_v28 : after (ops1 (F := Ideal)) V (Proc.devRef .tc main_v28) = V (Proc.devRef .tc main_v28) := by after_results_simp
theorem k1_cst : after (ops1 (F := Ideal)) V (Proc.devRef .tc main_cst) = V (Proc.devRef .tc main_cst) := by after_results_simp

/-- Second stretch, order 4's argument at (e, k): the scaled distance of e times the table at (4, k). -/
theorem w1_v101 (e : Fin 1000000) (k : Fin 6) :
    (after (ops1 (F := Ideal)) V (Proc.devRef .tc main_v101) : S1000000x6.Idx → EReal) (ix2 e k)
      = pr ((V (Proc.devRef .tc main_v28) : S1000000.Idx → EReal) (ix1 e))
          ((V (Proc.devRef .tc main_cst) : S7x6.Idx → EReal) (ix2 (4 : Fin 7) k)) := by
  after_results_simp
  refine (mulf_apply _ _ _).trans ?_
  unfold pr
  congr 1
  · exact rows_apply _ e k
  · exact row_apply 4 _ slices_S7x6_S1x6_4_0 4 rfl e k

/-- Second stretch: order 0 at order 4's argument. -/
theorem w1_v103 (e : Fin 1000000) (k : Fin 6) :
    (after (ops1 (F := Ideal)) V (Proc.devRef .tc main_v103) : S1000000x6.Idx → EReal) (ix2 e k)
      = Spec.j0R ((after (ops1 (F := Ideal)) V (Proc.devRef .tc main_v101) : S1000000x6.Idx → EReal) (ix2 e k)) := by
  after_results_simp
  rfl

/-- Second stretch: order 1 at order 4's argument. -/
theorem w1_v109 (e : Fin 1000000) (k : Fin 6) :
    (after (ops1 (F := Ideal)) V (Proc.devRef .tc main_v109) : S1000000x6.Idx → EReal) (ix2 e k)
      = Spec.j1R ((after (ops1 (F := Ideal)) V (Proc.devRef .tc main_v101) : S1000000x6.Idx → EReal) (ix2 e k)) := by
  after_results_simp
  rfl

/-- Third stretch: order 4 by three upward steps from the argument and the orders 0 and 1 it finds. -/
theorem w2_v121 (e : Fin 1000000) (k : Fin 6) :
    (after (ops2 (F := Ideal)) V (Proc.devRef .tc main_v121) : S1000000x6.Idx → EReal) (ix2 e k)
      = u4 ((V (Proc.devRef .tc main_v101) : S1000000x6.Idx → EReal) (ix2 e k))
          ((V (Proc.devRef .tc main_v103) : S1000000x6.Idx → EReal) (ix2 e k))
          ((V (Proc.devRef .tc main_v109) : S1000000x6.Idx → EReal) (ix2 e k)) := by
  after_results_simp
  rfl

/-- Third stretch, order 5's argument at (e, k): the scaled distance of e times the table at (5, k). -/
theorem w2_v128 (e : Fin 1000000) (k : Fin 6) :
    (after (ops2 (F := Ideal)) V (Proc.devRef .tc main_v128) : S1000000x6.Idx → EReal) (ix2 e k)
      = pr ((V (Proc.devRef .tc main_v28) : S1000000.Idx → EReal) (ix1 e))
          ((V (Proc.devRef .tc main_cst) : S7x6.Idx → EReal) (ix2 (5 : Fin 7) k)) := by
  after_results_simp
  refine (mulf_apply _ _ _).trans ?_
  unfold pr
  congr 1
  · exact rows_apply _ e k
  · exact row_apply 5 _ slices_S7x6_S1x6_5_0 5 rfl e k

/-- Third stretch: order 5 at its argument, the whole recurrence. -/
theorem w2_v152 (e : Fin 1000000) (k : Fin 6) :
    (after (ops2 (F := Ideal)) V (Proc.devRef .tc main_v152) : S1000000x6.Idx → EReal) (ix2 e k)
      = Spec.j5R ((after (ops2 (F := Ideal)) V (Proc.devRef .tc main_v128) : S1000000x6.Idx → EReal) (ix2 e k)) := by
  after_results_simp
  rfl

/-- Third stretch, order 6's argument at (e, k): the scaled distance of e times the table at (6, k). -/
theorem w2_v159 (e : Fin 1000000) (k : Fin 6) :
    (after (ops2 (F := Ideal)) V (Proc.devRef .tc main_v159) : S1000000x6.Idx → EReal) (ix2 e k)
      = pr ((V (Proc.devRef .tc main_v28) : S1000000.Idx → EReal) (ix1 e))
          ((V (Proc.devRef .tc main_cst) : S7x6.Idx → EReal) (ix2 (6 : Fin 7) k)) := by
  after_results_simp
  refine (mulf_apply _ _ _).trans ?_
  unfold pr
  congr 1
  · exact rows_apply _ e k
  · exact row_apply 6 _ slices_S7x6_S1x6_6_0 6 rfl e k

/-- Third stretch: order 0 at order 6's argument. -/
theorem w2_v161 (e : Fin 1000000) (k : Fin 6) :
    (after (ops2 (F := Ideal)) V (Proc.devRef .tc main_v161) : S1000000x6.Idx → EReal) (ix2 e k)
      = Spec.j0R ((after (ops2 (F := Ideal)) V (Proc.devRef .tc main_v159) : S1000000x6.Idx → EReal) (ix2 e k)) := by
  after_results_simp
  rfl

/-- Third stretch: the second sine of order 6's argument. -/
theorem w2_v162 (e : Fin 1000000) (k : Fin 6) :
    (after (ops2 (F := Ideal)) V (Proc.devRef .tc main_v162) : S1000000x6.Idx → EReal) (ix2 e k)
      = Ideal.sin ((after (ops2 (F := Ideal)) V (Proc.devRef .tc main_v159) : S1000000x6.Idx → EReal) (ix2 e k)) := by
  after_results_simp
  rfl

/-- Fourth stretch: order 6 from the argument, the order 0 and the sine it finds: order 1 from that sine, then five
    upward steps. -/
theorem w3_v187 (e : Fin 1000000) (k : Fin 6) :
    (after (ops3 (F := Ideal)) V (Proc.devRef .tc main_v187) : S1000000x6.Idx → EReal) (ix2 e k)
      = u6 ((V (Proc.devRef .tc main_v159) : S1000000x6.Idx → EReal) (ix2 e k))
          ((V (Proc.devRef .tc main_v161) : S1000000x6.Idx → EReal) (ix2 e k))
          (j1S ((V (Proc.devRef .tc main_v159) : S1000000x6.Idx → EReal) (ix2 e k))
            ((V (Proc.devRef .tc main_v162) : S1000000x6.Idx → EReal) (ix2 e k))) := by
  after_results_simp
  rfl

/-- The later stretches write none of the three results. -/
theorem k3_v121 : after (ops3 (F := Ideal)) V (Proc.devRef .tc main_v121) = V (Proc.devRef .tc main_v121) := by after_results_simp
theorem k4_v121 : after (ops4 (F := Ideal)) V (Proc.devRef .tc main_v121) = V (Proc.devRef .tc main_v121) := by after_results_simp
theorem k5_v121 : after (ops5 (F := Ideal)) V (Proc.devRef .tc main_v121) = V (Proc.devRef .tc main_v121) := by after_results_simp
theorem k3_v152 : after (ops3 (F := Ideal)) V (Proc.devRef .tc main_v152) = V (Proc.devRef .tc main_v152) := by after_results_simp
theorem k4_v152 : after (ops4 (F := Ideal)) V (Proc.devRef .tc main_v152) = V (Proc.devRef .tc main_v152) := by after_results_simp
theorem k5_v152 : after (ops5 (F := Ideal)) V (Proc.devRef .tc main_v152) = V (Proc.devRef .tc main_v152) := by after_results_simp
theorem k4_v187 : after (ops4 (F := Ideal)) V (Proc.devRef .tc main_v187) = V (Proc.devRef .tc main_v187) := by after_results_simp
theorem k5_v187 : after (ops5 (F := Ideal)) V (Proc.devRef .tc main_v187) = V (Proc.devRef .tc main_v187) := by after_results_simp

end Windows

/-! ## The three results over the launch contents -/

variable (m : (ℓ : Loc nD τ sig) → Buf (Elt Ideal) ℓ)

/-- The order-4 Bessel buffer (of %121) at edge e and radial index k. -/
theorem bes4_apply (c : Dev nD) (e : Fin 1000000) (k : Fin 6) :
    (after (ops (F := Ideal)) (launchContents m c) (Proc.devRef .tc main_v121) : S1000000x6.Idx → EReal) (ix2 e k)
      = Spec.j4R (Spec.dR ((m ((c.tc : Thread nD τ).loc main_arg0) : S1000000.Idx → EReal) (ix1 e))
          * Spec.zOf ⟨24 + k.val, by omega⟩) := by
  rw [after_ops, k5_v121, k4_v121, k3_v121, w2_v121, w1_v103, w1_v109, u4_eq, w1_v101, w0_v28, w0_cst, tbl4]
  rfl

/-- The order-5 Bessel buffer (of %152) at edge e and radial index k. -/
theorem bes5_apply (c : Dev nD) (e : Fin 1000000) (k : Fin 6) :
    (after (ops (F := Ideal)) (launchContents m c) (Proc.devRef .tc main_v152) : S1000000x6.Idx → EReal) (ix2 e k)
      = Spec.j5R (Spec.dR ((m ((c.tc : Thread nD τ).loc main_arg0) : S1000000.Idx → EReal) (ix1 e))
          * Spec.zOf ⟨30 + k.val, by omega⟩) := by
  rw [after_ops, k5_v152, k4_v152, k3_v152, w2_v152, w2_v128, k1_v28, k1_cst, w0_v28, w0_cst, tbl5]
  rfl

/-- The order-6 Bessel buffer (of %187) at edge e and radial index k. -/
theorem bes6_apply (c : Dev nD) (e : Fin 1000000) (k : Fin 6) :
    (after (ops (F := Ideal)) (launchContents m c) (Proc.devRef .tc main_v187) : S1000000x6.Idx → EReal) (ix2 e k)
      = Spec.j6R (Spec.dR ((m ((c.tc : Thread nD τ).loc main_arg0) : S1000000.Idx → EReal) (ix1 e))
          * Spec.zOf ⟨36 + k.val, by omega⟩) := by
  rw [after_ops, k5_v187, k4_v187, w3_v187, w2_v161, w2_v162, u6_eq, w2_v159, k1_v28, k1_cst, w0_v28, w0_cst, tbl6]
  rfl

end Cert.ReferenceIdeal.BesHi

end
-- ==== Proof.RefRbf.lean ====
/-
  The reference's table of radial values, entry by entry. For each order l = 0 … 6 it slices row l out of the 7 × 6 table
  of words, multiplies the scaled distances (a column) by it, and runs the Bessel recurrence up to order l, dividing by
  x = d·z each time; the seven [E, 6] results are stacked along a new middle axis, reshaped to [E, 42] (column 6·l + k),
  and multiplied by the envelope of the scaled distance. At (e, q) that is env(d) · j_{q/6}(d · z q), d = dists e / 5.
-/
import proofs.«426921_j31129922961736_3_alg».proof.Proof.RefRun
import proofs.«426921_j31129922961736_3_alg».proof.Proof.Spec
import proofs.«426921_j31129922961736_3_alg».proof.Proof.RefBesLo
import proofs.«426921_j31129922961736_3_alg».proof.Proof.RefBesHi
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.ReferenceIdeal.Rbf

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## Layout: a column broadcast along rows, a matrix broadcast to a unit middle axis, seven such stacked and flattened -/

/-- A vector laid along the rows of a [1000000, 42] matrix reads, at (e, q), the vector at e. -/
theorem rows_apply (h1 : S1000000.BroadcastsInDim S1000000x1 (![0] : Fin 1 → Fin S1000000x1.rank))
    (h2 : S1000000x1.BroadcastsInDim S1000000x42 (![0, 1] : Fin 2 → Fin S1000000x42.rank))
    (v : S1000000.Idx → EReal) (e : Fin 1000000) (q : Fin 42) :
    broadcastInDim S1000000x42 ![0, 1] h2 (broadcastInDim S1000000x1 ![0] h1 v) (ix2 e q) = v (ix1 e) := by
  rw [broadcastInDim_apply _ h2 _ (ix2 e q) (ix2 e (0 : Fin 1)) (fun a => match a with | ⟨0, _⟩ => rfl | ⟨1, _⟩ => rfl)]
  exact broadcastInDim_apply _ h1 v _ (ix1 e) (fun a => match a with | ⟨0, _⟩ => rfl)

/-- A [1000000, 6] matrix given a unit middle axis reads, at (e, 0, k), the matrix at (e, k). -/
theorem mid_apply (h : S1000000x6.BroadcastsInDim S1000000x1x6 (![0, 2] : Fin 2 → Fin S1000000x1x6.rank))
    (x : S1000000x6.Idx → EReal) (e : Fin 1000000) (k : Fin 6) :
    broadcastInDim S1000000x1x6 ![0, 2] h x (ix3 e (0 : Fin 1) k) = x (ix2 e k) :=
  broadcastInDim_apply _ h x _ (ix2 e k) (fun a => match a with | ⟨0, _⟩ => rfl | ⟨1, _⟩ => rfl)

/-- Seven [1000000, 1, 6] pieces stacked along the middle axis and flattened to [1000000, 42] read, at (e, 6·l + k), piece l at (e, 0, k). -/
theorem stack_apply
    (hc : Shape.Concatenates [S1000000x1x6, S1000000x1x6, S1000000x1x6, S1000000x1x6, S1000000x1x6, S1000000x1x6, S1000000x1x6] S1000000x7x6 1)
    (hs : S1000000x7x6.ShapeCasts S1000000x42)
    (u0 u1 u2 u3 u4 u5 u6 : S1000000x1x6.Idx → EReal) (e : Fin 1000000) (l : Fin 7) (k : Fin 6) :
    shapeCast S1000000x42 (concatenate S1000000x7x6 1 [⟨S1000000x1x6, u0⟩, ⟨S1000000x1x6, u1⟩, ⟨S1000000x1x6, u2⟩, ⟨S1000000x1x6, u3⟩,
        ⟨S1000000x1x6, u4⟩, ⟨S1000000x1x6, u5⟩, ⟨S1000000x1x6, u6⟩] hc) hs (ix2 e (⟨6 * l.val + k.val, by omega⟩ : Fin 42))
      = (![u0, u1, u2, u3, u4, u5, u6] : Fin 7 → S1000000x1x6.Idx → EReal) l (ix3 e (0 : Fin 1) k) := by
  rw [shapeCast_apply _ hs _ (ix3 e l k) (by
    rw [Shape.rowMajor_val_three, Shape.rowMajor_val_two]
    show (e.val * 7 + l.val) * 6 + k.val = e.val * 42 + (6 * l.val + k.val)
    omega)]
  exact concatenate_ofFn_unit_apply (t := S1000000x7x6) (s₁ := S1000000x1x6) (1 : Fin 3)
    (![u0, u1, u2, u3, u4, u5, u6] : Fin 7 → S1000000x1x6.Idx → EReal) hc rfl rfl
    (ix3 e l k) l rfl (ix3 e (0 : Fin 1) k)
    (fun b hb => match b, hb with | ⟨0, _⟩, _ => rfl | ⟨1, _⟩, hb => absurd rfl hb | ⟨2, _⟩, _ => rfl)

/-- Seven [1000000, 6] matrices, each given a unit middle axis, stacked and flattened: at (e, 6·l + k), matrix l at (e, k). -/
theorem assemble
    (hc : Shape.Concatenates [S1000000x1x6, S1000000x1x6, S1000000x1x6, S1000000x1x6, S1000000x1x6, S1000000x1x6, S1000000x1x6] S1000000x7x6 1)
    (hs : S1000000x7x6.ShapeCasts S1000000x42)
    (hb : S1000000x6.BroadcastsInDim S1000000x1x6 (![0, 2] : Fin 2 → Fin S1000000x1x6.rank))
    (x0 x1 x2 x3 x4 x5 x6 : S1000000x6.Idx → EReal) (e : Fin 1000000) (l : Fin 7) (k : Fin 6) :
    shapeCast S1000000x42 (concatenate S1000000x7x6 1
        [⟨S1000000x1x6, broadcastInDim S1000000x1x6 ![0, 2] hb x0⟩, ⟨S1000000x1x6, broadcastInDim S1000000x1x6 ![0, 2] hb x1⟩,
         ⟨S1000000x1x6, broadcastInDim S1000000x1x6 ![0, 2] hb x2⟩, ⟨S1000000x1x6, broadcastInDim S1000000x1x6 ![0, 2] hb x3⟩,
         ⟨S1000000x1x6, broadcastInDim S1000000x1x6 ![0, 2] hb x4⟩, ⟨S1000000x1x6, broadcastInDim S1000000x1x6 ![0, 2] hb x5⟩,
         ⟨S1000000x1x6, broadcastInDim S1000000x1x6 ![0, 2] hb x6⟩] hc) hs (ix2 e (⟨6 * l.val + k.val, by omega⟩ : Fin 42))
      = (![x0, x1, x2, x3, x4, x5, x6] : Fin 7 → S1000000x6.Idx → EReal) l (ix2 e k) := by
  rw [stack_apply]
  match l with
  | ⟨0, _⟩ => exact mid_apply hb x0 e k
  | ⟨1, _⟩ => exact mid_apply hb x1 e k
  | ⟨2, _⟩ => exact mid_apply hb x2 e k
  | ⟨3, _⟩ => exact mid_apply hb x3 e k
  | ⟨4, _⟩ => exact mid_apply hb x4 e k
  | ⟨5, _⟩ => exact mid_apply hb x5 e k
  | ⟨6, _⟩ => exact mid_apply hb x6 e k

/-! ## The fold read at the buffers of this part -/

/-- The stacking operation's result at its own buffer, each operand read at its own reference. -/
theorem cat195_result' (hxs hy) (W : Valuation τ sig (Elt Ideal)) :
    (nary (τ := τ) ![main_v188, main_v189, main_v190, main_v191, main_v192, main_v193, main_v194] main_v195
      (fun u => concatenate S1000000x7x6 1 [⟨S1000000x1x6, u 0⟩, ⟨S1000000x1x6, u 1⟩, ⟨S1000000x1x6, u 2⟩, ⟨S1000000x1x6, u 3⟩, ⟨S1000000x1x6, u 4⟩, ⟨S1000000x1x6, u 5⟩, ⟨S1000000x1x6, u 6⟩] concatenates_S1000000x1x6_S1000000x1x6_S1000000x1x6_S1000000x1x6_S1000000x1x6_S1000000x1x6_S1000000x1x6_S1000000x7x6_d1)
      hxs hy).result W (no_index (Proc.devRef .tc main_v195))
    = concatenate S1000000x7x6 1 [⟨S1000000x1x6, W (Proc.devRef .tc main_v188)⟩, ⟨S1000000x1x6, W (Proc.devRef .tc main_v189)⟩,
        ⟨S1000000x1x6, W (Proc.devRef .tc main_v190)⟩, ⟨S1000000x1x6, W (Proc.devRef .tc main_v191)⟩,
        ⟨S1000000x1x6, W (Proc.devRef .tc main_v192)⟩, ⟨S1000000x1x6, W (Proc.devRef .tc main_v193)⟩,
        ⟨S1000000x1x6, W (Proc.devRef .tc main_v194)⟩] concatenates_S1000000x1x6_S1000000x1x6_S1000000x1x6_S1000000x1x6_S1000000x1x6_S1000000x1x6_S1000000x1x6_S1000000x7x6_d1 := by
  rw [nary_result]; rfl

/-- The envelope polynomial of a vector of scaled distances, operation by operation. -/
def envVec (d : S1000000.Idx → EReal) : S1000000.Idx → EReal :=
  addf (addf (addf
      (Host.divf (broadcastInDim S1000000 ![] bcast_S_S1000000 (constant (F := Ideal) S_ .f32 0x3F800000#32)) d)
      (mulf (broadcastInDim S1000000 ![] bcast_S_S1000000 (constant (F := Ideal) S_ .f32 0xC1E00000#32)) (mulf d (mulf (mulf d d) (mulf d d)))))
      (mulf (mulf (broadcastInDim S1000000 ![] bcast_S_S1000000 (constant (F := Ideal) S_ .f32 0x42400000#32)) (mulf d (mulf (mulf d d) (mulf d d)))) d))
    (mulf (mulf (mulf (broadcastInDim S1000000 ![] bcast_S_S1000000 (constant (F := Ideal) S_ .f32 0x41A80000#32)) (mulf d (mulf (mulf d d) (mulf d d)))) d) d)

section Fold
variable (V : Valuation τ sig (Elt Ideal))

/-- The fourth window is its first thirty operations, then the seven that give each Bessel buffer a unit middle axis, then the rest. -/
theorem after_ops3 : after ops3 V = after (List.drop 7 (List.drop 30 ops3)) (after (List.take 7 (List.drop 30 ops3)) (after (List.take 30 ops3) V)) :=
  calc after ops3 V = after (List.take 30 ops3 ++ List.drop 30 ops3) V := by rw [List.take_append_drop]
    _ = after (List.drop 30 ops3) (after (List.take 30 ops3) V) := HandRun.after_append _ _ _
    _ = after ((List.take 7 (List.drop 30 ops3)) ++ (List.drop 7 (List.drop 30 ops3))) (after (List.take 30 ops3) V) := by rw [List.take_append_drop]
    _ = after (List.drop 7 (List.drop 30 ops3)) (after (List.take 7 (List.drop 30 ops3)) (after (List.take 30 ops3) V)) := HandRun.after_append _ _ _

-- no operation from the thirty-first of the fourth window on writes an operand of this part
theorem frame_v28 : after ops5 (after ops4 (after (List.drop 7 (List.drop 30 ops3)) (after (List.take 7 (List.drop 30 ops3)) V))) (Proc.devRef .tc main_v28) = V (Proc.devRef .tc main_v28) := by
  simp only [List.drop_succ_cons, List.drop_zero, List.take_succ_cons, List.take_zero]; after_results_simp
theorem frame_v37 : after ops5 (after ops4 (after (List.drop 7 (List.drop 30 ops3)) (after (List.take 7 (List.drop 30 ops3)) V))) (Proc.devRef .tc main_v37) = V (Proc.devRef .tc main_v37) := by
  simp only [List.drop_succ_cons, List.drop_zero, List.take_succ_cons, List.take_zero]; after_results_simp
theorem frame_v52 : after ops5 (after ops4 (after (List.drop 7 (List.drop 30 ops3)) (after (List.take 7 (List.drop 30 ops3)) V))) (Proc.devRef .tc main_v52) = V (Proc.devRef .tc main_v52) := by
  simp only [List.drop_succ_cons, List.drop_zero, List.take_succ_cons, List.take_zero]; after_results_simp
theorem frame_v71 : after ops5 (after ops4 (after (List.drop 7 (List.drop 30 ops3)) (after (List.take 7 (List.drop 30 ops3)) V))) (Proc.devRef .tc main_v71) = V (Proc.devRef .tc main_v71) := by
  simp only [List.drop_succ_cons, List.drop_zero, List.take_succ_cons, List.take_zero]; after_results_simp
theorem frame_v94 : after ops5 (after ops4 (after (List.drop 7 (List.drop 30 ops3)) (after (List.take 7 (List.drop 30 ops3)) V))) (Proc.devRef .tc main_v94) = V (Proc.devRef .tc main_v94) := by
  simp only [List.drop_succ_cons, List.drop_zero, List.take_succ_cons, List.take_zero]; after_results_simp
theorem frame_v121 : after ops5 (after ops4 (after (List.drop 7 (List.drop 30 ops3)) (after (List.take 7 (List.drop 30 ops3)) V))) (Proc.devRef .tc main_v121) = V (Proc.devRef .tc main_v121) := by
  simp only [List.drop_succ_cons, List.drop_zero, List.take_succ_cons, List.take_zero]; after_results_simp
theorem frame_v152 : after ops5 (after ops4 (after (List.drop 7 (List.drop 30 ops3)) (after (List.take 7 (List.drop 30 ops3)) V))) (Proc.devRef .tc main_v152) = V (Proc.devRef .tc main_v152) := by
  simp only [List.drop_succ_cons, List.drop_zero, List.take_succ_cons, List.take_zero]; after_results_simp
theorem frame_v187 : after ops5 (after ops4 (after (List.drop 7 (List.drop 30 ops3)) (after (List.take 7 (List.drop 30 ops3)) V))) (Proc.devRef .tc main_v187) = V (Proc.devRef .tc main_v187) := by
  simp only [List.drop_succ_cons, List.drop_zero, List.take_succ_cons, List.take_zero]; after_results_simp

theorem skipB_v28 : after (List.take 7 (List.drop 30 ops3)) V (Proc.devRef .tc main_v28) = V (Proc.devRef .tc main_v28) := by
  simp only [List.drop_succ_cons, List.drop_zero, List.take_succ_cons, List.take_zero]; after_results_simp

-- each Bessel buffer with a unit middle axis
theorem mid_v188 : @Eq (FVec Ideal S1000000x1x6 .f32) (after (List.take 7 (List.drop 30 ops3)) V (Proc.devRef .tc main_v188)) (broadcastInDim S1000000x1x6 ![0, 2] bcast_S1000000x6_S1000000x1x6_0_2 (V (Proc.devRef .tc main_v37))) := by
  simp only [List.drop_succ_cons, List.drop_zero, List.take_succ_cons, List.take_zero]; after_results_simp
theorem mid_v189 : @Eq (FVec Ideal S1000000x1x6 .f32) (after (List.take 7 (List.drop 30 ops3)) V (Proc.devRef .tc main_v189)) (broadcastInDim S1000000x1x6 ![0, 2] bcast_S1000000x6_S1000000x1x6_0_2 (V (Proc.devRef .tc main_v52))) := by
  simp only [List.drop_succ_cons, List.drop_zero, List.take_succ_cons, List.take_zero]; after_results_simp
theorem mid_v190 : @Eq (FVec Ideal S1000000x1x6 .f32) (after (List.take 7 (List.drop 30 ops3)) V (Proc.devRef .tc main_v190)) (broadcastInDim S1000000x1x6 ![0, 2] bcast_S1000000x6_S1000000x1x6_0_2 (V (Proc.devRef .tc main_v71))) := by
  simp only [List.drop_succ_cons, List.drop_zero, List.take_succ_cons, List.take_zero]; after_results_simp
theorem mid_v191 : @Eq (FVec Ideal S1000000x1x6 .f32) (after (List.take 7 (List.drop 30 ops3)) V (Proc.devRef .tc main_v191)) (broadcastInDim S1000000x1x6 ![0, 2] bcast_S1000000x6_S1000000x1x6_0_2 (V (Proc.devRef .tc main_v94))) := by
  simp only [List.drop_succ_cons, List.drop_zero, List.take_succ_cons, List.take_zero]; after_results_simp
theorem mid_v192 : @Eq (FVec Ideal S1000000x1x6 .f32) (after (List.take 7 (List.drop 30 ops3)) V (Proc.devRef .tc main_v192)) (broadcastInDim S1000000x1x6 ![0, 2] bcast_S1000000x6_S1000000x1x6_0_2 (V (Proc.devRef .tc main_v121))) := by
  simp only [List.drop_succ_cons, List.drop_zero, List.take_succ_cons, List.take_zero]; after_results_simp
theorem mid_v193 : @Eq (FVec Ideal S1000000x1x6 .f32) (after (List.take 7 (List.drop 30 ops3)) V (Proc.devRef .tc main_v193)) (broadcastInDim S1000000x1x6 ![0, 2] bcast_S1000000x6_S1000000x1x6_0_2 (V (Proc.devRef .tc main_v152))) := by
  simp only [List.drop_succ_cons, List.drop_zero, List.take_succ_cons, List.take_zero]; after_results_simp
theorem mid_v194 : @Eq (FVec Ideal S1000000x1x6 .f32) (after (List.take 7 (List.drop 30 ops3)) V (Proc.devRef .tc main_v194)) (broadcastInDim S1000000x1x6 ![0, 2] bcast_S1000000x6_S1000000x1x6_0_2 (V (Proc.devRef .tc main_v187))) := by
  simp only [List.drop_succ_cons, List.drop_zero, List.take_succ_cons, List.take_zero]; after_results_simp

theorem skip5_v216 : after ops5 V (Proc.devRef .tc main_v216) = V (Proc.devRef .tc main_v216) := by after_results_simp

theorem w4_v216 : @Eq (FVec Ideal S1000000x42 .f32) (after ops4 V (Proc.devRef .tc main_v216))
    (mulf (broadcastInDim S1000000x42 ![0, 1] bcast_S1000000x1_S1000000x42_0_1
        (broadcastInDim S1000000x1 ![0] bcast_S1000000_S1000000x1_0 (V (Proc.devRef .tc main_v213))))
      (V (Proc.devRef .tc main_v196))) := by after_results_simp

theorem env_v213 : @Eq (FVec Ideal S1000000 .f32) (after (List.drop 7 (List.drop 30 ops3)) V (Proc.devRef .tc main_v213))
    (envVec (V (Proc.devRef .tc main_v28))) := by
  simp only [List.drop_succ_cons, List.drop_zero, List.take_succ_cons, List.take_zero]
  after_results_simp
  rfl

theorem stack_v196 : @Eq (FVec Ideal S1000000x42 .f32) (after (List.drop 7 (List.drop 30 ops3)) V (Proc.devRef .tc main_v196))
    (shapeCast S1000000x42 (concatenate S1000000x7x6 1
        [⟨S1000000x1x6, V (Proc.devRef .tc main_v188)⟩, ⟨S1000000x1x6, V (Proc.devRef .tc main_v189)⟩,
         ⟨S1000000x1x6, V (Proc.devRef .tc main_v190)⟩, ⟨S1000000x1x6, V (Proc.devRef .tc main_v191)⟩,
         ⟨S1000000x1x6, V (Proc.devRef .tc main_v192)⟩, ⟨S1000000x1x6, V (Proc.devRef .tc main_v193)⟩,
         ⟨S1000000x1x6, V (Proc.devRef .tc main_v194)⟩] concatenates_S1000000x1x6_S1000000x1x6_S1000000x1x6_S1000000x1x6_S1000000x1x6_S1000000x1x6_S1000000x1x6_S1000000x7x6_d1) shapeCasts_S1000000x7x6_S1000000x42) := by
  simp only [List.drop_succ_cons, List.drop_zero, List.take_succ_cons, List.take_zero]
  simp (disch := decide) only [after_cons, after_nil, nullary_result', unary_result', binary_result', reshape_result', cat195_result',
    nullary_result_ne', unary_result_ne', binary_result_ne', reshape_result_ne', nary_result_ne']
  rfl

theorem skip1_v28 : after ops1 V (Proc.devRef .tc main_v28) = V (Proc.devRef .tc main_v28) := by after_results_simp
theorem skip2_v28 : after ops2 V (Proc.devRef .tc main_v28) = V (Proc.devRef .tc main_v28) := by after_results_simp
theorem skip3_v28 : after ops3 V (Proc.devRef .tc main_v28) = V (Proc.devRef .tc main_v28) := by after_results_simp
theorem skip4_v28 : after ops4 V (Proc.devRef .tc main_v28) = V (Proc.devRef .tc main_v28) := by after_results_simp
theorem skip5_v28 : after ops5 V (Proc.devRef .tc main_v28) = V (Proc.devRef .tc main_v28) := by after_results_simp
theorem w0_v28 : @Eq (FVec Ideal S1000000 .f32) (after ops0 V (Proc.devRef .tc main_v28))
    (Host.divf (V (Proc.devRef .tc main_arg0)) (broadcastInDim S1000000 ![] bcast_S_S1000000 (constant (F := Ideal) S_ .f32 0x40A00000#32))) := by
  after_results_simp

/-- The scaled distances: the distances over the word 5.0. -/
theorem v28_eq : @Eq (FVec Ideal S1000000 .f32) (after ops V (Proc.devRef .tc main_v28))
    (Host.divf (V (Proc.devRef .tc main_arg0)) (broadcastInDim S1000000 ![] bcast_S_S1000000 (constant (F := Ideal) S_ .f32 0x40A00000#32))) := by
  rw [after_ops, skip5_v28, skip4_v28, skip3_v28, skip2_v28, skip1_v28, w0_v28]

/-- The radial table as the envelope along rows times the stacked Bessel buffers, all read after the whole run. -/
theorem v216_eq : @Eq (FVec Ideal S1000000x42 .f32) (after ops V (Proc.devRef .tc main_v216))
    (mulf (broadcastInDim S1000000x42 ![0, 1] bcast_S1000000x1_S1000000x42_0_1
        (broadcastInDim S1000000x1 ![0] bcast_S1000000_S1000000x1_0 (envVec (after ops V (Proc.devRef .tc main_v28)))))
      (shapeCast S1000000x42 (concatenate S1000000x7x6 1
        [⟨S1000000x1x6, broadcastInDim S1000000x1x6 ![0, 2] bcast_S1000000x6_S1000000x1x6_0_2 (after ops V (Proc.devRef .tc main_v37))⟩, ⟨S1000000x1x6, broadcastInDim S1000000x1x6 ![0, 2] bcast_S1000000x6_S1000000x1x6_0_2 (after ops V (Proc.devRef .tc main_v52))⟩,
         ⟨S1000000x1x6, broadcastInDim S1000000x1x6 ![0, 2] bcast_S1000000x6_S1000000x1x6_0_2 (after ops V (Proc.devRef .tc main_v71))⟩, ⟨S1000000x1x6, broadcastInDim S1000000x1x6 ![0, 2] bcast_S1000000x6_S1000000x1x6_0_2 (after ops V (Proc.devRef .tc main_v94))⟩,
         ⟨S1000000x1x6, broadcastInDim S1000000x1x6 ![0, 2] bcast_S1000000x6_S1000000x1x6_0_2 (after ops V (Proc.devRef .tc main_v121))⟩, ⟨S1000000x1x6, broadcastInDim S1000000x1x6 ![0, 2] bcast_S1000000x6_S1000000x1x6_0_2 (after ops V (Proc.devRef .tc main_v152))⟩,
         ⟨S1000000x1x6, broadcastInDim S1000000x1x6 ![0, 2] bcast_S1000000x6_S1000000x1x6_0_2 (after ops V (Proc.devRef .tc main_v187))⟩] concatenates_S1000000x1x6_S1000000x1x6_S1000000x1x6_S1000000x1x6_S1000000x1x6_S1000000x1x6_S1000000x1x6_S1000000x7x6_d1) shapeCasts_S1000000x7x6_S1000000x42)) := by
  rw [after_ops, after_ops3]
  generalize after (List.take 30 ops3) (after ops2 (after ops1 (after ops0 V))) = Y
  rw [frame_v28, frame_v37, frame_v52, frame_v71, frame_v94, frame_v121, frame_v152, frame_v187,
    skip5_v216, w4_v216, env_v213, stack_v196, mid_v188, mid_v189, mid_v190, mid_v191, mid_v192, mid_v193, mid_v194, skipB_v28]

end Fold

/-! ## The radial table at an entry -/

/-- The envelope vector at an edge is the envelope of the scaled distance there. -/
theorem envVec_apply (d : S1000000.Idx → EReal) (i : S1000000.Idx) : envVec d i = Spec.envR (d i) := rfl

/-- The radial table at edge e and column 6·l + k. -/
theorem rbf_lk (c : Dev nD) (e : Fin 1000000) (l : Fin 7) (k : Fin 6) :
    (after (ops (F := Ideal)) (launchContents m c) (Proc.devRef .tc main_v216) : S1000000x42.Idx → EReal) (ix2 e (⟨6 * l.val + k.val, by omega⟩ : Fin 42))
      = Spec.envR (Spec.dR ((m ((c.tc : Thread nD τ).loc main_arg0) : S1000000.Idx → EReal) (ix1 e)))
          * Spec.besR l.val (Spec.dR ((m ((c.tc : Thread nD τ).loc main_arg0) : S1000000.Idx → EReal) (ix1 e)) * Spec.zOf ⟨6 * l.val + k.val, by omega⟩) := by
  have h0 := BesLo.bes0_apply m c e
  have h1 := BesLo.bes1_apply m c e
  have h2 := BesLo.bes2_apply m c e
  have h3 := BesLo.bes3_apply m c e
  have h4 := BesHi.bes4_apply m c e
  have h5 := BesHi.bes5_apply m c e
  have h6 := BesHi.bes6_apply m c e
  rw [v216_eq, mulf_apply, rows_apply, assemble, envVec_apply, v28_eq]
  have hd : (Host.divf (launchContents m c (Proc.devRef .tc main_arg0))
      (broadcastInDim S1000000 ![] bcast_S_S1000000 (constant (F := Ideal) S_ .f32 0x40A00000#32)) : S1000000.Idx → EReal) (ix1 e)
      = Spec.dR ((m ((c.tc : Thread nD τ).loc main_arg0) : S1000000.Idx → EReal) (ix1 e)) := rfl
  rw [hd]
  generalize after (ops (F := Ideal)) (launchContents m c) = X at h0 h1 h2 h3 h4 h5 h6 ⊢
  refine congrArg (Spec.envR (Spec.dR ((m ((c.tc : Thread nD τ).loc main_arg0) : S1000000.Idx → EReal) (ix1 e))) * ·) ?_
  match l with
  | ⟨0, _⟩ => exact h0 k
  | ⟨1, _⟩ => exact h1 k
  | ⟨2, _⟩ => exact h2 k
  | ⟨3, _⟩ => exact h3 k
  | ⟨4, _⟩ => exact h4 k
  | ⟨5, _⟩ => exact h5 k
  | ⟨6, _⟩ => exact h6 k

/-- The radial table (the buffer of %216) at edge e and column q. -/
theorem rbf_apply (c : Dev nD) (e : Fin 1000000) (q : Fin 42) :
    (after (ops (F := Ideal)) (launchContents m c) (Proc.devRef .tc main_v216) : S1000000x42.Idx → EReal) (ix2 e q)
      = Spec.envR (Spec.dR ((m ((c.tc : Thread nD τ).loc main_arg0) : S1000000.Idx → EReal) (ix1 e)))
          * Spec.besR (Spec.ordOf q) (Spec.dR ((m ((c.tc : Thread nD τ).loc main_arg0) : S1000000.Idx → EReal) (ix1 e)) * Spec.zOf q) := by
  have h := rbf_lk m c e ⟨q.val / 6, by omega⟩ ⟨q.val % 6, Nat.mod_lt _ (by decide)⟩
  have hq : (⟨6 * (q.val / 6) + q.val % 6, by omega⟩ : Fin 42) = q := Fin.ext (Nat.div_add_mod q.val 6)
  dsimp only at h
  rw [hq] at h
  exact h

end Cert.ReferenceIdeal.Rbf

end
-- ==== Proof.RefCbf.lean ====
/-
  The reference's table of angular values, entry by entry: the cosine of each angle, the Legendre recurrence up to order 6
  on it, and the seven columns stacked side by side. At (t, l) that is P_l(cos(angle t)).
-/
import proofs.«426921_j31129922961736_3_alg».proof.Proof.RefRun
import proofs.«426921_j31129922961736_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.ReferenceIdeal.Cbf

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## Two readings at an index -/

/-- A vector laid out as a one-column table reads, at (t, 0), the vector at t. -/
theorem col_apply {α : Type} (v : S2500000.Idx → α) (t : Fin 2500000) :
    broadcastInDim S2500000x1 ![0] bcast_S2500000_S2500000x1_0 v (ix2 t (0 : Fin 1)) = v (ix1 t) := by
  simp only [broadcastInDim]
  congr 1
  funext a
  match a with
  | ⟨0, _⟩ =>
    apply Fin.ext
    split
    · next h1 => change 2500000 = 1 at h1; omega
    · rfl

/-- Seven one-column tables side by side read, at (t, l), the l-th table at (t, 0). -/
theorem concat7_apply {α : Type} (x : Fin 7 → (S2500000x1.Idx → α))
    (h : Shape.Concatenates [S2500000x1, S2500000x1, S2500000x1, S2500000x1, S2500000x1, S2500000x1, S2500000x1] S2500000x7 1)
    (t : Fin 2500000) (l : Fin 7) :
    concatenate S2500000x7 1 [⟨S2500000x1, x 0⟩, ⟨S2500000x1, x 1⟩, ⟨S2500000x1, x 2⟩, ⟨S2500000x1, x 3⟩,
        ⟨S2500000x1, x 4⟩, ⟨S2500000x1, x 5⟩, ⟨S2500000x1, x 6⟩] h (ix2 t l)
      = x l (ix2 t (0 : Fin 1)) := by
  refine concatenate_ofFn_unit_apply (t := S2500000x7) (s₁ := S2500000x1) 1 x h rfl rfl (ix2 t l) l rfl (ix2 t 0) ?_
  intro b hb
  match b with
  | ⟨0, _⟩ => rfl
  | ⟨1, _⟩ => exact absurd rfl hb

/-- Seven vectors, each laid out as a one-column table, side by side: at (t, l) the l-th vector at t. -/
theorem concat7_col {α : Type} (v : Fin 7 → (S2500000.Idx → α))
    (h : Shape.Concatenates [S2500000x1, S2500000x1, S2500000x1, S2500000x1, S2500000x1, S2500000x1, S2500000x1] S2500000x7 1)
    (t : Fin 2500000) (l : Fin 7) :
    concatenate S2500000x7 1
        [⟨S2500000x1, broadcastInDim S2500000x1 ![0] bcast_S2500000_S2500000x1_0 (v 0)⟩,
         ⟨S2500000x1, broadcastInDim S2500000x1 ![0] bcast_S2500000_S2500000x1_0 (v 1)⟩,
         ⟨S2500000x1, broadcastInDim S2500000x1 ![0] bcast_S2500000_S2500000x1_0 (v 2)⟩,
         ⟨S2500000x1, broadcastInDim S2500000x1 ![0] bcast_S2500000_S2500000x1_0 (v 3)⟩,
         ⟨S2500000x1, broadcastInDim S2500000x1 ![0] bcast_S2500000_S2500000x1_0 (v 4)⟩,
         ⟨S2500000x1, broadcastInDim S2500000x1 ![0] bcast_S2500000_S2500000x1_0 (v 5)⟩,
         ⟨S2500000x1, broadcastInDim S2500000x1 ![0] bcast_S2500000_S2500000x1_0 (v 6)⟩] h (ix2 t l)
      = v l (ix1 t) :=
  (concat7_apply (fun k => broadcastInDim S2500000x1 ![0] bcast_S2500000_S2500000x1_0 (v k)) h t l).trans (col_apply _ t)

/-! ## Window 4: the cosine and the recurrence, each vector at an entry as a function of the angle there -/

section W4
variable (V : Valuation τ sig (Elt Ideal))

/-- The vector of ones is P₀. -/
theorem w4_P0 (t : Fin 2500000) :
    (after ops4 V (Proc.devRef .tc main_v218) : S2500000.Idx → EReal) (ix1 t)
      = Spec.P0 (Ideal.cos ((V (Proc.devRef .tc main_arg1) : S2500000.Idx → EReal) (ix1 t))) := by
  after_results_simp
  rfl

/-- The cosine of the angle is P₁ of it. -/
theorem w4_P1 (t : Fin 2500000) :
    (after ops4 V (Proc.devRef .tc main_v217) : S2500000.Idx → EReal) (ix1 t)
      = Spec.P1 (Ideal.cos ((V (Proc.devRef .tc main_arg1) : S2500000.Idx → EReal) (ix1 t))) := by
  after_results_simp
  rfl

/-- (3·c·c − 1·1) / 2 is P₂. -/
theorem w4_P2 (t : Fin 2500000) :
    (after ops4 V (Proc.devRef .tc main_v226) : S2500000.Idx → EReal) (ix1 t)
      = Spec.P2 (Ideal.cos ((V (Proc.devRef .tc main_arg1) : S2500000.Idx → EReal) (ix1 t))) := by
  after_results_simp
  rfl

/-- (5·c·P₂ − 2·c) / 3 is P₃. -/
theorem w4_P3 (t : Fin 2500000) :
    (after ops4 V (Proc.devRef .tc main_v234) : S2500000.Idx → EReal) (ix1 t)
      = Spec.P3 (Ideal.cos ((V (Proc.devRef .tc main_arg1) : S2500000.Idx → EReal) (ix1 t))) := by
  after_results_simp
  rfl

/-- (7·c·P₃ − 3·P₂) / 4 is P₄. -/
theorem w4_P4 (t : Fin 2500000) :
    (after ops4 V (Proc.devRef .tc main_v242) : S2500000.Idx → EReal) (ix1 t)
      = Spec.P4 (Ideal.cos ((V (Proc.devRef .tc main_arg1) : S2500000.Idx → EReal) (ix1 t))) := by
  after_results_simp
  rfl

/-- (9·c·P₄ − 4·P₃) / 5 is P₅. -/
theorem w4_P5 (t : Fin 2500000) :
    (after ops4 V (Proc.devRef .tc main_v250) : S2500000.Idx → EReal) (ix1 t)
      = Spec.P5 (Ideal.cos ((V (Proc.devRef .tc main_arg1) : S2500000.Idx → EReal) (ix1 t))) := by
  after_results_simp
  rfl

/-- The numerator of P₆: 11·c·P₅ − 5·P₄. -/
theorem w4_num6 (t : Fin 2500000) :
    (after ops4 V (Proc.devRef .tc main_v256) : S2500000.Idx → EReal) (ix1 t)
      = (Spec.eleven * Ideal.cos ((V (Proc.devRef .tc main_arg1) : S2500000.Idx → EReal) (ix1 t)))
            * Spec.P5 (Ideal.cos ((V (Proc.devRef .tc main_arg1) : S2500000.Idx → EReal) (ix1 t)))
          - Spec.five * Spec.P4 (Ideal.cos ((V (Proc.devRef .tc main_arg1) : S2500000.Idx → EReal) (ix1 t))) := by
  after_results_simp
  rfl

/-- The denominator of P₆: the vector of sixes. -/
theorem w4_den6 (t : Fin 2500000) :
    (after ops4 V (Proc.devRef .tc main_v257) : S2500000.Idx → EReal) (ix1 t)
      = Spec.six := by
  after_results_simp
  rfl

end W4

/-! ## Window 5: the last quotient, the seven columns, and the table -/

section W5
variable (V : Valuation τ sig (Elt Ideal))

/-- The table at (t, l) is the l-th of the seven vectors at t; the seventh is the quotient formed in this window. -/
theorem w5_apply (t : Fin 2500000) (l : Fin 7) :
    (after ops5 V (Proc.devRef .tc main_v266) : S2500000x7.Idx → EReal) (ix2 t l)
      = ((![V (Proc.devRef .tc main_v218), V (Proc.devRef .tc main_v217),
            V (Proc.devRef .tc main_v226), V (Proc.devRef .tc main_v234), V (Proc.devRef .tc main_v242),
            V (Proc.devRef .tc main_v250),
            Host.divf (F := Ideal) (s := S2500000) (φ := .f32) (V (Proc.devRef .tc main_v256)) (V (Proc.devRef .tc main_v257))]
          : Fin 7 → (S2500000.Idx → EReal)) l) (ix1 t) := by
  after_results_simp
  dsimp only [Matrix.cons_val]
  after_results_simp
  exact concat7_col
    (![V (Proc.devRef .tc main_v218), V (Proc.devRef .tc main_v217),
        V (Proc.devRef .tc main_v226), V (Proc.devRef .tc main_v234), V (Proc.devRef .tc main_v242),
        V (Proc.devRef .tc main_v250),
        Host.divf (F := Ideal) (s := S2500000) (φ := .f32) (V (Proc.devRef .tc main_v256)) (V (Proc.devRef .tc main_v257))]
      : Fin 7 → (S2500000.Idx → EReal)) _ t l

end W5

/-! ## The table -/

/-- The angular table (the buffer of %266) at triplet t and order l. -/
theorem cbf_apply (c : Dev nD) (t : Fin 2500000) (l : Fin 7) :
    (after (ops (F := Ideal)) (launchContents m c) (Proc.devRef .tc main_v266) : S2500000x7.Idx → EReal) (ix2 t l)
      = Spec.leg l.val (Ideal.cos ((m ((c.tc : Thread nD τ).loc main_arg1) : S2500000.Idx → EReal) (ix1 t))) := by
  rw [after_ops]
  have hW : (after ops3 (after ops2 (after ops1 (after ops0 (launchContents m c)))) (Proc.devRef .tc main_arg1)
      : S2500000.Idx → EReal) = m ((c.tc : Thread nD τ).loc main_arg1) := by
    rw [kept3_arg1, kept2_arg1, kept1_arg1, kept0_arg1]
  generalize after ops3 (after ops2 (after ops1 (after ops0 (launchContents m c)))) = W at hW ⊢
  rw [w5_apply, ← hW]
  fin_cases l
  · exact w4_P0 W t
  · exact w4_P1 W t
  · exact w4_P2 W t
  · exact w4_P3 W t
  · exact w4_P4 W t
  · exact w4_P5 W t
  · show Ideal.div ((after ops4 W (Proc.devRef .tc main_v256) : S2500000.Idx → EReal) (ix1 t))
        ((after ops4 W (Proc.devRef .tc main_v257) : S2500000.Idx → EReal) (ix1 t)) = _
    rw [w4_num6, w4_den6]
    rfl

end Cert.ReferenceIdeal.Cbf

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.RefValB.lean ====
/-
  The reference's second result, entry by entry: a negative gather index is moved up by 1000000, the radial table's row at
  the (then clamped) index is gathered, reshaped to [T, 7, 6], multiplied by the angular table broadcast along the last
  axis, and reshaped back to [T, 42]. At (t, q) that is the radial table at (row, q) times the angular table at (t, q/6).
-/
import proofs.«426921_j31129922961736_3_alg».proof.Proof.RefRun
import proofs.«426921_j31129922961736_3_alg».proof.Proof.Spec
import proofs.«426921_j31129922961736_3_alg».proof.Proof.RefRbf
import proofs.«426921_j31129922961736_3_alg».proof.Proof.RefCbf
import proofs.«426921_j31129922961736_3_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.ReferenceIdeal.ValB

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

variable (m : (ℓ : Loc nD τ sig) → Buf (Elt Ideal) ℓ)

section Split
variable {F : FTy → Type} [FloatOps F]

/-- The last fourteen operations of window 5: the wrapped index, the gather, the two reshapes and the product. -/
abbrev opsB : List (HloOp τ sig (Elt F)) :=
  [ StableHlo.nullary main_c (constantI S_ 32 0#32),
    StableHlo.unary main_c main_v267 (broadcastInDim S2500000 ![] bcast_S_S2500000 : (⟨S_, .i32⟩ : BufTy).Contents (Elt F) → (⟨S2500000, .i32⟩ : BufTy).Contents (Elt F)),
    StableHlo.binary main_arg2 main_v267 main_v268 (cmpi .slt : (⟨S2500000, .i32⟩ : BufTy).Contents (Elt F) → (⟨S2500000, .i32⟩ : BufTy).Contents (Elt F) → (⟨S2500000, .i1⟩ : BufTy).Contents (Elt F)),
    StableHlo.nullary main_c_41 (constantI S_ 32 1000000#32),
    StableHlo.unary main_c_41 main_v269 (broadcastInDim S2500000 ![] bcast_S_S2500000 : (⟨S_, .i32⟩ : BufTy).Contents (Elt F) → (⟨S2500000, .i32⟩ : BufTy).Contents (Elt F)),
    StableHlo.binary main_arg2 main_v269 main_v270 (addi : (⟨S2500000, .i32⟩ : BufTy).Contents (Elt F) → (⟨S2500000, .i32⟩ : BufTy).Contents (Elt F) → (⟨S2500000, .i32⟩ : BufTy).Contents (Elt F)),
    StableHlo.ternary main_v268 main_v270 main_arg2 main_v271 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v271 main_v272 (broadcastInDim S2500000x1 ![0] bcast_S2500000_S2500000x1_0 : (⟨S2500000, .i32⟩ : BufTy).Contents (Elt F) → (⟨S2500000x1, .i32⟩ : BufTy).Contents (Elt F)),
    StableHlo.binary main_v216 main_v272 main_v273 ((fun x i => Host.gather gather_S1000000x42_S2500000x1_S2500000x42_1_0_n_n_0_1_142 x i) : (⟨S1000000x42, .f32⟩ : BufTy).Contents (Elt F) → (⟨S2500000x1, .i32⟩ : BufTy).Contents (Elt F) → (⟨S2500000x42, .f32⟩ : BufTy).Contents (Elt F)),
    StableHlo.reshape main_v273 main_v274 rfl shapeCasts_S2500000x42_S2500000x7x6,
    StableHlo.unary main_v266 main_v275 (broadcastInDim S2500000x7x1 ![0, 1] bcast_S2500000x7_S2500000x7x1_0_1 : (⟨S2500000x7, .f32⟩ : BufTy).Contents (Elt F) → (⟨S2500000x7x1, .f32⟩ : BufTy).Contents (Elt F)),
    StableHlo.unary main_v275 main_v276 (broadcastInDim S2500000x7x6 ![0, 1, 2] bcast_S2500000x7x1_S2500000x7x6_0_1_2 : (⟨S2500000x7x1, .f32⟩ : BufTy).Contents (Elt F) → (⟨S2500000x7x6, .f32⟩ : BufTy).Contents (Elt F)),
    StableHlo.binary main_v274 main_v276 main_v277 (mulf : (⟨S2500000x7x6, .f32⟩ : BufTy).Contents (Elt F) → (⟨S2500000x7x6, .f32⟩ : BufTy).Contents (Elt F) → (⟨S2500000x7x6, .f32⟩ : BufTy).Contents (Elt F)),
    StableHlo.reshape main_v277 main_v278 rfl shapeCasts_S2500000x7x6_S2500000x42 ]

/-- Window 5 is its first nine operations followed by the last fourteen. -/
theorem after5 (V : Valuation τ sig (Elt F)) :
    after (ops5 (F := F)) V = after opsB (after (List.take 9 (ops5 (F := F))) V) := by
  have h : after (ops5 (F := F)) V = after (List.take 9 (ops5 (F := F)) ++ List.drop 9 (ops5 (F := F))) V := by
    rw [List.take_append_drop]
  rw [h, HandRun.after_append]
  rfl

end Split

/-- The index vector with every negative entry moved up by 1000000, kept as a [T, 1] column. -/
def wrapCol (K : (⟨S2500000, .i32⟩ : BufTy).Contents (Elt Ideal)) : (⟨S2500000x1, .i32⟩ : BufTy).Contents (Elt Ideal) :=
  broadcastInDim S2500000x1 ![0] bcast_S2500000_S2500000x1_0
    (select (cmpi .slt K (broadcastInDim S2500000 ![] bcast_S_S2500000 (constantI S_ 32 0#32)))
      (addi K (broadcastInDim S2500000 ![] bcast_S_S2500000 (constantI S_ 32 1000000#32))) K)

/-- The last fourteen operations as one function of the radial table R, the angular table A and the index vector K:
    the rows of R gathered at the wrapped indices, viewed as [T, 7, 6], times A laid along the last axis, viewed as [T, 42]. -/
def tailB (R : (⟨S1000000x42, .f32⟩ : BufTy).Contents (Elt Ideal)) (A : (⟨S2500000x7, .f32⟩ : BufTy).Contents (Elt Ideal))
    (K : (⟨S2500000, .i32⟩ : BufTy).Contents (Elt Ideal)) : (⟨S2500000x42, .f32⟩ : BufTy).Contents (Elt Ideal) :=
  fun i => shapeCast S2500000x42
    (mulf (F := Ideal) (φ := .f32)
      (fun i => shapeCast S2500000x7x6
        (Host.gather gather_S1000000x42_S2500000x1_S2500000x42_1_0_n_n_0_1_142 R (wrapCol K))
        shapeCasts_S2500000x42_S2500000x7x6 i)
      (broadcastInDim S2500000x7x6 ![0, 1, 2] bcast_S2500000x7x1_S2500000x7x6_0_1_2
        (broadcastInDim S2500000x7x1 ![0, 1] bcast_S2500000x7_S2500000x7x1_0_1 A)))
    shapeCasts_S2500000x7x6_S2500000x42 i

section Window
variable (V : Valuation τ sig (Elt Ideal))

/-- The second result's buffer after the last fourteen operations. -/
theorem winB : after (opsB (F := Ideal)) V (Proc.devRef .tc main_v278)
    = tailB (V (Proc.devRef .tc main_v216)) (V (Proc.devRef .tc main_v266)) (V (Proc.devRef .tc main_arg2)) := by
  after_results_simp
  rfl

-- none of the fourteen writes the two tables or the index vector
theorem keptB_v216 : after (opsB (F := Ideal)) V (Proc.devRef .tc main_v216) = V (Proc.devRef .tc main_v216) := by after_results_simp
theorem keptB_v266 : after (opsB (F := Ideal)) V (Proc.devRef .tc main_v266) = V (Proc.devRef .tc main_v266) := by after_results_simp
theorem keptB_arg2 : after (opsB (F := Ideal)) V (Proc.devRef .tc main_arg2) = V (Proc.devRef .tc main_arg2) := by after_results_simp

end Window

/-- The program's gather record is the row gather's. -/
theorem gatherDims_eq : gather_S1000000x42_S2500000x1_S2500000x42_1_0_n_n_0_1_142
    = RowGather.rowDims 1000000 42 2500000 gather_S1000000x42_S2500000x1_S2500000x42_1_0_n_n_0_1_142_wf := rfl

/-- The wrapped column at row t: the index at t, moved up by 1000000 if negative. -/
theorem wrapCol_apply (K : (⟨S2500000, .i32⟩ : BufTy).Contents (Elt Ideal)) (t : Fin 2500000) :
    wrapCol K (ix2 t (0 : Fin 1)) = Spec.wrapR (K (ix1 t)) := by
  unfold wrapCol
  rw [broadcastInDim_apply _ _ _ (ix2 t (0 : Fin 1)) (ix1 t) (fun a => by
    match a with
    | ⟨0, _⟩ => exact (if_neg (show ¬ ((2500000 : Nat) = 1) by decide)).symm)]
  rfl

/-- The angular table laid along a new last axis of extent 6 reads, at (t, l, k), the table at (t, l). -/
theorem angB_apply (A : (⟨S2500000x7, .f32⟩ : BufTy).Contents (Elt Ideal)) (t : Fin 2500000) (l : Fin 7) (k : Fin 6) :
    broadcastInDim S2500000x7x6 ![0, 1, 2] bcast_S2500000x7x1_S2500000x7x6_0_1_2
        (broadcastInDim S2500000x7x1 ![0, 1] bcast_S2500000x7_S2500000x7x1_0_1 A) (ix3 t l k) = A (ix2 t l) := by
  rw [broadcastInDim_apply _ _ _ (ix3 t l k) (ix3 t l (0 : Fin 1)) (fun a => by
    match a with
    | ⟨0, _⟩ => exact (if_neg (show ¬ ((2500000 : Nat) = 1) by decide)).symm
    | ⟨1, _⟩ => exact (if_neg (show ¬ ((7 : Nat) = 1) by decide)).symm
    | ⟨2, _⟩ => exact (if_pos rfl).symm)]
  rw [broadcastInDim_apply _ _ _ (ix3 t l (0 : Fin 1)) (ix2 t l) (fun a => by
    match a with
    | ⟨0, _⟩ => exact (if_neg (show ¬ ((2500000 : Nat) = 1) by decide)).symm
    | ⟨1, _⟩ => exact (if_neg (show ¬ ((7 : Nat) = 1) by decide)).symm)]

/-- The last fourteen operations at (t, q): the radial table at (the clamped wrapped index at t, q) times the angular
    table at (t, q / 6). The two views cancel: (t, l, k) and (t, 6·l + k) have one row-major position. -/
theorem tailB_apply (R : (⟨S1000000x42, .f32⟩ : BufTy).Contents (Elt Ideal)) (A : (⟨S2500000x7, .f32⟩ : BufTy).Contents (Elt Ideal))
    (K : (⟨S2500000, .i32⟩ : BufTy).Contents (Elt Ideal)) (t : Fin 2500000) (q : Fin 42) :
    tailB R A K (ix2 t q)
      = R (ix2 (Spec.rowOf (Spec.wrapR (K (ix1 t)))) q) * A (ix2 t (⟨q.val / 6, by omega⟩ : Fin 7)) := by
  have hq := q.isLt
  unfold tailB
  rw [shapeCast_apply _ shapeCasts_S2500000x7x6_S2500000x42 (ix2 t q)
    (ix3 t (⟨q.val / 6, by omega⟩ : Fin 7) (⟨q.val % 6, Nat.mod_lt _ (by decide)⟩ : Fin 6)) (by
      rw [Shape.rowMajor_val_three, Shape.rowMajor_val_two]
      show (t.val * 7 + q.val / 6) * 6 + q.val % 6 = t.val * 42 + q.val
      omega)]
  rw [mulf_apply, angB_apply]
  congr 1
  rw [shapeCast_apply _ shapeCasts_S2500000x42_S2500000x7x6
    (ix3 t (⟨q.val / 6, by omega⟩ : Fin 7) (⟨q.val % 6, Nat.mod_lt _ (by decide)⟩ : Fin 6)) (ix2 t q) (by
      rw [Shape.rowMajor_val_three, Shape.rowMajor_val_two]
      show t.val * 42 + q.val = (t.val * 7 + q.val / 6) * 6 + q.val % 6
      omega)]
  rw [gatherDims_eq, RowGather.rowGather_apply (by decide)]
  refine congrArg (fun e => R (ix2 e q)) (Fin.ext ?_)
  show min (BitVec.toInt (wrapCol K (ix2 t (0 : Fin 1)))).toNat (1000000 - 1) = min (Spec.wrapR (K (ix1 t))).toInt.toNat 999999
  rw [wrapCol_apply]

/-- The second result is the last fourteen operations' function of the two tables, as all operations leave them, and the
    index vector as launched: no operation after a table's own writes it, and none writes the index vector. -/
theorem resB_eq (c : Dev nD) :
    resB (F := Ideal) m c
      = tailB (after (ops (F := Ideal)) (launchContents m c) (Proc.devRef .tc main_v216))
          (after (ops (F := Ideal)) (launchContents m c) (Proc.devRef .tc main_v266))
          (launchContents m c (Proc.devRef .tc main_arg2)) := by
  obtain ⟨X, hX⟩ : ∃ X, after (ops (F := Ideal)) (launchContents m c) = after opsB X := ⟨_, by rw [after_ops, after5]⟩
  show after (ops (F := Ideal)) (launchContents m c) (Proc.devRef .tc main_v278) = _
  rw [← kept_arg2 (launchContents m c), hX, keptB_v216, keptB_v266, keptB_arg2]
  exact winB X

/-- The second result at triplet t and column q. -/
theorem valB (c : Dev nD) (t : Fin 2500000) (q : Fin 42) :
    (resB (F := Ideal) m c : S2500000x42.Idx → EReal) (ix2 t q)
      = Spec.bR ((m ((c.tc : Thread nD τ).loc main_arg0) : S1000000.Idx → EReal)
            (ix1 (Spec.rowOf (Spec.wrapR ((m ((c.tc : Thread nD τ).loc main_arg2) : S2500000.Idx → BitVec 32) (ix1 t))))))
          ((m ((c.tc : Thread nD τ).loc main_arg1) : S2500000.Idx → EReal) (ix1 t)) q := by
  rw [resB_eq, tailB_apply, Rbf.rbf_apply, Cbf.cbf_apply]
  rfl

end Cert.ReferenceIdeal.ValB

end
-- ==== Proof.lean ====
/-
  The claims. Both kernel programs' frames are the generated ones; the reference's frame is its run with the results
  dropped; the one rewrite of the idealization is the named reciprocal 1/5.

  The equivalence: at the exact instance the kernel program ends with its two result arrays at the contents its last
  segment boundary names, and the reference with its two at its operations' fold. Entry by entry, the first result is
  env(d)·sin(freq·d) on both sides, the fifth power bracketed differently; the second is the envelope, Bessel and Legendre
  product on both sides, one side forming the reciprocal of x once, the other dividing each time, one side scaling the
  distance by 1/5, the other dividing by 5. The precondition gives that no distance is zero, which keeps x off zero where
  the two forms of a quotient part, and that no gather index is negative, where clamping and wrapping part.
-/
import proofs.«426921_j31129922961736_3_alg».proof.Defs
import proofs.«426921_j31129922961736_3_alg».proof.Proof.Gen.Kernel
import proofs.«426921_j31129922961736_3_alg».proof.Proof.Gen.Kernel.Frame
import proofs.«426921_j31129922961736_3_alg».proof.Proof.Gen.KernelIdeal
import proofs.«426921_j31129922961736_3_alg».proof.Proof.Gen.KernelIdeal.Frame
import proofs.«426921_j31129922961736_3_alg».proof.Proof.Gen.ReferenceIdeal
import proofs.«426921_j31129922961736_3_alg».proof.Proof.Gen.Pre_finite_inputs
import proofs.«426921_j31129922961736_3_alg».proof.Proof.Spec
import proofs.«426921_j31129922961736_3_alg».proof.Proof.PreFacts
import proofs.«426921_j31129922961736_3_alg».proof.Proof.KernelRun
import proofs.«426921_j31129922961736_3_alg».proof.Proof.KernelValA
import proofs.«426921_j31129922961736_3_alg».proof.Proof.KernelValB
import proofs.«426921_j31129922961736_3_alg».proof.Proof.RefRun
import proofs.«426921_j31129922961736_3_alg».proof.Proof.RefValA
import proofs.«426921_j31129922961736_3_alg».proof.Proof.RefValB
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- The one rewrite: the word 0.2 named as the rational 1/5. -/
theorem preserves : Cert.preserves_Kernel_KernelIdeal :=
  IdealRules.named_const.statement Cert.KernelIdeal.κ "inv_5" .f32 0x3E4CCCCD#32 ((1 / 5 : ℝ) : EReal) rfl

/-- The two programs end with equal results. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v2),
    fun c => Cert.KernelIdeal.Gen.W12 (F := Ideal) m ρ c (Proc.devRef .tc Cert.KernelIdeal.main_v8),
    Cert.KernelIdeal.RunValues.run_values (F := Ideal) m ρ, ?_⟩
  refine (θ_run Cert.ReferenceIdeal.defs _ _).mono (fun _ h c => ⟨(h c).1.trans ?_, (h c).2.1.trans ?_, (h c).2.2⟩)
    (Cert.ReferenceIdeal.HandRun.run (F := Ideal) m' ρ')
  · -- the first result, at edge e and radial index k
    funext j
    obtain ⟨e, k, rfl⟩ : ∃ (e : Fin 1000000) (k : Fin 6), j = ix2 e k := ⟨j 0, j 1, eq_ix2 j⟩
    refine (Cert.ReferenceIdeal.ValA.valA m' c e k).trans ?_
    refine Eq.trans ?_ (Cert.KernelIdeal.ValA.valA m ρ c e k).symm
    rw [(hagree c).1, (hagree c).2.2.2]
    exact (Cert.Spec.aK_eq_aR _ _).symm
  · -- the second result, at triplet t and column q
    obtain ⟨hd, hk⟩ := Cert.PreFacts.of_pre _ _ _ _ (hpre c)
    funext j
    obtain ⟨t, q, rfl⟩ : ∃ (t : Fin 2500000) (q : Fin 42), j = ix2 t q := ⟨j 0, j 1, eq_ix2 j⟩
    refine (Cert.ReferenceIdeal.ValB.valB m' c t q).trans ?_
    refine Eq.trans ?_ (Cert.KernelIdeal.ValB.valB m ρ c t q).symm
    rw [(hagree c).1, (hagree c).2.1, (hagree c).2.2.1, ← Cert.Spec.rows_agree _ (hk t)]
    exact (Cert.Spec.bK_eq_bR _ _ _ (hd _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
